-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x3 : Shape := ⟨2, ![4000000, 3]⟩
abbrev S4000000 : Shape := ⟨1, ![4000000]⟩
abbrev S4000000x8 : Shape := ⟨2, ![4000000, 8]⟩
abbrev S_ : Shape := ⟨0, ![]⟩

class Facts : Prop where
  bcast_S_S4000000x3 : S_.BroadcastsInDim S4000000x3 (![] : Fin 0 → Fin S4000000x3.rank)
  reducesTo_S4000000x3_S_d0_1 : S4000000x3.ReducesTo [0, 1] S_
  h_S_ : 0 < S_.numel
  bcast_S_S4000000x8 : S_.BroadcastsInDim S4000000x8 (![] : Fin 0 → Fin S4000000x8.rank)
  reducesTo_S4000000x8_S_d0_1 : S4000000x8.ReducesTo [0, 1] S_

variable [Facts]

def fn {F : FTy → Type} [FloatOps F] (main_arg0 : FVec F S4000000x3 .f32) (main_arg1 : FVec F S4000000x3 .f32) (main_arg2 : IVec S4000000 32) (main_arg3 : FVec F S4000000x8 .f32) : IVec S_ 1 :=
  let main_v0 : FVec F S4000000x3 .f32 := Host.absf main_arg0
  let main_cst : FVec F S_ .f32 := constant S_ .f32 0x7F800000#32
  let main_v1 : FVec F S4000000x3 .f32 := broadcastInDim S4000000x3 ![] bcast_S_S4000000x3 main_cst
  let main_v2 : IVec S4000000x3 1 := cmpf .olt main_v0 main_v1
  let main_c : IVec S_ 1 := constantI S_ 1 1#1
  let main_v3 : IVec S_ 1 := (fun x v => Host.reduce IntOp.andi x v reducesTo_S4000000x3_S_d0_1 h_S_) main_v2 main_c
  let main_v4 : FVec F S4000000x3 .f32 := Host.absf main_arg1
  let main_cst_0 : FVec F S_ .f32 := constant S_ .f32 0x7F800000#32
  let main_v5 : FVec F S4000000x3 .f32 := broadcastInDim S4000000x3 ![] bcast_S_S4000000x3 main_cst_0
  let main_v6 : IVec S4000000x3 1 := cmpf .olt main_v4 main_v5
  let main_c_1 : IVec S_ 1 := constantI S_ 1 1#1
  let main_v7 : IVec S_ 1 := (fun x v => Host.reduce IntOp.andi x v reducesTo_S4000000x3_S_d0_1 h_S_) main_v6 main_c_1
  let main_v8 : IVec S_ 1 := andi main_v3 main_v7
  let main_v9 : FVec F S4000000x8 .f32 := Host.absf main_arg3
  let main_cst_2 : FVec F S_ .f32 := constant S_ .f32 0x7F800000#32
  let main_v10 : FVec F S4000000x8 .f32 := broadcastInDim S4000000x8 ![] bcast_S_S4000000x8 main_cst_2
  let main_v11 : IVec S4000000x8 1 := cmpf .olt main_v9 main_v10
  let main_c_3 : IVec S_ 1 := constantI S_ 1 1#1
  let main_v12 : IVec S_ 1 := (fun x v => Host.reduce IntOp.andi x v reducesTo_S4000000x8_S_d0_1 h_S_) main_v11 main_c_3
  let main_v13 : IVec S_ 1 := andi main_v8 main_v12
  main_v13
-- ==== Kernel.lean ====
abbrev S4000000x3 : Shape := ⟨2, ![4000000, 3]⟩
abbrev S4000000 : Shape := ⟨1, ![4000000]⟩
abbrev S4000000x8 : Shape := ⟨2, ![4000000, 8]⟩
abbrev S4000000x1 : Shape := ⟨2, ![4000000, 1]⟩
abbrev S1x1024 : Shape := ⟨2, ![1, 1024]⟩
abbrev S1x1 : Shape := ⟨2, ![1, 1]⟩
abbrev S6144x3 : Shape := ⟨2, ![6144, 3]⟩
abbrev S6144x8 : Shape := ⟨2, ![6144, 8]⟩
abbrev S6144x1 : Shape := ⟨2, ![6144, 1]⟩
abbrev S256x3 : Shape := ⟨2, ![256, 3]⟩
abbrev S256x8 : Shape := ⟨2, ![256, 8]⟩
abbrev S256x1 : Shape := ⟨2, ![256, 1]⟩
abbrev S256 : Shape := ⟨1, ![256]⟩
abbrev S256x2 : Shape := ⟨2, ![256, 2]⟩
abbrev S256x1024 : Shape := ⟨2, ![256, 1024]⟩
abbrev S1024 : Shape := ⟨1, ![1024]⟩
abbrev S1 : Shape := ⟨1, ![1]⟩
abbrev S_ : Shape := ⟨0, ![]⟩

abbrev nBuf : Space → Nat
  | .hbm => 28
  | .vmem => 14
  | .smem => 0
  | _ => 0

abbrev bufTy : (tb : Table) → Fin (tcTables nBuf tb) → BufTy
  | .hbm, ⟨0, _⟩ => ⟨S4000000x3, .f32⟩
  | .hbm, ⟨1, _⟩ => ⟨S4000000x3, .f32⟩
  | .hbm, ⟨2, _⟩ => ⟨S4000000, .i32⟩
  | .hbm, ⟨3, _⟩ => ⟨S4000000x8, .f32⟩
  | .hbm, ⟨4, _⟩ => ⟨S4000000x1, .i32⟩
  | .hbm, ⟨5, _⟩ => ⟨S1x1024, .f32⟩
  | .hbm, ⟨6, _⟩ => ⟨S1x1024, .f32⟩
  | .hbm, ⟨7, _⟩ => ⟨S1x1, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S6144x3, .f32⟩
  | .local _ .vmem, ⟨1, _⟩ => ⟨S6144x3, .f32⟩
  | .local _ .vmem, ⟨2, _⟩ => ⟨S6144x3, .f32⟩
  | .local _ .vmem, ⟨3, _⟩ => ⟨S6144x3, .f32⟩
  | .local _ .vmem, ⟨4, _⟩ => ⟨S6144x8, .f32⟩
  | .local _ .vmem, ⟨5, _⟩ => ⟨S6144x8, .f32⟩
  | .local _ .vmem, ⟨6, _⟩ => ⟨S6144x1, .i32⟩
  | .local _ .vmem, ⟨7, _⟩ => ⟨S6144x1, .i32⟩
  | .local _ .vmem, ⟨8, _⟩ => ⟨S1x1024, .f32⟩
  | .local _ .vmem, ⟨9, _⟩ => ⟨S1x1024, .f32⟩
  | .local _ .vmem, ⟨10, _⟩ => ⟨S1x1, .f32⟩
  | .local _ .vmem, ⟨11, _⟩ => ⟨S1x1024, .f32⟩
  | .local _ .vmem, ⟨12, _⟩ => ⟨S1x1024, .f32⟩
  | .local _ .vmem, ⟨13, _⟩ => ⟨S1x1, .f32⟩
  | _, _ => ⟨S4000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![652], ![false]⟩

@[reducible] def k0_t1_loop : Scf.Loop 32 :=
  let c0_i32_1 : BitVec 32 := 0#32
  let c24_i32 : BitVec 32 := 24#32
  let v3 : BitVec 32 := Scalar.addi c0_i32_1 c24_i32
  let c1_i32 : BitVec 32 := 1#32
  ⟨c0_i32_1, v3, c1_i32⟩
def k0_mult1 (k0_t1 : Fin k0_t1_loop.trips) : BitVec 32 :=
  let c0_i32_5 : BitVec 32 := 0#32
  let c0_i32_1 : BitVec 32 := 0#32
  let c1_i32 : BitVec 32 := 1#32
  let arg11 : BitVec 32 := Scf.iv c0_i32_1 c1_i32 k0_t1
  let c1_i32_4 : BitVec 32 := 1#32
  let v7 : BitVec 32 := Scalar.muli arg11 c1_i32_4
  let v8 : BitVec 32 := Scalar.addi c0_i32_5 v7
  let c256_i32 : BitVec 32 := 256#32
  let v9 : BitVec 32 := Scalar.muli v8 c256_i32
  v9
def k0_off1 (k0_t1 : Fin k0_t1_loop.trips) : Fin 2 → Nat :=
  let c0_i32_5 : BitVec 32 := 0#32
  let c0_i32_1 : BitVec 32 := 0#32
  let c1_i32 : BitVec 32 := 1#32
  let arg11 : BitVec 32 := Scf.iv c0_i32_1 c1_i32 k0_t1
  let c1_i32_4 : BitVec 32 := 1#32
  let v7 : BitVec 32 := Scalar.muli arg11 c1_i32_4
  let v8 : BitVec 32 := Scalar.addi c0_i32_5 v7
  let c256_i32 : BitVec 32 := 256#32
  let v9 : BitVec 32 := Scalar.muli v8 c256_i32
  let v10 : BitVec 32 := v9
  let v11 : Index := Scalar.indexCast v10
  let c0 : Index := 0#32
  ![v11.toNat, 0]
def k0_off2 (k0_t1 : Fin k0_t1_loop.trips) : Fin 2 → Nat :=
  let c0_i32_5 : BitVec 32 := 0#32
  let c0_i32_1 : BitVec 32 := 0#32
  let c1_i32 : BitVec 32 := 1#32
  let arg11 : BitVec 32 := Scf.iv c0_i32_1 c1_i32 k0_t1
  let c1_i32_4 : BitVec 32 := 1#32
  let v7 : BitVec 32 := Scalar.muli arg11 c1_i32_4
  let v8 : BitVec 32 := Scalar.addi c0_i32_5 v7
  let c256_i32 : BitVec 32 := 256#32
  let v9 : BitVec 32 := Scalar.muli v8 c256_i32
  let v10 : BitVec 32 := v9
  let v15 : Index := Scalar.indexCast v10
  let c0_7 : Index := 0#32
  ![v15.toNat, 0]
def k0_off3 (k0_t1 : Fin k0_t1_loop.trips) : Fin 2 → Nat :=
  let c0_i32_5 : BitVec 32 := 0#32
  let c0_i32_1 : BitVec 32 := 0#32
  let c1_i32 : BitVec 32 := 1#32
  let arg11 : BitVec 32 := Scf.iv c0_i32_1 c1_i32 k0_t1
  let c1_i32_4 : BitVec 32 := 1#32
  let v7 : BitVec 32 := Scalar.muli arg11 c1_i32_4
  let v8 : BitVec 32 := Scalar.addi c0_i32_5 v7
  let c256_i32 : BitVec 32 := 256#32
  let v9 : BitVec 32 := Scalar.muli v8 c256_i32
  let v10 : BitVec 32 := v9
  let v17 : Index := Scalar.indexCast v10
  let c0_8 : Index := 0#32
  ![v17.toNat, 0]
def k0_cond2 (i : grid0.Coords) : BitVec 1 :=
  let arg0 : BitVec 32 := BitVec.ofNat 32 (i 0).val
  let c651_i32 : BitVec 32 := 651#32
  let v4 : BitVec 1 := Scalar.cmpi .eq arg0 c651_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6144x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6144x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6144x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6144x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S4000000_S4000000x1 : S4000000.ShapeCasts S4000000x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S256x3 : 0 < S256x3.numel
  h_S256x8 : 0 < S256x8.numel
  h_S256x1 : 0 < S256x1.numel
  shapeCasts_S256x1_S256x1 : S256x1.ShapeCasts S256x1
  reduces_S256x3_S256 : S256x3.Reduces [1] S256
  shapeCasts_S256_S256x1 : S256.ShapeCasts S256x1
  slices_S256x8_o0_3_S256x2 : S256x8.Slices ![0, 3] S256x2
  reduces_S256x2_S256 : S256x2.Reduces [1] S256
  iota_S256x1_d0_w32 : S256x1.Iotas .tc 32 [0]
  iota_S256x1024_d1_w32 : S256x1024.Iotas .tc 32 [1]
  broadcasts_S256x1_S256x1024 : S256x1.Broadcasts S256x1024
  natLt_1_32 : 1 < 32
  reduces_S256x1024_S1024 : S256x1024.Reduces [0] S1024
  shapeCasts_S1024_S1x1024 : S1024.ShapeCasts S1x1024
  reduces_S256x1_S1 : S256x1.Reduces [0] S1
  shapeCasts_S1_S1x1 : S1.ShapeCasts S1x1
  shapeCasts_S1x1024_S1024 : S1x1024.ShapeCasts S1024
  shapeCasts_S1x1_S_ : S1x1.ShapeCasts S_
  bcast_S_S1024 : S_.BroadcastsInDim S1024 (![] : Fin 0 → Fin S1024.rank)
  reducesTo_S1024_S_d0 : S1024.ReducesTo [0] S_
  h_S_ : 0 < S_.numel
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x3.size a ≤ S6144x3.size a
  k0_off2_inb : ∀ k0_t1 : Fin k0_t1_loop.trips, ∀ a, (k0_off2 k0_t1) a + S256x8.size a ≤ S6144x8.size a
  k0_off3_inb : ∀ k0_t1 : Fin k0_t1_loop.trips, ∀ a, (k0_off3 k0_t1) a + S256x1.size a ≤ S6144x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S6144x3.size a < S4000000x3.size a
  hwx0_0 : ∀ i : grid0.Coords, EltTy.bits .f32 = 32 ∨ (Rect.unit (s := S4000000x3) (fun a => cc0_transform_0 i a * S6144x3.size a) (fun a => (Pipeline.Clip.of (cc0_transform_0 i a) (S6144x3.size a) (S4000000x3.size a)).extent (S6144x3.size a)) fun a => Pipeline.Clip.inb (Pipeline.Clip.ok_of (hstart0_0 i a))).WholeWords (EltTy.packing .f32)
  hwxs0_0 : ∀ i : grid0.Coords, EltTy.bits .f32 = 32 ∨ (Rect.unit (s := S6144x3) (fun _ => 0) (fun a => (Pipeline.Clip.of (cc0_transform_0 i a) (S6144x3.size a) (S4000000x3.size a)).extent (S6144x3.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S6144x3.size a < S4000000x3.size a
  hwx0_1 : ∀ i : grid0.Coords, EltTy.bits .f32 = 32 ∨ (Rect.unit (s := S4000000x3) (fun a => cc0_transform_1 i a * S6144x3.size a) (fun a => (Pipeline.Clip.of (cc0_transform_1 i a) (S6144x3.size a) (S4000000x3.size a)).extent (S6144x3.size a)) fun a => Pipeline.Clip.inb (Pipeline.Clip.ok_of (hstart0_1 i a))).WholeWords (EltTy.packing .f32)
  hwxs0_1 : ∀ i : grid0.Coords, EltTy.bits .f32 = 32 ∨ (Rect.unit (s := S6144x3) (fun _ => 0) (fun a => (Pipeline.Clip.of (cc0_transform_1 i a) (S6144x3.size a) (S4000000x3.size a)).extent (S6144x3.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S6144x8.size a < S4000000x8.size a
  hwx0_2 : ∀ i : grid0.Coords, EltTy.bits .f32 = 32 ∨ (Rect.unit (s := S4000000x8) (fun a => cc0_transform_2 i a * S6144x8.size a) (fun a => (Pipeline.Clip.of (cc0_transform_2 i a) (S6144x8.size a) (S4000000x8.size a)).extent (S6144x8.size a)) fun a => Pipeline.Clip.inb (Pipeline.Clip.ok_of (hstart0_2 i a))).WholeWords (EltTy.packing .f32)
  hwxs0_2 : ∀ i : grid0.Coords, EltTy.bits .f32 = 32 ∨ (Rect.unit (s := S6144x8) (fun _ => 0) (fun a => (Pipeline.Clip.of (cc0_transform_2 i a) (S6144x8.size a) (S4000000x8.size a)).extent (S6144x8.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S6144x1.size a < S4000000x1.size a
  hwx0_3 : ∀ i : grid0.Coords, EltTy.bits .i32 = 32 ∨ (Rect.unit (s := S4000000x1) (fun a => cc0_transform_3 i a * S6144x1.size a) (fun a => (Pipeline.Clip.of (cc0_transform_3 i a) (S6144x1.size a) (S4000000x1.size a)).extent (S6144x1.size a)) fun a => Pipeline.Clip.inb (Pipeline.Clip.ok_of (hstart0_3 i a))).WholeWords (EltTy.packing .i32)
  hwxs0_3 : ∀ i : grid0.Coords, EltTy.bits .i32 = 32 ∨ (Rect.unit (s := S6144x1) (fun _ => 0) (fun a => (Pipeline.Clip.of (cc0_transform_3 i a) (S6144x1.size a) (S4000000x1.size a)).extent (S6144x1.size a)) fun a => (Nat.zero_add _).trans_le (Pipeline.Clip.extent_le (Pipeline.Clip.ok_of (hstart0_3 i a)))).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

abbrev win0_0 : Pipeline.Window sig grid0 :=
  Pipeline.Window.ofSpecClip (Memref.whole main_arg0) S6144x3.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S6144x3.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg3) S6144x8.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0) S6144x1.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_v1_0) S1x1024.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1024.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4000000x3 : Shape := ⟨2, ![4000000, 3]⟩
abbrev S4000000 : Shape := ⟨1, ![4000000]⟩
abbrev S4000000x8 : Shape := ⟨2, ![4000000, 8]⟩
abbrev S_ : Shape := ⟨0, ![]⟩
abbrev S1024 : Shape := ⟨1, ![1024]⟩
abbrev S4000000x1 : Shape := ⟨2, ![4000000, 1]⟩
abbrev S4000000x2 : Shape := ⟨2, ![4000000, 2]⟩

abbrev nBuf : Space → Nat
  | .hbm => 42
  | .vmem => 0
  | .smem => 0
  | _ => 0

abbrev bufTy : (tb : Table) → Fin (tcTables nBuf tb) → BufTy
  | .hbm, ⟨0, _⟩ => ⟨S4000000x3, .f32⟩
  | .hbm, ⟨1, _⟩ => ⟨S4000000x3, .f32⟩
  | .hbm, ⟨2, _⟩ => ⟨S4000000, .i32⟩
  | .hbm, ⟨3, _⟩ => ⟨S4000000x8, .f32⟩
  | .hbm, ⟨4, _⟩ => ⟨S4000000x3, .f32⟩
  | .hbm, ⟨5, _⟩ => ⟨S4000000x3, .f32⟩
  | .hbm, ⟨6, _⟩ => ⟨S_, .f32⟩
  | .hbm, ⟨7, _⟩ => ⟨S4000000, .f32⟩
  | .hbm, ⟨8, _⟩ => ⟨S_, .f32⟩
  | .hbm, ⟨9, _⟩ => ⟨S4000000, .f32⟩
  | .hbm, ⟨10, _⟩ => ⟨S_, .f32⟩
  | .hbm, ⟨11, _⟩ => ⟨S1024, .f32⟩
  | .hbm, ⟨12, _⟩ => ⟨S4000000x1, .i32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S4000000x1, .i32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S4000000x2, .f32⟩
  | .hbm, ⟨26, _⟩ => ⟨S4000000x2, .f32⟩
  | .hbm, ⟨27, _⟩ => ⟨S_, .f32⟩
  | .hbm, ⟨28, _⟩ => ⟨S4000000, .f32⟩
  | .hbm, ⟨29, _⟩ => ⟨S4000000, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S4000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_7 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_cst_9 : Ref sig .tc := ⟨.hbm, 40, rfl⟩
abbrev main_v23 : Ref sig .tc := ⟨.hbm, 41, rfl⟩

abbrev nD : Nat := 1
abbrev τ : Topo := Topo.v7x

variable {F : FTy → Type} [FloatOps F]

class Facts₀ : Prop where
  reducesTo_S4000000x3_S4000000_d1 : S4000000x3.ReducesTo [1] S4000000
  h_S_ : 0 < S_.numel
  bcast_S_S4000000 : S_.BroadcastsInDim S4000000 (![] : Fin 0 → Fin S4000000.rank)
  bcast_S_S1024 : S_.BroadcastsInDim S1024 (![] : Fin 0 → Fin S1024.rank)
  bcast_S4000000_S4000000x1_0 : S4000000.BroadcastsInDim S4000000x1 (![0] : Fin 1 → Fin S4000000x1.rank)
  slices_S4000000x8_S4000000x2_0_3 : S4000000x8.Slices ![0, 3] S4000000x2
  reducesTo_S4000000x2_S4000000_d1 : S4000000x2.ReducesTo [1] S4000000
  reducesTo_S4000000_S_d0 : S4000000.ReducesTo [0] S_
  reducesTo_S1024_S_d0 : S1024.ReducesTo [0] S_
  scatter_S1024_S4000000x1_S4000000_n_0_0_1_wf : ScatterDims.WF S1024 S4000000x1 S4000000 [] [0] [0] 1

variable [Facts₀]

def scatter_S1024_S4000000x1_S4000000_n_0_0_1 : ScatterDims S1024 S4000000x1 S4000000 where
  updateWindowDims := []
  insertedWindowDims := [0]
  scatterDimsToOperandDims := [0]
  indexVectorDim := 1
  wf := scatter_S1024_S4000000x1_S4000000_n_0_0_1_wf

class Facts : Prop extends Facts₀ where

variable [Facts]
-- ==== Proof.KStepBits.lean ====
/-
  The kernel body's arithmetic as a recursion, for any float instance.

  At one grid point the body visits the 24 row chunks (256 rows each) of its four staged blocks. Chunk `k`
  adds, to the three running accumulators (the per-graph error sums, the per-graph node counts, the total force),
  that chunk's contribution: the one-hot selection of each row's graph id against the 1024 graphs times the row's
  absolute error, the one-hot selection itself, and the row's force norm — every row past the array's end masked
  to zero (its graph id to -1). `tripStep` is one chunk's update, `loopRes` the chunks before `n`, `pointRes`
  the whole point: the accumulators are first cleared at the first grid point.
-/
import proofs.«422350_j40346922778987_2_alg».proof.Proof.Gen.Kernel.Skeleton
import Idealize.ShloMosaic.Lib.Pipeline.FrameBody
import Idealize.ShloMosaic.Lib.ValueIdx

noncomputable section

namespace Cert.Kernel.KV

open Cert.Kernel Cert.Kernel.Gen
open Idealize.ShloMosaic

variable {F : FTy → Type} [FloatOps F]

/-- The three accumulators: error sums and node counts per graph (1024 lanes), and the total force. -/
abbrev Scr (F : FTy → Type) [FloatOps F] : Type := Vec F S1x1024 .f32 × Vec F S1x1024 .f32 × Vec F S1x1 .f32

/-- Rows `256 k … 256 k + 255` of a staged block of three columns, -/
def ch3 (X : Vec F S6144x3 .f32) (k : Fin k0_t1_loop.trips) : Vec F S256x3 .f32 :=
  View.ld X (Rect.unit (s := S6144x3) (k0_off1 k) S256x3.size (k0_off1_inb k))
/-- of eight columns, -/
def ch8 (X : Vec F S6144x8 .f32) (k : Fin k0_t1_loop.trips) : Vec F S256x8 .f32 :=
  View.ld X (Rect.unit (s := S6144x8) (k0_off2 k) S256x8.size (k0_off2_inb k))
/-- and of the one column of graph ids. -/
def ch1 (X : Vec F S6144x1 .i32) (k : Fin k0_t1_loop.trips) : Vec F S256x1 .i32 :=
  View.ld X (Rect.unit (s := S6144x1) (k0_off3 k) S256x1.size (k0_off3_inb k))

/-- Chunk `k`'s update of the accumulators at the grid point whose coordinate word is `arg0`. -/
def tripStep (arg0 : BitVec 32) (X0 X1 : Vec F S6144x3 .f32) (X2 : Vec F S6144x8 .f32) (X3 : Vec F S6144x1 .i32)
    (k : Fin k0_t1_loop.trips) (s : Scr F) : Scr F :=
  (k0_pay4 s.1 (k0_pay10 arg0 0#32 1#32 k (ch3 X0 k) (ch3 X1 k) (ch1 X3 k)),
   k0_pay5 (k0_pay9 arg0 0#32 1#32 k (ch1 X3 k)) s.2.1,
   k0_pay6 (k0_pay8 arg0 0#32 1#32 k (ch8 X2 k)) s.2.2)

/-- The accumulators after the chunks before `n`, from `s`. -/
def loopRes (arg0 : BitVec 32) (X0 X1 : Vec F S6144x3 .f32) (X2 : Vec F S6144x8 .f32) (X3 : Vec F S6144x1 .i32)
    (s : Scr F) : ℕ → Scr F
  | 0 => s
  | n + 1 => if h : n < k0_t1_loop.trips then tripStep arg0 X0 X1 X2 X3 ⟨n, h⟩ (loopRes arg0 X0 X1 X2 X3 s n)
      else loopRes arg0 X0 X1 X2 X3 s n

theorem loopRes_succ (arg0 : BitVec 32) (X0 X1 : Vec F S6144x3 .f32) (X2 : Vec F S6144x8 .f32) (X3 : Vec F S6144x1 .i32)
    (s : Scr F) (k : Fin k0_t1_loop.trips) :
    loopRes arg0 X0 X1 X2 X3 s (k.val + 1) = tripStep arg0 X0 X1 X2 X3 k (loopRes arg0 X0 X1 X2 X3 s k.val) := by
  rw [loopRes]; exact dif_pos k.isLt

/-- The cleared accumulators. -/
def zeroScr : Scr F := (k0_pay1, k0_pay2, k0_pay3)

/-- The first grid point clears the accumulators: the body's first branch condition, from the grid coordinate. -/
abbrev condFirst (i : grid0.Coords) : Prop :=
  (Scalar.cmpi .ne (Scalar.extui (Scalar.cmpi .eq (BitVec.ofNat 32 (i 0).val) 0#32)) 0#32) = 1#1
/-- The last grid point copies the accumulators out: the body's second branch condition. -/
abbrev condLast (i : grid0.Coords) : Prop := k0_cond2 i = 1#1

/-- The accumulators a grid point leaves, from the four staged blocks and what the point before left. -/
def pointRes (i : grid0.Coords) (X0 X1 : Vec F S6144x3 .f32) (X2 : Vec F S6144x8 .f32) (X3 : Vec F S6144x1 .i32)
    (s : Scr F) : Scr F :=
  loopRes (BitVec.ofNat 32 (i 0).val) X0 X1 X2 X3 (if condFirst i then zeroScr else s) k0_t1_loop.trips

/-! ## The accumulators over the whole grid -/

open Idealize.ShloMosaic.ValueIdx in
/-- A staged block of three columns at grid point `t` agrees with the array on the rows inside the array
    (row `r` of the block is row `6144 t + r` of the array); the rows past the array's end are unconstrained. -/
def Agree3 (A : Vec F S4000000x3 .f32) (t : Fin cfg0.N) (Y : Vec F S6144x3 .f32) : Prop :=
  ∀ (r : Fin 6144) (j : Fin 3) (h : t.val * 6144 + r.val < 4000000), Y (ix2 r j) = A (ix2 ⟨t.val * 6144 + r.val, h⟩ j)
open Idealize.ShloMosaic.ValueIdx in
def Agree8 (A : Vec F S4000000x8 .f32) (t : Fin cfg0.N) (Y : Vec F S6144x8 .f32) : Prop :=
  ∀ (r : Fin 6144) (j : Fin 8) (h : t.val * 6144 + r.val < 4000000), Y (ix2 r j) = A (ix2 ⟨t.val * 6144 + r.val, h⟩ j)
open Idealize.ShloMosaic.ValueIdx in
def Agree1 (A : Vec F S4000000x1 .i32) (t : Fin cfg0.N) (Y : Vec F S6144x1 .i32) : Prop :=
  ∀ (r : Fin 6144) (j : Fin 1) (h : t.val * 6144 + r.val < 4000000), Y (ix2 r j) = A (ix2 ⟨t.val * 6144 + r.val, h⟩ j)

/-- The accumulators after grid point `n`, from the staged blocks of every point (`s0` is what the scratch held
    before the first point, which the first point clears). -/
def accAll (Y0 Y1 : Fin cfg0.N → Vec F S6144x3 .f32) (Y2 : Fin cfg0.N → Vec F S6144x8 .f32) (Y3 : Fin cfg0.N → Vec F S6144x1 .i32)
    (s0 : Scr F) : ℕ → Scr F
  | 0 => if h : 0 < cfg0.N then pointRes (grid0.coords ⟨0, h⟩) (Y0 ⟨0, h⟩) (Y1 ⟨0, h⟩) (Y2 ⟨0, h⟩) (Y3 ⟨0, h⟩) s0 else s0
  | n + 1 => if h : n + 1 < cfg0.N then
      pointRes (grid0.coords ⟨n + 1, h⟩) (Y0 ⟨n + 1, h⟩) (Y1 ⟨n + 1, h⟩) (Y2 ⟨n + 1, h⟩) (Y3 ⟨n + 1, h⟩) (accAll Y0 Y1 Y2 Y3 s0 n)
    else accAll Y0 Y1 Y2 Y3 s0 n

theorem accAll_zero (Y0 Y1 : Fin cfg0.N → Vec F S6144x3 .f32) (Y2 : Fin cfg0.N → Vec F S6144x8 .f32) (Y3 : Fin cfg0.N → Vec F S6144x1 .i32)
    (s0 : Scr F) (t : Fin cfg0.N) (ht : t.val = 0) :
    accAll Y0 Y1 Y2 Y3 s0 t.val = pointRes (grid0.coords t) (Y0 t) (Y1 t) (Y2 t) (Y3 t) s0 := by
  obtain ⟨n, hn⟩ := t; cases n with
  | zero => exact dif_pos hn
  | succ n => exact absurd ht (Nat.succ_ne_zero n)

theorem accAll_pos (Y0 Y1 : Fin cfg0.N → Vec F S6144x3 .f32) (Y2 : Fin cfg0.N → Vec F S6144x8 .f32) (Y3 : Fin cfg0.N → Vec F S6144x1 .i32)
    (s0 : Scr F) (t : Fin cfg0.N) (ht : t.val ≠ 0) :
    accAll Y0 Y1 Y2 Y3 s0 t.val = pointRes (grid0.coords t) (Y0 t) (Y1 t) (Y2 t) (Y3 t) (accAll Y0 Y1 Y2 Y3 s0 (t.val - 1)) := by
  obtain ⟨n, hn⟩ := t; cases n with
  | zero => exact absurd rfl ht
  | succ n => exact dif_pos hn

end Cert.Kernel.KV

end
-- ==== Proof.DatDefBits.lean ====
/-
  The proof data of the kernel's one pipeline, at any float instance.

  After the body at grid point `t` each input's staging buffer holds its block of the array (on the rows inside the
  array; the fetch at the last point is cut there), the three scratch accumulators hold `accAt t` — the recursion
  over the points before and at `t` of the per-point update on the staged blocks — and, at the last point, the three
  outputs' buffers hold the accumulators. Between points the invariant keeps the scratch at `accAt`.
-/
import proofs.«422350_j40346922778987_2_alg».proof.Proof.KStepBits
import proofs.«422350_j40346922778987_2_alg».proof.Proof.Gen.Kernel.Frame

set_option maxRecDepth 16384

noncomputable section

namespace Cert.Kernel.KV

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- What the four input staging buffers hold at point `t` after the fetch, the rows past the array's end filled with a
    fixed word (nothing reads them unmasked). -/
def stg0 (c : Dev nD) (t : Fin cfg0.N) : Vec F S6144x3 .f32 :=
  win0_0.fill (grid0.coords t) (fun _ => Scalar.ofBits .f32 0#32) (iblk m c 0 t)
def stg1 (c : Dev nD) (t : Fin cfg0.N) : Vec F S6144x3 .f32 :=
  win0_1.fill (grid0.coords t) (fun _ => Scalar.ofBits .f32 0#32) (iblk m c 1 t)
def stg2 (c : Dev nD) (t : Fin cfg0.N) : Vec F S6144x8 .f32 :=
  win0_2.fill (grid0.coords t) (fun _ => Scalar.ofBits .f32 0#32) (iblk m c 2 t)
def stg3 (c : Dev nD) (t : Fin cfg0.N) : Vec F S6144x1 .i32 :=
  win0_3.fill (grid0.coords t) (fun _ => (0#32 : BitVec 32)) (iblk m c 3 t)

/-- The accumulators after grid point `n`. -/
def accAt (c : Dev nD) (n : ℕ) : Scr F := accAll (stg0 m c) (stg1 m c) (stg2 m c) (stg3 m c) zeroScr n

/-- The three scratch operands: whole scoped buffers of the kernel's own. -/
abbrev scM8 : Memref sig .tc .vmem S1x1024 .f32 := Memref.whole cc0_scratch0
abbrev scM9 : Memref sig .tc .vmem S1x1024 .f32 := Memref.whole cc0_scratch1
abbrev scM10 : Memref sig .tc .vmem S1x1 .f32 := Memref.whole cc0_scratch2

/-- The region invariant before point `n`: before the first point the scratch at anything; afterwards at what the
    point before left. -/
def PhiS (c : Dev nD) : ℕ → sProp 𝕄
  | 0 => Pipeline.ΦA spec0 c
  | n + 1 => iprop(iprop(owns (c : Thread nD τ) scM8 fullShare (accAt m c n).1 ∗ owns (c : Thread nD τ) scM9 fullShare (accAt m c n).2.1
      ∗ owns (c : Thread nD τ) scM10 fullShare (accAt m c n).2.2) ∗ (∃ r, prngReg c r))

/-- The proof data. -/
def dats (_ : Fin 1) (c : Dev nD) : Dat τ (Elt F) Unit ℕ (UR sig nD τ) ℕ cfg0 c where
  A w := V m c (Pipeline.arrRef spec0 w)
  after w t := match w with
    | ⟨0, _⟩ => stg0 m c t
    | ⟨1, _⟩ => stg1 m c t
    | ⟨2, _⟩ => stg2 m c t
    | ⟨3, _⟩ => stg3 m c t
    | ⟨4, _⟩ => (accAt m c t.val).1
    | ⟨5, _⟩ => (accAt m c t.val).2.1
    | ⟨6, _⟩ => (accAt m c t.val).2.2
    | ⟨_ + 7, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = stg0 m c t := by dsimp only [dats]
theorem after0_1 (c : Dev nD) (t : Fin cfg0.N) : (dats m 0 c).after 1 t = stg1 m c t := by dsimp only [dats]
theorem after0_2 (c : Dev nD) (t : Fin cfg0.N) : (dats m 0 c).after 2 t = stg2 m c t := by dsimp only [dats]
theorem after0_3 (c : Dev nD) (t : Fin cfg0.N) : (dats m 0 c).after 3 t = stg3 m c t := by dsimp only [dats]
theorem after0_4 (c : Dev nD) (t : Fin cfg0.N) : (dats m 0 c).after 4 t = (accAt m c t.val).1 := by dsimp only [dats]
theorem after0_5 (c : Dev nD) (t : Fin cfg0.N) : (dats m 0 c).after 5 t = (accAt m c t.val).2.1 := by dsimp only [dats]
theorem after0_6 (c : Dev nD) (t : Fin cfg0.N) : (dats m 0 c).after 6 t = (accAt m c t.val).2.2 := by dsimp only [dats]

end Cert.Kernel.KV

end
-- ==== Proof.OutArrBits.lean ====
/-
  What the body finds in the input staging buffers, and what the three result arrays hold after the run.

  Every input window is fetched at every grid point: its buffer holds its block on the rows the transfer moves and
  what it held before elsewhere. The three results are single blocks written back once, after the last point: each
  result array ends holding the corresponding accumulator after the last point.
-/
import proofs.«422350_j40346922778987_2_alg».proof.Proof.DatDefBits
import proofs.«422350_j40346922778987_2_alg».proof.Proof.Gen.Kernel.Points
import Idealize.ShloMosaic.Lib.Pipeline.Value

set_option maxRecDepth 16384

noncomputable section

namespace Cert.Kernel.KV

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ)

theorem before0_0 (c : Dev nD) (t : Fin cfg0.N) (d) :
    (dats m 0 c).before (0 : Fin 7) t d = win0_0.fill (grid0.coords t) d (iblk m c 0 t) := by
  unfold Dat.before; rw [if_pos (fetch0_0 t)]; rfl
theorem before0_1 (c : Dev nD) (t : Fin cfg0.N) (d) :
    (dats m 0 c).before (1 : Fin 7) t d = win0_1.fill (grid0.coords t) d (iblk m c 1 t) := by
  unfold Dat.before; rw [if_pos (fetch0_1 t)]; rfl
theorem before0_2 (c : Dev nD) (t : Fin cfg0.N) (d) :
    (dats m 0 c).before (2 : Fin 7) t d = win0_2.fill (grid0.coords t) d (iblk m c 2 t) := by
  unfold Dat.before; rw [if_pos (fetch0_2 t)]; rfl
theorem before0_3 (c : Dev nD) (t : Fin cfg0.N) (d) :
    (dats m 0 c).before (3 : Fin 7) t d = win0_3.fill (grid0.coords t) d (iblk m c 3 t) := by
  unfold Dat.before; rw [if_pos (fetch0_3 t)]; rfl

/-- The block of the first result at every grid point is the block at index (0, 0): the whole array. -/
theorem idx_facts4 : ∀ t : Fin cfg0.N, win0_4.index t (0 : Fin 2) = 0 ∧ win0_4.index t (1 : Fin 2) = 0 :=
  (by decide +kernel : ∀ t : Fin grid0.N, _)

/-- The first result array after the run holds what its buffer holds after the body at the last point: that point
    alone writes back, and its block is the whole array. -/
theorem arrAt_of_last4 (c : Dev nD) (G : Vec F S1x1024 .f32)
    (hG : ∀ t : Fin cfg0.N, t.val = 651 → (dats m 0 c).after 4 t = G) :
    (dats m 0 c).arrAt (4 : Fin 7) cfg0.N = G := by
  refine (dats m 0 c).arrAt_eq_of_cover (4 : Fin 7) G (fun t hf => ?_) (fun i => ?_)
  · -- the one point that writes back is the last, and there the buffer holds `G`
    have hlt : t.val < 652 := lt_of_lt_of_eq t.isLt N_0
    have ht : t.val = 651 := by have := (flush0_4 t).mp hf; omega
    obtain ⟨e0, e1⟩ := idx_facts4 t
    show (cfg0.win 4).cut (grid0.coords t) ((dats m 0 c).after 4 t) = _
    rw [hG t ht]
    funext y
    show G _ = G (((cfg0.win 4).blk t).view.emb y)
    congr 1
    funext a; apply Fin.ext
    match a with
    | ⟨0, _⟩ => show (y 0).val = win0_4.index t (0 : Fin 2) * 1 + 1 * (y 0).val; rw [e0]; omega
    | ⟨1, _⟩ => show (y 1).val = win0_4.index t (1 : Fin 2) * 1024 + 1 * (y 1).val; rw [e1]; omega
  · -- the last point's block is the whole array
    have h651 : (651 : ℕ) < cfg0.N := lt_of_lt_of_eq (by omega : (651 : ℕ) < 652) N_0.symm
    refine ⟨⟨651, h651⟩, (flush0_4 _).mpr (show (651 : ℕ) % 652 = 651 from rfl), ?_⟩
    obtain ⟨e0, e1⟩ := idx_facts4 ⟨651, h651⟩
    show i ∈ ((View.whole main_v1_0).slice (win0_4.rect ⟨651, h651⟩)).set
    rw [View.set_slice_whole, Rect.mem_set_unit]
    intro a
    match a with
    | ⟨0, _⟩ =>
      show win0_4.index ⟨651, h651⟩ (0 : Fin 2) * 1 ≤ (i 0).val ∧ (i 0).val < win0_4.index ⟨651, h651⟩ (0 : Fin 2) * 1 + 1
      have h0 : (i 0).val < 1 := (i 0).isLt; rw [e0]; omega
    | ⟨1, _⟩ =>
      show win0_4.index ⟨651, h651⟩ (1 : Fin 2) * 1024 ≤ (i 1).val ∧ (i 1).val < win0_4.index ⟨651, h651⟩ (1 : Fin 2) * 1024 + 1024
      have h1 : (i 1).val < 1024 := (i 1).isLt; rw [e1]; omega

theorem arrAt4 (c : Dev nD) : (dats m 0 c).arrAt (4 : Fin 7) cfg0.N = (accAt m c 651).1 :=
  arrAt_of_last4 m c _ fun t ht => by rw [after0_4, ht]

/-- The block of the second result at every grid point is the block at index (0, 0): the whole array. -/
theorem idx_facts5 : ∀ t : Fin cfg0.N, win0_5.index t (0 : Fin 2) = 0 ∧ win0_5.index t (1 : Fin 2) = 0 :=
  (by decide +kernel : ∀ t : Fin grid0.N, _)

/-- The second result array after the run holds what its buffer holds after the body at the last point: that point
    alone writes back, and its block is the whole array. -/
theorem arrAt_of_last5 (c : Dev nD) (G : Vec F S1x1024 .f32)
    (hG : ∀ t : Fin cfg0.N, t.val = 651 → (dats m 0 c).after 5 t = G) :
    (dats m 0 c).arrAt (5 : Fin 7) cfg0.N = G := by
  refine (dats m 0 c).arrAt_eq_of_cover (5 : Fin 7) G (fun t hf => ?_) (fun i => ?_)
  · -- the one point that writes back is the last, and there the buffer holds `G`
    have hlt : t.val < 652 := lt_of_lt_of_eq t.isLt N_0
    have ht : t.val = 651 := by have := (flush0_5 t).mp hf; omega
    obtain ⟨e0, e1⟩ := idx_facts5 t
    show (cfg0.win 5).cut (grid0.coords t) ((dats m 0 c).after 5 t) = _
    rw [hG t ht]
    funext y
    show G _ = G (((cfg0.win 5).blk t).view.emb y)
    congr 1
    funext a; apply Fin.ext
    match a with
    | ⟨0, _⟩ => show (y 0).val = win0_5.index t (0 : Fin 2) * 1 + 1 * (y 0).val; rw [e0]; omega
    | ⟨1, _⟩ => show (y 1).val = win0_5.index t (1 : Fin 2) * 1024 + 1 * (y 1).val; rw [e1]; omega
  · -- the last point's block is the whole array
    have h651 : (651 : ℕ) < cfg0.N := lt_of_lt_of_eq (by omega : (651 : ℕ) < 652) N_0.symm
    refine ⟨⟨651, h651⟩, (flush0_5 _).mpr (show (651 : ℕ) % 652 = 651 from rfl), ?_⟩
    obtain ⟨e0, e1⟩ := idx_facts5 ⟨651, h651⟩
    show i ∈ ((View.whole main_v1_1).slice (win0_5.rect ⟨651, h651⟩)).set
    rw [View.set_slice_whole, Rect.mem_set_unit]
    intro a
    match a with
    | ⟨0, _⟩ =>
      show win0_5.index ⟨651, h651⟩ (0 : Fin 2) * 1 ≤ (i 0).val ∧ (i 0).val < win0_5.index ⟨651, h651⟩ (0 : Fin 2) * 1 + 1
      have h0 : (i 0).val < 1 := (i 0).isLt; rw [e0]; omega
    | ⟨1, _⟩ =>
      show win0_5.index ⟨651, h651⟩ (1 : Fin 2) * 1024 ≤ (i 1).val ∧ (i 1).val < win0_5.index ⟨651, h651⟩ (1 : Fin 2) * 1024 + 1024
      have h1 : (i 1).val < 1024 := (i 1).isLt; rw [e1]; omega

theorem arrAt5 (c : Dev nD) : (dats m 0 c).arrAt (5 : Fin 7) cfg0.N = (accAt m c 651).2.1 :=
  arrAt_of_last5 m c _ fun t ht => by rw [after0_5, ht]

/-- The block of the third result at every grid point is the block at index (0, 0): the whole array. -/
theorem idx_facts6 : ∀ t : Fin cfg0.N, win0_6.index t (0 : Fin 2) = 0 ∧ win0_6.index t (1 : Fin 2) = 0 :=
  (by decide +kernel : ∀ t : Fin grid0.N, _)

/-- The third result array after the run holds what its buffer holds after the body at the last point: that point
    alone writes back, and its block is the whole array. -/
theorem arrAt_of_last6 (c : Dev nD) (G : Vec F S1x1 .f32)
    (hG : ∀ t : Fin cfg0.N, t.val = 651 → (dats m 0 c).after 6 t = G) :
    (dats m 0 c).arrAt (6 : Fin 7) cfg0.N = G := by
  refine (dats m 0 c).arrAt_eq_of_cover (6 : Fin 7) G (fun t hf => ?_) (fun i => ?_)
  · -- the one point that writes back is the last, and there the buffer holds `G`
    have hlt : t.val < 652 := lt_of_lt_of_eq t.isLt N_0
    have ht : t.val = 651 := by have := (flush0_6 t).mp hf; omega
    obtain ⟨e0, e1⟩ := idx_facts6 t
    show (cfg0.win 6).cut (grid0.coords t) ((dats m 0 c).after 6 t) = _
    rw [hG t ht]
    funext y
    show G _ = G (((cfg0.win 6).blk t).view.emb y)
    congr 1
    funext a; apply Fin.ext
    match a with
    | ⟨0, _⟩ => show (y 0).val = win0_6.index t (0 : Fin 2) * 1 + 1 * (y 0).val; rw [e0]; omega
    | ⟨1, _⟩ => show (y 1).val = win0_6.index t (1 : Fin 2) * 1 + 1 * (y 1).val; rw [e1]; omega
  · -- the last point's block is the whole array
    have h651 : (651 : ℕ) < cfg0.N := lt_of_lt_of_eq (by omega : (651 : ℕ) < 652) N_0.symm
    refine ⟨⟨651, h651⟩, (flush0_6 _).mpr (show (651 : ℕ) % 652 = 651 from rfl), ?_⟩
    obtain ⟨e0, e1⟩ := idx_facts6 ⟨651, h651⟩
    show i ∈ ((View.whole main_v1_2).slice (win0_6.rect ⟨651, h651⟩)).set
    rw [View.set_slice_whole, Rect.mem_set_unit]
    intro a
    match a with
    | ⟨0, _⟩ =>
      show win0_6.index ⟨651, h651⟩ (0 : Fin 2) * 1 ≤ (i 0).val ∧ (i 0).val < win0_6.index ⟨651, h651⟩ (0 : Fin 2) * 1 + 1
      have h0 : (i 0).val < 1 := (i 0).isLt; rw [e0]; omega
    | ⟨1, _⟩ =>
      show win0_6.index ⟨651, h651⟩ (1 : Fin 2) * 1 ≤ (i 1).val ∧ (i 1).val < win0_6.index ⟨651, h651⟩ (1 : Fin 2) * 1 + 1
      have h1 : (i 1).val < 1 := (i 1).isLt; rw [e1]; omega

theorem arrAt6 (c : Dev nD) : (dats m 0 c).arrAt (6 : Fin 7) cfg0.N = (accAt m c 651).2.2 :=
  arrAt_of_last6 m c _ fun t ht => by rw [after0_6, ht]

end Cert.Kernel.KV

end
-- ==== Proof.MaskBits.lean ====
/-
  Which rows are inside the array. At grid point `t` and chunk `k` the body compares the global row number
  `6144 t + 256 k + r` (r the row within the chunk) with 4000000. Since 4000000 = 256 · 15625, a chunk lies
  wholly inside the array or wholly outside it: the comparison is the same for all 256 rows of the chunk, true
  exactly when `24 t + k < 15625`.
-/
import proofs.«422350_j40346922778987_2_alg».proof.Proof.Gen.Kernel.Skeleton
import Idealize.ShloMosaic.Lib.ValueIdx

noncomputable section

namespace Cert.Kernel.KV

open Cert.Kernel Cert.Kernel.Gen
open Idealize.ShloMosaic

/-- The one grid coordinate of point `t` is `t`. -/
theorem coords_val : ∀ t : Fin cfg0.N, ((grid0.coords t) 0).val = t.val :=
  (by decide +kernel : ∀ t : Fin grid0.N, ((grid0.coords t) 0).val = t.val)

/-- The row mask of chunk `k` at point `t` is constant over the chunk: all ones when the chunk is inside the
    array, all zeros when it is past its end. -/
theorem mask_eq (t : Fin cfg0.N) (k : Fin k0_t1_loop.trips) :
    k0_pay7 (BitVec.ofNat 32 ((grid0.coords t) 0).val) 0#32 1#32 k
      = fun _ => if t.val * 24 + k.val < 15625 then 1#1 else 0#1 := by
  funext idx
  have hk : k.val < 24 := lt_of_lt_of_le k.isLt k0_t1_abs.2.1
  have ht : t.val < 652 := t.isLt
  have hr : (idx 0).val < 256 := (idx 0).isLt
  rw [coords_val]
  unfold k0_pay7
  -- the global row number as a 32-bit word: no wrap, since 6144 t + 256 k + r < 2^31
  have hw : IntOp.addi (Scalar.addi (Scalar.muli (BitVec.ofNat 32 t.val) 6144#32)
        (Scalar.muli (Scalar.addi (0#32) (Scalar.muli (Scf.iv 0#32 1#32 k.val) 1#32)) 256#32))
        (BitVec.ofNat 32 (idx 0).val)
      = BitVec.ofNat 32 (t.val * 6144 + k.val * 256 + (idx 0).val) := by
    apply BitVec.eq_of_toNat_eq
    simp only [Scalar.addi, Scalar.muli, IntOp.addi, IntOp.muli, Scf.iv, BitVec.toNat_add, BitVec.toNat_mul,
      BitVec.toNat_ofNat]
    omega
  have hi : iota Kind.tc S256x1 32 [0] iota_S256x1_d0_w32 idx = BitVec.ofNat 32 (idx 0).val := by
    simp [iota]
  show IntOp.cmpi .slt (IntOp.addi _ (iota Kind.tc S256x1 32 [0] iota_S256x1_d0_w32 idx)) 4000000#32 = _
  rw [hi, ValueIdx.broadcast_apply, hw]
  have hn : t.val * 6144 + k.val * 256 + (idx 0).val < 2 ^ 31 := by omega
  have hI : (BitVec.ofNat 32 (t.val * 6144 + k.val * 256 + (idx 0).val)).toInt
      = ((t.val * 6144 + k.val * 256 + (idx 0).val : ℕ) : ℤ) := by
    rw [BitVec.toInt_eq_toNat_of_lt (by rw [BitVec.toNat_ofNat]; omega), BitVec.toNat_ofNat,
      Nat.mod_eq_of_lt (by omega)]
  by_cases h : t.val * 24 + k.val < 15625
  · rw [if_pos h]
    refine IntOp.cmpi_slt.2 ?_
    have h4 : (4000000#32 : BitVec 32).toInt = 4000000 := by decide
    rw [hI, h4]
    omega
  · rw [if_neg h]
    apply ValueIdx.eq_zero_of_ne_one
    intro hc
    have := IntOp.cmpi_slt.1 hc
    rw [hI] at this
    have h4 : (4000000#32 : BitVec 32).toInt = 4000000 := by decide
    rw [h4] at this
    omega

end Cert.Kernel.KV

end
-- ==== Proof.CongrBits.lean ====
/-
  The accumulators a grid point leaves depend on the staged blocks only through their rows inside the array.

  A block's rows past the array's end are masked by the body before they enter any sum (a whole chunk at a time,
  since the array's length is a multiple of the chunk's 256 rows): two families of staged blocks that agree with
  the arrays on the rows inside them give the same accumulators, at any float instance.
-/
import proofs.«422350_j40346922778987_2_alg».proof.Proof.KStepBits
import proofs.«422350_j40346922778987_2_alg».proof.Proof.MaskBits

noncomputable section

namespace Cert.Kernel.KV

open Cert.Kernel Cert.Kernel.Gen
open Idealize.ShloMosaic Idealize.ShloMosaic.ValueIdx

variable {F : FTy → Type} [FloatOps F]

/-! ## A chunk past the array's end: the loaded values are masked away -/

/-- A select on the all-zeros mask is its second operand. -/
theorem select_const_zero {s : Shape} {α : Type} (a b : s.Idx → α) : select (fun _ => 0#1) a b = b := by
  funext i
  rw [select_apply]
  exact select_zero _ _

/-- Under an all-zeros row mask the force norm of the chunk does not depend on the chunk's values. -/
theorem pay8_masked (arg0 c0 c1 : BitVec 32) (k : Fin k0_t1_loop.trips)
    (hm : k0_pay7 arg0 c0 c1 k = fun _ => 0#1) (v16 v16' : Vec F S256x8 .f32) :
    k0_pay8 arg0 c0 c1 k v16 = k0_pay8 arg0 c0 c1 k v16' := by
  unfold k0_pay8
  simp only [hm, select_const_zero]

/-- Under an all-zeros row mask the one-hot selection does not depend on the chunk's graph ids. -/
theorem pay9_masked (arg0 c0 c1 : BitVec 32) (k : Fin k0_t1_loop.trips)
    (hm : k0_pay7 arg0 c0 c1 k = fun _ => 0#1) (v18 v18' : Vec F S256x1 .i32) :
    k0_pay9 arg0 c0 c1 k v18 = k0_pay9 arg0 c0 c1 k v18' := by
  unfold k0_pay9
  simp only [hm, select_const_zero]

/-- Under an all-zeros row mask the selected errors do not depend on the chunk's values. -/
theorem pay10_masked (arg0 c0 c1 : BitVec 32) (k : Fin k0_t1_loop.trips)
    (hm : k0_pay7 arg0 c0 c1 k = fun _ => 0#1) (v12 v12' v14 v14' : Vec F S256x3 .f32) (v18 v18' : Vec F S256x1 .i32) :
    k0_pay10 arg0 c0 c1 k v12 v14 v18 = k0_pay10 arg0 c0 c1 k v12' v14' v18' := by
  unfold k0_pay10
  rw [pay9_masked arg0 c0 c1 k hm v18 v18']
  simp only [hm, select_const_zero]

/-! ## A chunk inside the array: the chunk itself is the array's rows -/

/-- Chunk `kk` of a staged block at grid point `t`, when the chunk lies inside the array
    (`24 t + kk < 15625`, that is all of its 256 rows are below row 4000000), is determined by the array:
    two blocks that agree with the array on the rows inside it have the same chunk. -/
theorem ld_inside {n : ℕ} {e : EltTy} (t kk : ℕ) (A : Vec F ⟨2, ![4000000, n]⟩ e) (Y Y' : Vec F ⟨2, ![6144, n]⟩ e)
    (h : ∀ (r : Fin 6144) (j : Fin n) (hlt : t * 6144 + r.val < 4000000), Y (ix2 r j) = A (ix2 ⟨t * 6144 + r.val, hlt⟩ j))
    (h' : ∀ (r : Fin 6144) (j : Fin n) (hlt : t * 6144 + r.val < 4000000), Y' (ix2 r j) = A (ix2 ⟨t * 6144 + r.val, hlt⟩ j))
    (hin : t * 24 + kk < 15625) (hk : kk < 24) (off : Fin 2 → ℕ) (hoff : off = ![256 * kk, 0])
    (inb : ∀ a, off a + (![256, n] : Fin 2 → ℕ) a ≤ (⟨2, ![6144, n]⟩ : Shape).size a) :
    View.ld Y (Rect.unit (s := ⟨2, ![6144, n]⟩) off ![256, n] inb)
      = View.ld Y' (Rect.unit (s := ⟨2, ![6144, n]⟩) off ![256, n] inb) := by
  subst hoff
  funext x
  obtain ⟨r, j, rfl⟩ : ∃ (r : Fin 256) (j : Fin n), x = ix2 r j := ⟨_, _, eq_ix2 x⟩
  have hr : 256 * kk + r.val < 6144 := by have := r.isLt; omega
  have hidx : (Rect.unit (s := ⟨2, ![6144, n]⟩) ![256 * kk, 0] ![256, n] inb).toLoadRect.idx (ix2 r j)
      = ix2 ⟨256 * kk + r.val, hr⟩ j := by
    funext a
    apply Fin.ext
    rw [LoadRect.idx_apply]
    match a with
    | ⟨0, _⟩ => show 256 * kk + 1 * r.val = 256 * kk + r.val; omega
    | ⟨1, _⟩ => show 0 + 1 * j.val = j.val; omega
  show Y _ = Y' _
  rw [hidx]
  have hlt : t * 6144 + (256 * kk + r.val) < 4000000 := by have := r.isLt; omega
  rw [h ⟨_, hr⟩ j hlt, h' ⟨_, hr⟩ j hlt]

theorem ch3_inside (A : Vec F S4000000x3 .f32) (t : Fin cfg0.N) (Y Y' : Vec F S6144x3 .f32)
    (h : Agree3 A t Y) (h' : Agree3 A t Y') (k : Fin k0_t1_loop.trips) (hin : t.val * 24 + k.val < 15625) :
    ch3 Y k = ch3 Y' k :=
  ld_inside t.val k.val A Y Y' h h' hin (lt_of_lt_of_le k.isLt k0_t1_abs.2.1) (k0_off1 k) (k0_off1_eq k) (k0_off1_inb k)

theorem ch8_inside (A : Vec F S4000000x8 .f32) (t : Fin cfg0.N) (Y Y' : Vec F S6144x8 .f32)
    (h : Agree8 A t Y) (h' : Agree8 A t Y') (k : Fin k0_t1_loop.trips) (hin : t.val * 24 + k.val < 15625) :
    ch8 Y k = ch8 Y' k :=
  ld_inside t.val k.val A Y Y' h h' hin (lt_of_lt_of_le k.isLt k0_t1_abs.2.1) (k0_off2 k) (k0_off2_eq k) (k0_off2_inb k)

theorem ch1_inside (A : Vec F S4000000x1 .i32) (t : Fin cfg0.N) (Y Y' : Vec F S6144x1 .i32)
    (h : Agree1 A t Y) (h' : Agree1 A t Y') (k : Fin k0_t1_loop.trips) (hin : t.val * 24 + k.val < 15625) :
    ch1 Y k = ch1 Y' k :=
  ld_inside t.val k.val A Y Y' h h' hin (lt_of_lt_of_le k.isLt k0_t1_abs.2.1) (k0_off3 k) (k0_off3_eq k) (k0_off3_inb k)

/-! ## One chunk's update, and the whole point -/

/-- Chunk `k`'s update is the same from two families of staged blocks that agree with the arrays on the rows
    inside them: inside the array the chunks are equal, past its end they are masked away. -/
theorem tripStep_congr (A0 A1 : Vec F S4000000x3 .f32) (A2 : Vec F S4000000x8 .f32) (A3 : Vec F S4000000x1 .i32) (t : Fin cfg0.N)
    (Y0 Y0' Y1 Y1' : Vec F S6144x3 .f32) (Y2 Y2' : Vec F S6144x8 .f32) (Y3 Y3' : Vec F S6144x1 .i32)
    (h0 : Agree3 A0 t Y0) (h0' : Agree3 A0 t Y0') (h1 : Agree3 A1 t Y1) (h1' : Agree3 A1 t Y1')
    (h2 : Agree8 A2 t Y2) (h2' : Agree8 A2 t Y2') (h3 : Agree1 A3 t Y3) (h3' : Agree1 A3 t Y3')
    (k : Fin k0_t1_loop.trips) (s : Scr F) :
    tripStep (BitVec.ofNat 32 ((grid0.coords t) 0).val) Y0 Y1 Y2 Y3 k s
      = tripStep (BitVec.ofNat 32 ((grid0.coords t) 0).val) Y0' Y1' Y2' Y3' k s := by
  unfold tripStep
  by_cases hin : t.val * 24 + k.val < 15625
  · rw [ch3_inside A0 t Y0 Y0' h0 h0' k hin, ch3_inside A1 t Y1 Y1' h1 h1' k hin,
      ch8_inside A2 t Y2 Y2' h2 h2' k hin, ch1_inside A3 t Y3 Y3' h3 h3' k hin]
  · have hm : k0_pay7 (BitVec.ofNat 32 ((grid0.coords t) 0).val) 0#32 1#32 k = fun _ => 0#1 := by
      rw [mask_eq, if_neg hin]
    rw [pay10_masked _ _ _ k hm (ch3 Y0 k) (ch3 Y0' k) (ch3 Y1 k) (ch3 Y1' k) (ch1 Y3 k) (ch1 Y3' k),
      pay9_masked _ _ _ k hm (ch1 Y3 k) (ch1 Y3' k), pay8_masked _ _ _ k hm (ch8 Y2 k) (ch8 Y2' k)]

theorem loopRes_congr (A0 A1 : Vec F S4000000x3 .f32) (A2 : Vec F S4000000x8 .f32) (A3 : Vec F S4000000x1 .i32) (t : Fin cfg0.N)
    (Y0 Y0' Y1 Y1' : Vec F S6144x3 .f32) (Y2 Y2' : Vec F S6144x8 .f32) (Y3 Y3' : Vec F S6144x1 .i32)
    (h0 : Agree3 A0 t Y0) (h0' : Agree3 A0 t Y0') (h1 : Agree3 A1 t Y1) (h1' : Agree3 A1 t Y1')
    (h2 : Agree8 A2 t Y2) (h2' : Agree8 A2 t Y2') (h3 : Agree1 A3 t Y3) (h3' : Agree1 A3 t Y3') (s : Scr F) (n : ℕ) :
    loopRes (BitVec.ofNat 32 ((grid0.coords t) 0).val) Y0 Y1 Y2 Y3 s n
      = loopRes (BitVec.ofNat 32 ((grid0.coords t) 0).val) Y0' Y1' Y2' Y3' s n := by
  induction n with
  | zero => rfl
  | succ n ih =>
    rw [loopRes, loopRes]
    by_cases hn : n < k0_t1_loop.trips
    · rw [dif_pos hn, dif_pos hn, ih]
      exact tripStep_congr A0 A1 A2 A3 t Y0 Y0' Y1 Y1' Y2 Y2' Y3 Y3' h0 h0' h1 h1' h2 h2' h3 h3' ⟨n, hn⟩ _
    · rw [dif_neg hn, dif_neg hn, ih]

theorem pointRes_congr (A0 A1 : Vec F S4000000x3 .f32) (A2 : Vec F S4000000x8 .f32) (A3 : Vec F S4000000x1 .i32) (t : Fin cfg0.N)
    (Y0 Y0' Y1 Y1' : Vec F S6144x3 .f32) (Y2 Y2' : Vec F S6144x8 .f32) (Y3 Y3' : Vec F S6144x1 .i32)
    (h0 : Agree3 A0 t Y0) (h0' : Agree3 A0 t Y0') (h1 : Agree3 A1 t Y1) (h1' : Agree3 A1 t Y1')
    (h2 : Agree8 A2 t Y2) (h2' : Agree8 A2 t Y2') (h3 : Agree1 A3 t Y3) (h3' : Agree1 A3 t Y3') (s : Scr F) :
    pointRes (grid0.coords t) Y0 Y1 Y2 Y3 s = pointRes (grid0.coords t) Y0' Y1' Y2' Y3' s := by
  unfold pointRes
  exact loopRes_congr A0 A1 A2 A3 t Y0 Y0' Y1 Y1' Y2 Y2' Y3 Y3' h0 h0' h1 h1' h2 h2' h3 h3' _ _

end Cert.Kernel.KV

end
-- ==== Proof.AgreeBits.lean ====
/-
  What a staging buffer holds after a fetch agrees with the array on the rows inside the array.

  The fetch at grid point `t` lands rows `6144 t …` of the array in the leading rows of the buffer — all 6144 of
  them, or at the last point only those inside the array — whatever the buffer held before on the other rows.

  Each of the four input windows has one block per grid point, block `t` starting at row `6144 t`; 652 blocks of
  6144 rows overhang the 4000000 rows, so the last fetch is cut to the 256 rows inside the array. A row `r` of the
  block with `6144 t + r < 4000000` is therefore always among the rows moved, and the fetched block read at it is
  the array read at row `6144 t + r`.
-/
import proofs.«422350_j40346922778987_2_alg».proof.Proof.KStepBits
import proofs.«422350_j40346922778987_2_alg».proof.Proof.Gen.Kernel.Frame

set_option maxRecDepth 16384

noncomputable section

namespace Cert.Kernel.KV

open Cert.Kernel Cert.Kernel.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-- The cut sizes and block indices of the first window, over the grid: the rows moved are the block's rows inside
    the array, every column is moved, and the block at point `t` starts at row `6144 t`, column 0. -/
theorem cut_facts0 : ∀ t : Fin cfg0.N,
    win0_0.xsize (grid0.coords t) (0 : Fin 2) = min 6144 (4000000 - t.val * 6144)
    ∧ win0_0.xsize (grid0.coords t) (1 : Fin 2) = 3
    ∧ win0_0.index t (0 : Fin 2) = t.val
    ∧ win0_0.index t (1 : Fin 2) = 0 :=
  (by decide +kernel : ∀ t : Fin grid0.N, _)

theorem agree_fill0 (c : Dev nD) (t : Fin cfg0.N) (d : Vec F S6144x3 .f32) :
    Agree3 (V m c main_arg0) t (win0_0.fill (grid0.coords t) d (iblk m c 0 t)) := by
  intro r j h
  obtain ⟨e0, e1, e2, e3⟩ := cut_facts0 t
  have hr : r.val < 6144 := r.isLt
  have hj : j.val < 3 := j.isLt
  -- row `r` lies inside the array, so it is among the rows moved; every column is
  have hmv : win0_0.moved (grid0.coords t) (ix2 r j) = true := by
    rw [Pipeline.Window.moved_iff]
    intro a
    match a with
    | ⟨0, _⟩ => show r.val < win0_0.xsize (grid0.coords t) (0 : Fin 2); rw [e0]; omega
    | ⟨1, _⟩ => show j.val < win0_0.xsize (grid0.coords t) (1 : Fin 2); rw [e1]; exact hj
  unfold Pipeline.Window.fill
  rw [dif_pos hmv]
  -- the block's element (r, j) is the array's element (6144 t + r, j): block index times block size plus the coordinate
  show V m c main_arg0 (((cfg0.win 0).blk t).view.emb _) = V m c main_arg0 _
  congr 1
  funext a; apply Fin.ext
  match a with
  | ⟨0, _⟩ => show win0_0.index t (0 : Fin 2) * 6144 + 1 * r.val = t.val * 6144 + r.val; rw [e2]; omega
  | ⟨1, _⟩ => show win0_0.index t (1 : Fin 2) * 3 + 1 * j.val = j.val; rw [e3]; omega

/-- The cut sizes and block indices of the second window, over the grid: the rows moved are the block's rows inside
    the array, every column is moved, and the block at point `t` starts at row `6144 t`, column 0. -/
theorem cut_facts1 : ∀ t : Fin cfg0.N,
    win0_1.xsize (grid0.coords t) (0 : Fin 2) = min 6144 (4000000 - t.val * 6144)
    ∧ win0_1.xsize (grid0.coords t) (1 : Fin 2) = 3
    ∧ win0_1.index t (0 : Fin 2) = t.val
    ∧ win0_1.index t (1 : Fin 2) = 0 :=
  (by decide +kernel : ∀ t : Fin grid0.N, _)

theorem agree_fill1 (c : Dev nD) (t : Fin cfg0.N) (d : Vec F S6144x3 .f32) :
    Agree3 (V m c main_arg1) t (win0_1.fill (grid0.coords t) d (iblk m c 1 t)) := by
  intro r j h
  obtain ⟨e0, e1, e2, e3⟩ := cut_facts1 t
  have hr : r.val < 6144 := r.isLt
  have hj : j.val < 3 := j.isLt
  -- row `r` lies inside the array, so it is among the rows moved; every column is
  have hmv : win0_1.moved (grid0.coords t) (ix2 r j) = true := by
    rw [Pipeline.Window.moved_iff]
    intro a
    match a with
    | ⟨0, _⟩ => show r.val < win0_1.xsize (grid0.coords t) (0 : Fin 2); rw [e0]; omega
    | ⟨1, _⟩ => show j.val < win0_1.xsize (grid0.coords t) (1 : Fin 2); rw [e1]; exact hj
  unfold Pipeline.Window.fill
  rw [dif_pos hmv]
  -- the block's element (r, j) is the array's element (6144 t + r, j): block index times block size plus the coordinate
  show V m c main_arg1 (((cfg0.win 1).blk t).view.emb _) = V m c main_arg1 _
  congr 1
  funext a; apply Fin.ext
  match a with
  | ⟨0, _⟩ => show win0_1.index t (0 : Fin 2) * 6144 + 1 * r.val = t.val * 6144 + r.val; rw [e2]; omega
  | ⟨1, _⟩ => show win0_1.index t (1 : Fin 2) * 3 + 1 * j.val = j.val; rw [e3]; omega

/-- The cut sizes and block indices of the third window, over the grid: the rows moved are the block's rows inside
    the array, every column is moved, and the block at point `t` starts at row `6144 t`, column 0. -/
theorem cut_facts2 : ∀ t : Fin cfg0.N,
    win0_2.xsize (grid0.coords t) (0 : Fin 2) = min 6144 (4000000 - t.val * 6144)
    ∧ win0_2.xsize (grid0.coords t) (1 : Fin 2) = 8
    ∧ win0_2.index t (0 : Fin 2) = t.val
    ∧ win0_2.index t (1 : Fin 2) = 0 :=
  (by decide +kernel : ∀ t : Fin grid0.N, _)

theorem agree_fill2 (c : Dev nD) (t : Fin cfg0.N) (d : Vec F S6144x8 .f32) :
    Agree8 (V m c main_arg3) t (win0_2.fill (grid0.coords t) d (iblk m c 2 t)) := by
  intro r j h
  obtain ⟨e0, e1, e2, e3⟩ := cut_facts2 t
  have hr : r.val < 6144 := r.isLt
  have hj : j.val < 8 := j.isLt
  -- row `r` lies inside the array, so it is among the rows moved; every column is
  have hmv : win0_2.moved (grid0.coords t) (ix2 r j) = true := by
    rw [Pipeline.Window.moved_iff]
    intro a
    match a with
    | ⟨0, _⟩ => show r.val < win0_2.xsize (grid0.coords t) (0 : Fin 2); rw [e0]; omega
    | ⟨1, _⟩ => show j.val < win0_2.xsize (grid0.coords t) (1 : Fin 2); rw [e1]; exact hj
  unfold Pipeline.Window.fill
  rw [dif_pos hmv]
  -- the block's element (r, j) is the array's element (6144 t + r, j): block index times block size plus the coordinate
  show V m c main_arg3 (((cfg0.win 2).blk t).view.emb _) = V m c main_arg3 _
  congr 1
  funext a; apply Fin.ext
  match a with
  | ⟨0, _⟩ => show win0_2.index t (0 : Fin 2) * 6144 + 1 * r.val = t.val * 6144 + r.val; rw [e2]; omega
  | ⟨1, _⟩ => show win0_2.index t (1 : Fin 2) * 8 + 1 * j.val = j.val; rw [e3]; omega

/-- The cut sizes and block indices of the fourth window, over the grid: the rows moved are the block's rows inside
    the array, every column is moved, and the block at point `t` starts at row `6144 t`, column 0. -/
theorem cut_facts3 : ∀ t : Fin cfg0.N,
    win0_3.xsize (grid0.coords t) (0 : Fin 2) = min 6144 (4000000 - t.val * 6144)
    ∧ win0_3.xsize (grid0.coords t) (1 : Fin 2) = 1
    ∧ win0_3.index t (0 : Fin 2) = t.val
    ∧ win0_3.index t (1 : Fin 2) = 0 :=
  (by decide +kernel : ∀ t : Fin grid0.N, _)

theorem agree_fill3 (c : Dev nD) (t : Fin cfg0.N) (d : Vec F S6144x1 .i32) :
    Agree1 (V m c main_v0) t (win0_3.fill (grid0.coords t) d (iblk m c 3 t)) := by
  intro r j h
  obtain ⟨e0, e1, e2, e3⟩ := cut_facts3 t
  have hr : r.val < 6144 := r.isLt
  have hj : j.val < 1 := j.isLt
  -- row `r` lies inside the array, so it is among the rows moved; every column is
  have hmv : win0_3.moved (grid0.coords t) (ix2 r j) = true := by
    rw [Pipeline.Window.moved_iff]
    intro a
    match a with
    | ⟨0, _⟩ => show r.val < win0_3.xsize (grid0.coords t) (0 : Fin 2); rw [e0]; omega
    | ⟨1, _⟩ => show j.val < win0_3.xsize (grid0.coords t) (1 : Fin 2); rw [e1]; exact hj
  unfold Pipeline.Window.fill
  rw [dif_pos hmv]
  -- the block's element (r, j) is the array's element (6144 t + r, j): block index times block size plus the coordinate
  show V m c main_v0 (((cfg0.win 3).blk t).view.emb _) = V m c main_v0 _
  congr 1
  funext a; apply Fin.ext
  match a with
  | ⟨0, _⟩ => show win0_3.index t (0 : Fin 2) * 6144 + 1 * r.val = t.val * 6144 + r.val; rw [e2]; omega
  | ⟨1, _⟩ => show win0_3.index t (1 : Fin 2) * 1 + 1 * j.val = j.val; rw [e3]; omega

end Cert.Kernel.KV

end
-- ==== Proof.FrameABits.lean ====
/-
  The kernel's frame, at any float instance: the body obligation of the proof data `dats`, the run, and the frame claim.

  At every grid point the body is handed the invariant (the scratch at what the point before left, at anything before
  the first point), the four input buffers just fetched (their block on the rows inside the array, anything elsewhere)
  and the three output buffers; by the body's run it hands back the inputs as they were, the scratch at the point's
  update — which depends on the staged blocks only through the rows inside the array, so it is `accAt` whatever the
  other rows held — and the outputs untouched, or at the last point holding the accumulators.
-/
import proofs.«422350_j40346922778987_2_alg».proof.Proof.OutArrBits
import proofs.«422350_j40346922778987_2_alg».proof.Proof.CongrBits
import proofs.«422350_j40346922778987_2_alg».proof.Proof.AgreeBits
import Idealize.ShloMosaic.Lib.Pipeline.FrameSuffix

set_option maxRecDepth 16384

noncomputable section

namespace Cert.Kernel.KV

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions and the idle table, decided over the grid -/

theorem hcondFirst : ∀ t : Fin cfg0.N, condFirst (grid0.coords t) ↔ t.val = 0 :=
  (by decide +kernel : ∀ t : Fin grid0.N, condFirst (grid0.coords t) ↔ t.val = 0)
theorem hcondLast : ∀ t : Fin cfg0.N, condLast (grid0.coords t) ↔ t.val = 651 :=
  (by decide +kernel : ∀ t : Fin grid0.N, condLast (grid0.coords t) ↔ t.val = 651)
theorem idle_out_last : ∀ t : Fin cfg0.N, t.val = 651 →
    cfg0.idle 4 (grid0.coords t) = false ∧ cfg0.idle 5 (grid0.coords t) = false ∧ cfg0.idle 6 (grid0.coords t) = false :=
  (by decide +kernel : ∀ t : Fin grid0.N, t.val = 651 →
    cfg0.idle 4 (grid0.coords t) = false ∧ cfg0.idle 5 (grid0.coords t) = false ∧ cfg0.idle 6 (grid0.coords t) = false)
theorem idle_out_not : ∀ t : Fin cfg0.N, t.val ≠ 651 →
    (cfg0.idle 4 (grid0.coords t) = true ∧ (cfg0.win 4).flush t = false) ∧ (cfg0.idle 5 (grid0.coords t) = true ∧ (cfg0.win 5).flush t = false)
      ∧ (cfg0.idle 6 (grid0.coords t) = true ∧ (cfg0.win 6).flush t = false) :=
  (by decide +kernel : ∀ t : Fin grid0.N, t.val ≠ 651 →
    (cfg0.idle 4 (grid0.coords t) = true ∧ (cfg0.win 4).flush t = false) ∧ (cfg0.idle 5 (grid0.coords t) = true ∧ (cfg0.win 5).flush t = false)
      ∧ (cfg0.idle 6 (grid0.coords t) = true ∧ (cfg0.win 6).flush t = false))

/-! ## The invariant -/

theorem PhiA0_eq (c : Dev nD) :
    (Pipeline.ΦA spec0 c : sProp 𝕄)
      = iprop(iprop((∃ d, owns (c : Thread nD τ) scM8 fullShare d) ∗ (∃ d, owns (c : Thread nD τ) scM9 fullShare d) ∗ (∃ d, owns (c : Thread nD τ) scM10 fullShare d)) ∗ (∃ r, prngReg c r)) := by
  unfold Pipeline.ΦA; rw [scopedRest0_eq]; simp only [scM8, scM9, scM10, owns_whole]; try rfl

theorem PhiS_pos (c : Dev nD) (n : ℕ) (hz : n ≠ 0) :
    PhiS m c n = iprop(iprop(owns (c : Thread nD τ) scM8 fullShare (accAt m c (n - 1)).1 ∗ owns (c : Thread nD τ) scM9 fullShare (accAt m c (n - 1)).2.1
      ∗ owns (c : Thread nD τ) scM10 fullShare (accAt m c (n - 1)).2.2) ∗ (∃ r, prngReg c r)) := by
  cases n with
  | zero => exact absurd rfl hz
  | succ n => rfl

theorem Phi_castSucc (c : Dev nD) (t : Fin cfg0.N) : (dats m 0 c).Φ t.castSucc = PhiS m c t.val := by
  dsimp only [dats]; simp only [Fin.coe_castSucc]

/-! ## The accumulators after a point, whatever the staged rows past the array's end held -/

theorem pointRes_first (i : grid0.Coords) (h : condFirst i) (X0 X1 : Vec F S6144x3 .f32) (X2 : Vec F S6144x8 .f32) (X3 : Vec F S6144x1 .i32)
    (s s' : Scr F) : pointRes i X0 X1 X2 X3 s = pointRes i X0 X1 X2 X3 s' := by
  unfold pointRes; rw [if_pos h, if_pos h]

theorem pointRes_fill (c : Dev nD) (t : Fin cfg0.N) (d0 d1 : Vec F S6144x3 .f32) (d2 : Vec F S6144x8 .f32) (d3 : Vec F S6144x1 .i32) (s : Scr F) :
    pointRes (grid0.coords t) (win0_0.fill (grid0.coords t) d0 (iblk m c 0 t)) (win0_1.fill (grid0.coords t) d1 (iblk m c 1 t))
        (win0_2.fill (grid0.coords t) d2 (iblk m c 2 t)) (win0_3.fill (grid0.coords t) d3 (iblk m c 3 t)) s
      = pointRes (grid0.coords t) (stg0 m c t) (stg1 m c t) (stg2 m c t) (stg3 m c t) s :=
  pointRes_congr (V m c main_arg0) (V m c main_arg1) (V m c main_arg3) (V m c main_v0) t _ _ _ _ _ _ _ _
    (agree_fill0 m c t d0) (agree_fill0 m c t _) (agree_fill1 m c t d1) (agree_fill1 m c t _)
    (agree_fill2 m c t d2) (agree_fill2 m c t _) (agree_fill3 m c t d3) (agree_fill3 m c t _) s

theorem acc_step_pos (c : Dev nD) (t : Fin cfg0.N) (ht : t.val ≠ 0) (d0 d1 : Vec F S6144x3 .f32) (d2 : Vec F S6144x8 .f32) (d3 : Vec F S6144x1 .i32) :
    pointRes (grid0.coords t) (win0_0.fill (grid0.coords t) d0 (iblk m c 0 t)) (win0_1.fill (grid0.coords t) d1 (iblk m c 1 t))
        (win0_2.fill (grid0.coords t) d2 (iblk m c 2 t)) (win0_3.fill (grid0.coords t) d3 (iblk m c 3 t))
        ((accAt m c (t.val - 1)).1, (accAt m c (t.val - 1)).2.1, (accAt m c (t.val - 1)).2.2)
      = accAt m c t.val := by
  rw [pointRes_fill]; unfold accAt; rw [accAll_pos _ _ _ _ _ t ht]

theorem acc_step_zero (c : Dev nD) (t : Fin cfg0.N) (ht : t.val = 0) (d0 d1 : Vec F S6144x3 .f32) (d2 : Vec F S6144x8 .f32) (d3 : Vec F S6144x1 .i32) (s : Scr F) :
    pointRes (grid0.coords t) (win0_0.fill (grid0.coords t) d0 (iblk m c 0 t)) (win0_1.fill (grid0.coords t) d1 (iblk m c 1 t))
        (win0_2.fill (grid0.coords t) d2 (iblk m c 2 t)) (win0_3.fill (grid0.coords t) d3 (iblk m c 3 t)) s
      = accAt m c t.val := by
  rw [pointRes_fill, pointRes_first _ ((hcondFirst t).mpr ht) _ _ _ _ s zeroScr]; unfold accAt; rw [accAll_zero _ _ _ _ _ t ht]

end Cert.Kernel.KV

end
-- ==== Proof.LoopReadBits.lean ====
/-
  What the chunk loop leaves in the three accumulators, read off the loop's invariant.

  The loop's generated invariant names the accumulators' contents after `n` chunks as the whole-buffer stores of the
  chunks before `n` written over the contents at loop entry. Each chunk stores, into each accumulator, one whole
  buffer whose value is that chunk's update of what the buffer held (`tripStep`); so the contents after `n`
  chunks are the recursion `loopRes`.
-/
import proofs.«422350_j40346922778987_2_alg».proof.Proof.Gen.Kernel.Loops
import proofs.«422350_j40346922778987_2_alg».proof.Proof.KStepBits
import Idealize.ShloMosaic.Lib.Pipeline.Value

set_option maxRecDepth 16384

noncomputable section

namespace Cert.Kernel.KV

open Cert.Kernel Cert.Kernel.Gen
open Idealize.ShloMosaic Idealize.ShloMosaic.TcCoe
open Idealize.SL Idealize.SL.Sem

variable {F : FTy → Type} [FloatOps F]

theorem hz2 : (![0, 0] : Fin 2 → Nat) = fun _ => 0 := funext fun a => by fin_cases a <;> rfl

variable (𝒱 : Variants) (c : Dev nD) (bd : Option 𝒱.V) (i : grid0.Coords) (arg1 : Memref sig .tc .vmem S6144x3 .f32) (harg1 : arg1.IsWhole) (arg2 : Memref sig .tc .vmem S6144x3 .f32) (harg2 : arg2.IsWhole) (arg3 : Memref sig .tc .vmem S6144x8 .f32) (harg3 : arg3.IsWhole) (arg4 : Memref sig .tc .vmem S6144x1 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1 .f32) (harg10 : arg10.IsWhole) (arg0 : BitVec 32)

set_option maxHeartbeats 2000000 in
/-- One chunk's stores, written over any contents, read as that chunk's update of those contents: accumulator by accumulator. -/
theorem tripL_read8 (x0 x1 : Vec F S6144x3 .f32) (x2 : Vec F S6144x8 .f32) (x3 : Vec F S6144x1 .i32) (k : Fin k0_t1_loop.trips)
    (f8 : BufTy.Contents (Elt F) arg8.view.ty) (f9 : BufTy.Contents (Elt F) arg9.view.ty) (f10 : BufTy.Contents (Elt F) arg10.view.ty) :
    arg8.view.read (Elt F) (arg8.view.writes (Elt F) f8 (tripL_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) k f8 f9 f10).1)
      = (tripStep arg0 x0 x1 x2 x3 k (arg8.view.read (Elt F) f8, arg9.view.read (Elt F) f9, arg10.view.read (Elt F) f10)).1 := by
  dsimp only [tripL_k0_t1]
  unfold trip_k0_t1
  dsimp only
  unfold trip_k0_t1.sl.r_2 trip_k0_t1.sl.r_3
  rw [View.read_writes_eq_canon _ _ _ (fun y => ⟨_, List.mem_singleton_self _, View.mem_set_unit_zero hz2 inb_S1x1024_S1x1024_0_0 y⟩), View.canon_unit_zero hz2]
  simp only [View.readAt_eq_ld, harg1.read_unread, harg2.read_unread, harg4.read_unread, View.ld_unit_zero (S := S1x1024) hz2]
  rfl

set_option maxHeartbeats 2000000 in
theorem tripL_read9 (x0 x1 : Vec F S6144x3 .f32) (x2 : Vec F S6144x8 .f32) (x3 : Vec F S6144x1 .i32) (k : Fin k0_t1_loop.trips)
    (f8 : BufTy.Contents (Elt F) arg8.view.ty) (f9 : BufTy.Contents (Elt F) arg9.view.ty) (f10 : BufTy.Contents (Elt F) arg10.view.ty) :
    arg9.view.read (Elt F) (arg9.view.writes (Elt F) f9 (tripL_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) k f8 f9 f10).2.1)
      = (tripStep arg0 x0 x1 x2 x3 k (arg8.view.read (Elt F) f8, arg9.view.read (Elt F) f9, arg10.view.read (Elt F) f10)).2.1 := by
  dsimp only [tripL_k0_t1]
  unfold trip_k0_t1
  dsimp only
  unfold trip_k0_t1.sl.r_1
  rw [View.read_writes_eq_canon _ _ _ (fun y => ⟨_, List.mem_singleton_self _, View.mem_set_unit_zero hz2 inb_S1x1024_S1x1024_0_0 y⟩), View.canon_unit_zero hz2]
  simp only [View.readAt_eq_ld, harg4.read_unread, View.ld_unit_zero (S := S1x1024) hz2]
  rfl

set_option maxHeartbeats 2000000 in
theorem tripL_read10 (x0 x1 : Vec F S6144x3 .f32) (x2 : Vec F S6144x8 .f32) (x3 : Vec F S6144x1 .i32) (k : Fin k0_t1_loop.trips)
    (f8 : BufTy.Contents (Elt F) arg8.view.ty) (f9 : BufTy.Contents (Elt F) arg9.view.ty) (f10 : BufTy.Contents (Elt F) arg10.view.ty) :
    arg10.view.read (Elt F) (arg10.view.writes (Elt F) f10 (tripL_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) k f8 f9 f10).2.2)
      = (tripStep arg0 x0 x1 x2 x3 k (arg8.view.read (Elt F) f8, arg9.view.read (Elt F) f9, arg10.view.read (Elt F) f10)).2.2 := by
  dsimp only [tripL_k0_t1]
  unfold trip_k0_t1
  dsimp only
  unfold trip_k0_t1.sl.r
  rw [View.read_writes_eq_canon _ _ _ (fun y => ⟨_, List.mem_singleton_self _, View.mem_set_unit_zero hz2 inb_S1x1_S1x1_0_0 y⟩), View.canon_unit_zero hz2]
  simp only [View.readAt_eq_ld, harg3.read_unread, View.ld_unit_zero (S := S1x1) hz2]
  rfl

/-- The accumulators after the chunks before `n`: the loop invariant's contents read as the recursion. -/
theorem pb_read (x0 x1 : Vec F S6144x3 .f32) (x2 : Vec F S6144x8 .f32) (x3 : Vec F S6144x1 .i32)
    (G8 : BufTy.Contents (Elt F) arg8.view.ty) (G9 : BufTy.Contents (Elt F) arg9.view.ty) (G10 : BufTy.Contents (Elt F) arg10.view.ty) :
    ∀ n : ℕ, n ≤ k0_t1_loop.trips →
      arg8.view.read (Elt F) (arg8.view.writes (Elt F) G8 (pb_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 n).1)
        = (loopRes arg0 x0 x1 x2 x3 (arg8.view.read (Elt F) G8, arg9.view.read (Elt F) G9, arg10.view.read (Elt F) G10) n).1
      ∧ arg9.view.read (Elt F) (arg9.view.writes (Elt F) G9 (pb_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 n).2.1)
        = (loopRes arg0 x0 x1 x2 x3 (arg8.view.read (Elt F) G8, arg9.view.read (Elt F) G9, arg10.view.read (Elt F) G10) n).2.1
      ∧ arg10.view.read (Elt F) (arg10.view.writes (Elt F) G10 (pb_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 n).2.2)
        = (loopRes arg0 x0 x1 x2 x3 (arg8.view.read (Elt F) G8, arg9.view.read (Elt F) G9, arg10.view.read (Elt F) G10) n).2.2
  | 0, _ => ⟨rfl, rfl, rfl⟩
  | n + 1, h => by
    have ih := pb_read x0 x1 x2 x3 G8 G9 G10 n (Nat.le_of_succ_le h)
    have hs := pb_k0_t1_succ (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 ⟨n, h⟩
    have hl := loopRes_succ arg0 x0 x1 x2 x3 (arg8.view.read (Elt F) G8, arg9.view.read (Elt F) G9, arg10.view.read (Elt F) G10) ⟨n, h⟩
    dsimp only at hs hl
    rw [hs, hl]
    dsimp only
    rw [View.writes_append, View.writes_append, View.writes_append]
    have ht8 := tripL_read8 𝒱 c bd i arg1 harg1 arg2 harg2 arg3 harg3 arg4 harg4 arg5 harg5 arg6 harg6 arg7 harg7 arg8 harg8 arg9 harg9 arg10 harg10 arg0 x0 x1 x2 x3 ⟨n, h⟩
      (arg8.view.writes (Elt F) G8 (pb_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 n).1)
      (arg9.view.writes (Elt F) G9 (pb_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 n).2.1)
      (arg10.view.writes (Elt F) G10 (pb_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 n).2.2)
    have ht9 := tripL_read9 𝒱 c bd i arg1 harg1 arg2 harg2 arg3 harg3 arg4 harg4 arg5 harg5 arg6 harg6 arg7 harg7 arg8 harg8 arg9 harg9 arg10 harg10 arg0 x0 x1 x2 x3 ⟨n, h⟩
      (arg8.view.writes (Elt F) G8 (pb_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 n).1)
      (arg9.view.writes (Elt F) G9 (pb_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 n).2.1)
      (arg10.view.writes (Elt F) G10 (pb_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 n).2.2)
    have ht10 := tripL_read10 𝒱 c bd i arg1 harg1 arg2 harg2 arg3 harg3 arg4 harg4 arg5 harg5 arg6 harg6 arg7 harg7 arg8 harg8 arg9 harg9 arg10 harg10 arg0 x0 x1 x2 x3 ⟨n, h⟩
      (arg8.view.writes (Elt F) G8 (pb_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 n).1)
      (arg9.view.writes (Elt F) G9 (pb_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 n).2.1)
      (arg10.view.writes (Elt F) G10 (pb_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 n).2.2)
    rw [ih.1, ih.2.1, ih.2.2] at ht8 ht9 ht10
    exact ⟨ht8, ht9, ht10⟩

end Cert.Kernel.KV

end
-- ==== Proof.BodyRunBits.lean ====
/-
  The kernel body at one grid point, on any staging buffers and scratch, at any float instance.

  From the four input buffers at contents `x0 … x3`, the three scratch accumulators at `s8, s9, s10` (at anything at
  the first grid point, which clears them) and the three output buffers at `o5, o6, o7`, the body runs to the end
  leaving the inputs as they were, the accumulators at the point's update `pointRes` of them, and the outputs as
  they were — except at the last grid point, where it copies the accumulators into them. Three cases of the two
  branch conditions on the grid coordinate (first point, a point between, last point); in each the symbolic run goes
  through the chunk loop by its generated invariant, whose contents `pb_read` reads as the recursion.
-/
import proofs.«422350_j40346922778987_2_alg».proof.Proof.LoopReadBits
import proofs.«422350_j40346922778987_2_alg».proof.Proof.Gen.Kernel.Frame

set_option maxRecDepth 16384

noncomputable section

namespace Cert.Kernel.KV

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 8000000 in
/-- A grid point that is neither the first nor the last: the accumulators are updated, the outputs untouched. -/
theorem run_mid (c : Dev nD) (i : grid0.Coords) (arg1 : Memref sig .tc .vmem S6144x3 .f32) (harg1 : arg1.IsWhole) (arg2 : Memref sig .tc .vmem S6144x3 .f32) (harg2 : arg2.IsWhole) (arg3 : Memref sig .tc .vmem S6144x8 .f32) (harg3 : arg3.IsWhole) (arg4 : Memref sig .tc .vmem S6144x1 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1 .f32) (harg10 : arg10.IsWhole) (hc0 : ¬condFirst i) (hc1 : ¬condLast i)
    (x0 x1 : Vec F S6144x3 .f32) (x2 : Vec F S6144x8 .f32) (x3 : Vec F S6144x1 .i32) (s8 s9 : Vec F S1x1024 .f32) (s10 : Vec F S1x1 .f32)
    (o5 o6 : Vec F S1x1024 .f32) (o7 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare o5 ∗ owns (c : Thread nD τ) arg6 fullShare o6 ∗ owns (c : Thread nD τ) arg7 fullShare o7
        ∗ owns (c : Thread nD τ) arg8 fullShare s8 ∗ owns (c : Thread nD τ) arg9 fullShare s9 ∗ owns (c : Thread nD τ) arg10 fullShare s10
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare o5 ∗ owns (c : Thread nD τ) arg6 fullShare o6 ∗ owns (c : Thread nD τ) arg7 fullShare o7
            ∗ owns (c : Thread nD τ) arg8 fullShare (pointRes i x0 x1 x2 x3 (s8, s9, s10)).1
            ∗ owns (c : Thread nD τ) arg9 fullShare (pointRes i x0 x1 x2 x3 (s8, s9, s10)).2.1
            ∗ owns (c : Thread nD τ) arg10 fullShare (pointRes i x0 x1 x2 x3 (s8, s9, s10)).2.2) -∗ K ⟨⟩))
      ⊢ wp frame (wpE (defs₀ (F := F)) Variants.none c none) E (cc0__node_kernel i arg1 harg1 arg2 harg2 arg3 harg3 arg4 harg4 arg5 harg5 arg6 harg6 arg7 harg7 arg8 harg8 arg9 harg9 arg10 harg10) K := by
  have hp := pb_read (F := F) Variants.none c none i arg1 harg1 arg2 harg2 arg3 harg3 arg4 harg4 arg5 harg5 arg6 harg6 arg7 harg7 arg8 harg8 arg9 harg9 arg10 harg10 (BitVec.ofNat 32 (i 0).val) x0 x1 x2 x3 (harg8.unread s8) (harg9.unread s9) (harg10.unread s10) k0_t1_loop.trips le_rfl
  rw [harg8.read_unread, harg9.read_unread, harg10.read_unread] at hp
  have hq : pointRes i x0 x1 x2 x3 (s8, s9, s10) = loopRes (BitVec.ofNat 32 (i 0).val) x0 x1 x2 x3 (s8, s9, s10) k0_t1_loop.trips := by
    unfold pointRes; rw [if_neg hc0]
  rw [hq]
  simp only [cc0__node_kernel_eq_skeleton]; unfold cc0__node_kernel_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hp.1
    iexact H8
  isplitl [H9]
  · iexists _; isplitr; · ipureintro; exact hp.2.1
    iexact H9
  · iexists _; isplitr; · ipureintro; exact hp.2.2
    iexact H10

set_option maxHeartbeats 8000000 in
/-- The last grid point: the accumulators are updated and copied into the three output buffers. -/
theorem run_last (c : Dev nD) (i : grid0.Coords) (arg1 : Memref sig .tc .vmem S6144x3 .f32) (harg1 : arg1.IsWhole) (arg2 : Memref sig .tc .vmem S6144x3 .f32) (harg2 : arg2.IsWhole) (arg3 : Memref sig .tc .vmem S6144x8 .f32) (harg3 : arg3.IsWhole) (arg4 : Memref sig .tc .vmem S6144x1 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1 .f32) (harg10 : arg10.IsWhole) (hc0 : ¬condFirst i) (hc1 : condLast i)
    (x0 x1 : Vec F S6144x3 .f32) (x2 : Vec F S6144x8 .f32) (x3 : Vec F S6144x1 .i32) (s8 s9 : Vec F S1x1024 .f32) (s10 : Vec F S1x1 .f32)
    (o5 o6 : Vec F S1x1024 .f32) (o7 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare o5 ∗ owns (c : Thread nD τ) arg6 fullShare o6 ∗ owns (c : Thread nD τ) arg7 fullShare o7
        ∗ owns (c : Thread nD τ) arg8 fullShare s8 ∗ owns (c : Thread nD τ) arg9 fullShare s9 ∗ owns (c : Thread nD τ) arg10 fullShare s10
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (pointRes i x0 x1 x2 x3 (s8, s9, s10)).1 ∗ owns (c : Thread nD τ) arg6 fullShare (pointRes i x0 x1 x2 x3 (s8, s9, s10)).2.1 ∗ owns (c : Thread nD τ) arg7 fullShare (pointRes i x0 x1 x2 x3 (s8, s9, s10)).2.2
            ∗ owns (c : Thread nD τ) arg8 fullShare (pointRes i x0 x1 x2 x3 (s8, s9, s10)).1
            ∗ owns (c : Thread nD τ) arg9 fullShare (pointRes i x0 x1 x2 x3 (s8, s9, s10)).2.1
            ∗ owns (c : Thread nD τ) arg10 fullShare (pointRes i x0 x1 x2 x3 (s8, s9, s10)).2.2) -∗ K ⟨⟩))
      ⊢ wp frame (wpE (defs₀ (F := F)) Variants.none c none) E (cc0__node_kernel i arg1 harg1 arg2 harg2 arg3 harg3 arg4 harg4 arg5 harg5 arg6 harg6 arg7 harg7 arg8 harg8 arg9 harg9 arg10 harg10) K := by
  have hp := pb_read (F := F) Variants.none c none i arg1 harg1 arg2 harg2 arg3 harg3 arg4 harg4 arg5 harg5 arg6 harg6 arg7 harg7 arg8 harg8 arg9 harg9 arg10 harg10 (BitVec.ofNat 32 (i 0).val) x0 x1 x2 x3 (harg8.unread s8) (harg9.unread s9) (harg10.unread s10) k0_t1_loop.trips le_rfl
  rw [harg8.read_unread, harg9.read_unread, harg10.read_unread] at hp
  have hq : pointRes i x0 x1 x2 x3 (s8, s9, s10) = loopRes (BitVec.ofNat 32 (i 0).val) x0 x1 x2 x3 (s8, s9, s10) k0_t1_loop.trips := by
    unfold pointRes; rw [if_neg hc0]
  rw [hq]
  simp only [cc0__node_kernel_eq_skeleton]; unfold cc0__node_kernel_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H5]
  · iexists _; isplitr
    swap; · iexact H5
    ipureintro
    rw [View.read_writes_eq_canon _ _ _ (fun y => ⟨_, List.mem_singleton_self _, View.mem_set_unit_zero hz2 inb_S1x1024_S1x1024_0_0 y⟩), View.canon_unit_zero hz2]
    sl_unfold_words
    simp only [View.readAt_eq_ld, View.ld_unit_zero (S := S1x1024) hz2]
    exact hp.1
  isplitl [H6]
  · iexists _; isplitr
    swap; · iexact H6
    ipureintro
    rw [View.read_writes_eq_canon _ _ _ (fun y => ⟨_, List.mem_singleton_self _, View.mem_set_unit_zero hz2 inb_S1x1024_S1x1024_0_0 y⟩), View.canon_unit_zero hz2]
    sl_unfold_words
    simp only [View.readAt_eq_ld, View.ld_unit_zero (S := S1x1024) hz2]
    exact hp.2.1
  isplitl [H7]
  · iexists _; isplitr
    swap; · iexact H7
    ipureintro
    rw [View.read_writes_eq_canon _ _ _ (fun y => ⟨_, List.mem_singleton_self _, View.mem_set_unit_zero hz2 inb_S1x1_S1x1_0_0 y⟩), View.canon_unit_zero hz2]
    sl_unfold_words
    simp only [View.readAt_eq_ld, View.ld_unit_zero (S := S1x1) hz2]
    exact hp.2.2
  isplitl [H8]
  · iexists _; isplitr; · ipureintro; exact hp.1
    iexact H8
  isplitl [H9]
  · iexists _; isplitr; · ipureintro; exact hp.2.1
    iexact H9
  · iexists _; isplitr; · ipureintro; exact hp.2.2
    iexact H10

end Cert.Kernel.KV

end
-- ==== Proof.BodyRunFirstBits.lean ====
/-
  The kernel body at the first grid point: the accumulators, whatever they held, are cleared and then updated.
-/
import proofs.«422350_j40346922778987_2_alg».proof.Proof.LoopReadBits
import proofs.«422350_j40346922778987_2_alg».proof.Proof.Gen.Kernel.Frame

set_option maxRecDepth 16384

noncomputable section

namespace Cert.Kernel.KV

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- One whole-buffer store, over anything, leaves its payload. -/
theorem read_whole_store {κ : Kind} {sp : Space} {S : Shape} {e : EltTy} (v : View sig κ sp S e) (f : v.ty.Contents (Elt F)) {off : Fin S.rank → Nat}
    (hz : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero hz inb y⟩), View.canon_unit_zero hz]

set_option maxHeartbeats 8000000 in
/-- The first grid point: the accumulators are cleared, whatever they held, then updated; the outputs untouched. -/
theorem run_first (c : Dev nD) (i : grid0.Coords) (arg1 : Memref sig .tc .vmem S6144x3 .f32) (harg1 : arg1.IsWhole) (arg2 : Memref sig .tc .vmem S6144x3 .f32) (harg2 : arg2.IsWhole) (arg3 : Memref sig .tc .vmem S6144x8 .f32) (harg3 : arg3.IsWhole) (arg4 : Memref sig .tc .vmem S6144x1 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1 .f32) (harg10 : arg10.IsWhole) (hc0 : condFirst i) (hc1 : ¬condLast i)
    (x0 x1 : Vec F S6144x3 .f32) (x2 : Vec F S6144x8 .f32) (x3 : Vec F S6144x1 .i32) (s8 s9 : Vec F S1x1024 .f32) (s10 : Vec F S1x1 .f32)
    (o5 o6 : Vec F S1x1024 .f32) (o7 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare o5 ∗ owns (c : Thread nD τ) arg6 fullShare o6 ∗ owns (c : Thread nD τ) arg7 fullShare o7
        ∗ owns (c : Thread nD τ) arg8 fullShare s8 ∗ owns (c : Thread nD τ) arg9 fullShare s9 ∗ owns (c : Thread nD τ) arg10 fullShare s10
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare o5 ∗ owns (c : Thread nD τ) arg6 fullShare o6 ∗ owns (c : Thread nD τ) arg7 fullShare o7
            ∗ owns (c : Thread nD τ) arg8 fullShare (pointRes i x0 x1 x2 x3 (s8, s9, s10)).1
            ∗ owns (c : Thread nD τ) arg9 fullShare (pointRes i x0 x1 x2 x3 (s8, s9, s10)).2.1
            ∗ owns (c : Thread nD τ) arg10 fullShare (pointRes i x0 x1 x2 x3 (s8, s9, s10)).2.2) -∗ K ⟨⟩))
      ⊢ wp frame (wpE (defs₀ (F := F)) Variants.none c none) E (cc0__node_kernel i arg1 harg1 arg2 harg2 arg3 harg3 arg4 harg4 arg5 harg5 arg6 harg6 arg7 harg7 arg8 harg8 arg9 harg9 arg10 harg10) K := by
  have hq : pointRes i x0 x1 x2 x3 (s8, s9, s10) = loopRes (BitVec.ofNat 32 (i 0).val) x0 x1 x2 x3 zeroScr k0_t1_loop.trips := by
    unfold pointRes; rw [if_pos hc0]
  rw [hq]
  simp only [cc0__node_kernel_eq_skeleton]; unfold cc0__node_kernel_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    rw [View.writes_append]
    refine ((pb_read (F := F) Variants.none c none i arg1 harg1 arg2 harg2 arg3 harg3 arg4 harg4 arg5 harg5 arg6 harg6 arg7 harg7 arg8 harg8 arg9 harg9 arg10 harg10 (BitVec.ofNat 32 (i 0).val) x0 x1 x2 x3 _ _ _ k0_t1_loop.trips le_rfl).1).trans ?_
    sl_unfold_words
    rw [read_whole_store arg8.view _ hz2 inb_S1x1024_S1x1024_0_0 (k0_pay1 (F := F)), read_whole_store arg9.view _ hz2 inb_S1x1024_S1x1024_0_0 (k0_pay2 (F := F)),
      read_whole_store arg10.view _ hz2 inb_S1x1_S1x1_0_0 (k0_pay3 (F := F))]
    rfl
  isplitl [H9]
  · iexists _; isplitr
    swap; · iexact H9
    ipureintro
    rw [View.writes_append]
    refine ((pb_read (F := F) Variants.none c none i arg1 harg1 arg2 harg2 arg3 harg3 arg4 harg4 arg5 harg5 arg6 harg6 arg7 harg7 arg8 harg8 arg9 harg9 arg10 harg10 (BitVec.ofNat 32 (i 0).val) x0 x1 x2 x3 _ _ _ k0_t1_loop.trips le_rfl).2.1).trans ?_
    sl_unfold_words
    rw [read_whole_store arg8.view _ hz2 inb_S1x1024_S1x1024_0_0 (k0_pay1 (F := F)), read_whole_store arg9.view _ hz2 inb_S1x1024_S1x1024_0_0 (k0_pay2 (F := F)),
      read_whole_store arg10.view _ hz2 inb_S1x1_S1x1_0_0 (k0_pay3 (F := F))]
    rfl
  · iexists _; isplitr
    swap; · iexact H10
    ipureintro
    rw [View.writes_append]
    refine ((pb_read (F := F) Variants.none c none i arg1 harg1 arg2 harg2 arg3 harg3 arg4 harg4 arg5 harg5 arg6 harg6 arg7 harg7 arg8 harg8 arg9 harg9 arg10 harg10 (BitVec.ofNat 32 (i 0).val) x0 x1 x2 x3 _ _ _ k0_t1_loop.trips le_rfl).2.2).trans ?_
    sl_unfold_words
    rw [read_whole_store arg8.view _ hz2 inb_S1x1024_S1x1024_0_0 (k0_pay1 (F := F)), read_whole_store arg9.view _ hz2 inb_S1x1024_S1x1024_0_0 (k0_pay2 (F := F)),
      read_whole_store arg10.view _ hz2 inb_S1x1_S1x1_0_0 (k0_pay3 (F := F))]
    rfl

end Cert.Kernel.KV

end
-- ==== Proof.FrameBBits.lean ====
/-
  The body obligation at every grid point, the run and the frame claim, at any float instance.
-/
import proofs.«422350_j40346922778987_2_alg».proof.Proof.FrameABits
import proofs.«422350_j40346922778987_2_alg».proof.Proof.BodyRunBits
import proofs.«422350_j40346922778987_2_alg».proof.Proof.BodyRunFirstBits

set_option maxRecDepth 16384

noncomputable section

namespace Cert.Kernel.KV

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body hands back, window by window -/

theorem leaves_in0 (c : Dev nD) (t : Fin cfg0.N) :
    (dats m 0 c).leaves 0 t = iprop(∃ d, owns (c : Thread nD τ) (st0_0 t) fullShare (win0_0.fill (grid0.coords t) d (iblk m c 0 t))) := by
  show iprop(∃ d, owns (c : Thread nD τ) (st0_0 t) fullShare (win0_0.fill (grid0.coords t) d (win0_0.cut (grid0.coords t) ((dats m 0 c).after 0 t)))) = _
  rw [after0_0]; unfold stg0; simp only [Window.cut_fill]
theorem leaves_in1 (c : Dev nD) (t : Fin cfg0.N) :
    (dats m 0 c).leaves 1 t = iprop(∃ d, owns (c : Thread nD τ) (st0_1 t) fullShare (win0_1.fill (grid0.coords t) d (iblk m c 1 t))) := by
  show iprop(∃ d, owns (c : Thread nD τ) (st0_1 t) fullShare (win0_1.fill (grid0.coords t) d (win0_1.cut (grid0.coords t) ((dats m 0 c).after 1 t)))) = _
  rw [after0_1]; unfold stg1; simp only [Window.cut_fill]
theorem leaves_in2 (c : Dev nD) (t : Fin cfg0.N) :
    (dats m 0 c).leaves 2 t = iprop(∃ d, owns (c : Thread nD τ) (st0_2 t) fullShare (win0_2.fill (grid0.coords t) d (iblk m c 2 t))) := by
  show iprop(∃ d, owns (c : Thread nD τ) (st0_2 t) fullShare (win0_2.fill (grid0.coords t) d (win0_2.cut (grid0.coords t) ((dats m 0 c).after 2 t)))) = _
  rw [after0_2]; unfold stg2; simp only [Window.cut_fill]
theorem leaves_in3 (c : Dev nD) (t : Fin cfg0.N) :
    (dats m 0 c).leaves 3 t = iprop(∃ d, owns (c : Thread nD τ) (st0_3 t) fullShare (win0_3.fill (grid0.coords t) d (iblk m c 3 t))) := by
  show iprop(∃ d, owns (c : Thread nD τ) (st0_3 t) fullShare (win0_3.fill (grid0.coords t) d (win0_3.cut (grid0.coords t) ((dats m 0 c).after 3 t)))) = _
  rw [after0_3]; unfold stg3; simp only [Window.cut_fill]
theorem leaves_out_not4 (c : Dev nD) (t : Fin cfg0.N) (h : t.val ≠ 651) :
    (dats m 0 c).leaves 4 t = iprop(∃ d, owns (c : Thread nD τ) (st0_4 t) fullShare ((dats m 0 c).before 4 t d)) :=
  (dats m 0 c).leaves_idle 4 t (idle_out_not t h).1.1 (idle_out_not t h).1.2
theorem leaves_out_last4 (c : Dev nD) (t : Fin cfg0.N) (h : t.val = 651) :
    (dats m 0 c).leaves 4 t = owns (c : Thread nD τ) (st0_4 t) fullShare (accAt m c t.val).1 := by
  unfold Dat.leaves; rw [(idle_out_last t h).1, ← after0_4]
theorem leaves_out_not5 (c : Dev nD) (t : Fin cfg0.N) (h : t.val ≠ 651) :
    (dats m 0 c).leaves 5 t = iprop(∃ d, owns (c : Thread nD τ) (st0_5 t) fullShare ((dats m 0 c).before 5 t d)) :=
  (dats m 0 c).leaves_idle 5 t (idle_out_not t h).2.1.1 (idle_out_not t h).2.1.2
theorem leaves_out_last5 (c : Dev nD) (t : Fin cfg0.N) (h : t.val = 651) :
    (dats m 0 c).leaves 5 t = owns (c : Thread nD τ) (st0_5 t) fullShare (accAt m c t.val).2.1 := by
  unfold Dat.leaves; rw [(idle_out_last t h).2.1, ← after0_5]
theorem leaves_out_not6 (c : Dev nD) (t : Fin cfg0.N) (h : t.val ≠ 651) :
    (dats m 0 c).leaves 6 t = iprop(∃ d, owns (c : Thread nD τ) (st0_6 t) fullShare ((dats m 0 c).before 6 t d)) :=
  (dats m 0 c).leaves_idle 6 t (idle_out_not t h).2.2.1 (idle_out_not t h).2.2.2
theorem leaves_out_last6 (c : Dev nD) (t : Fin cfg0.N) (h : t.val = 651) :
    (dats m 0 c).leaves 6 t = owns (c : Thread nD τ) (st0_6 t) fullShare (accAt m c t.val).2.2 := by
  unfold Dat.leaves; rw [(idle_out_last t h).2.2, ← after0_6]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t
    ∗ (dats m 0 c).leaves 4 t ∗ (dats m 0 c).leaves 5 t ∗ (dats m 0 c).leaves 6 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, leaves_in0, leaves_in1, leaves_in2, leaves_in3]
  rw [show (dats m 0 c).owesAt () t.succ = (dats m 0 c).owesAt () t.castSucc from rfl,
    show (dats m 0 c).Φ t.succ = PhiS m c (t.val + 1) from rfl, Phi_castSucc]
  rw [show PhiS m c (t.val + 1) = iprop(iprop(owns (c : Thread nD τ) scM8 fullShare (accAt m c t.val).1 ∗ owns (c : Thread nD τ) scM9 fullShare (accAt m c t.val).2.1
      ∗ owns (c : Thread nD τ) scM10 fullShare (accAt m c t.val).2.2) ∗ (∃ r, prngReg c r)) from rfl]
  by_cases hz : t.val = 0
  · -- the first point: the scratch arrives at anything
    have hl : t.val ≠ 651 := by omega
    rw [leaves_out_not4 m c t hl, leaves_out_not5 m c t hl, leaves_out_not6 m c t hl]
    rw [show PhiS m c t.val = Pipeline.ΦA spec0 c from by rw [hz]; rfl, PhiA0_eq]
    iintro ⟨⟨⟨⟨%s8, HS8⟩, ⟨%s9, HS9⟩, ⟨%s10, HS10⟩⟩, Hg⟩, Ho, ⟨%d0, H0⟩, ⟨%d1, H1⟩, ⟨%d2, H2⟩, ⟨%d3, H3⟩, ⟨%d4, H4⟩, ⟨%d5, H5⟩, ⟨%d6, H6⟩⟩
    have hrun := fun K => run_first (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) scM8 (Memref.isWhole_whole _) scM9 (Memref.isWhole_whole _) scM10 (Memref.isWhole_whole _) ((hcondFirst t).mpr hz) (fun h => hl ((hcondLast t).mp h))
      (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) s8 s9 s10 ((dats m 0 c).before 4 t d4) ((dats m 0 c).before 5 t d5) ((dats m 0 c).before 6 t d6) Set.univ K
    simp only [acc_step_zero m c t hz d0 d1 d2 d3 (s8, s9, s10)] at hrun
    iapply (hrun _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS8]; · iexact HS8
    isplitl [HS9]; · iexact HS9
    isplitl [HS10]; · iexact HS10
    iintro ⟨H0, H1, H2, H3, H4, H5, H6, HS8, HS9, HS10⟩
    isplitl [HS8 HS9 HS10 Hg]
    · isplitl [HS8 HS9 HS10]
      · isplitl [HS8]; · iexact HS8
        isplitl [HS9]; · iexact HS9
        iexact HS10
      iexact Hg
    isplitl [Ho]; · iexact Ho
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    iexists _; iexact H6
  · by_cases hl : t.val = 651
    · -- the last point: the outputs receive the accumulators
      rw [leaves_out_last4 m c t hl, leaves_out_last5 m c t hl, leaves_out_last6 m c t hl]
      rw [PhiS_pos m c t.val hz]
      iintro ⟨⟨⟨HS8, HS9, HS10⟩, Hg⟩, Ho, ⟨%d0, H0⟩, ⟨%d1, H1⟩, ⟨%d2, H2⟩, ⟨%d3, H3⟩, ⟨%d4, H4⟩, ⟨%d5, H5⟩, ⟨%d6, H6⟩⟩
      have hrun := fun K => run_last (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) scM8 (Memref.isWhole_whole _) scM9 (Memref.isWhole_whole _) scM10 (Memref.isWhole_whole _) (fun h => hz ((hcondFirst t).mp h)) ((hcondLast t).mpr hl)
        (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (accAt m c (t.val - 1)).1 (accAt m c (t.val - 1)).2.1 (accAt m c (t.val - 1)).2.2
        ((dats m 0 c).before 4 t d4) ((dats m 0 c).before 5 t d5) ((dats m 0 c).before 6 t d6) Set.univ K
      simp only [acc_step_pos m c t hz d0 d1 d2 d3] at hrun
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS8]; · iexact HS8
      isplitl [HS9]; · iexact HS9
      isplitl [HS10]; · iexact HS10
      iintro ⟨H0, H1, H2, H3, H4, H5, H6, HS8, HS9, HS10⟩
      isplitl [HS8 HS9 HS10 Hg]
      · isplitl [HS8 HS9 HS10]
        · isplitl [HS8]; · iexact HS8
          isplitl [HS9]; · iexact HS9
          iexact HS10
        iexact Hg
      isplitl [Ho]; · iexact Ho
      isplitl [H0]; · iexists _; iexact H0
      isplitl [H1]; · iexists _; iexact H1
      isplitl [H2]; · iexists _; iexact H2
      isplitl [H3]; · iexists _; iexact H3
      isplitl [H4]; · iexact H4
      isplitl [H5]; · iexact H5
      iexact H6
    · -- a point between
      rw [leaves_out_not4 m c t hl, leaves_out_not5 m c t hl, leaves_out_not6 m c t hl]
      rw [PhiS_pos m c t.val hz]
      iintro ⟨⟨⟨HS8, HS9, HS10⟩, Hg⟩, Ho, ⟨%d0, H0⟩, ⟨%d1, H1⟩, ⟨%d2, H2⟩, ⟨%d3, H3⟩, ⟨%d4, H4⟩, ⟨%d5, H5⟩, ⟨%d6, H6⟩⟩
      have hrun := fun K => run_mid (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) scM8 (Memref.isWhole_whole _) scM9 (Memref.isWhole_whole _) scM10 (Memref.isWhole_whole _) (fun h => hz ((hcondFirst t).mp h)) (fun h => hl ((hcondLast t).mp h))
        (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (accAt m c (t.val - 1)).1 (accAt m c (t.val - 1)).2.1 (accAt m c (t.val - 1)).2.2
        ((dats m 0 c).before 4 t d4) ((dats m 0 c).before 5 t d5) ((dats m 0 c).before 6 t d6) Set.univ K
      simp only [acc_step_pos m c t hz d0 d1 d2 d3] at hrun
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS8]; · iexact HS8
      isplitl [HS9]; · iexact HS9
      isplitl [HS10]; · iexact HS10
      iintro ⟨H0, H1, H2, H3, H4, H5, H6, HS8, HS9, HS10⟩
      isplitl [HS8 HS9 HS10 Hg]
      · isplitl [HS8 HS9 HS10]
        · isplitl [HS8]; · iexact HS8
          isplitl [HS9]; · iexact HS9
          iexact HS10
        iexact Hg
      isplitl [Ho]; · iexact Ho
      isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      iexists _; iexact H6

/-- The library's body obligation, at every point. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the scratch back at some contents. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 652 := N_0; omega), PhiA0_eq]
  iintro ⟨⟨HS8, HS9, HS10⟩, Hg⟩
  isplitl [HS8 HS9 HS10]
  · isplitl [HS8]; · iexists _; iexact HS8
    isplitl [HS9]; · iexists _; iexact HS9
    iexists _; iexact HS10
  iexact Hg

/-! ## The run and the frame -/

set_option backward.isDefEq.respectTransparency.types false in
/-- Every weakly fair execution of @main terminates; every array of the pipeline ends at what the library computes from
    the proof data, every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's post: the run terminates and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.KV

end
-- ==== Proof.KStepIdeal.lean ====
/-
  The kernel body's arithmetic as a recursion, for any float instance.

  At one grid point the body visits the 24 row chunks (256 rows each) of its four staged blocks. Chunk `k`
  adds, to the three running accumulators (the per-graph error sums, the per-graph node counts, the total force),
  that chunk's contribution: the one-hot selection of each row's graph id against the 1024 graphs times the row's
  absolute error, the one-hot selection itself, and the row's force norm — every row past the array's end masked
  to zero (its graph id to -1). `tripStep` is one chunk's update, `loopRes` the chunks before `n`, `pointRes`
  the whole point: the accumulators are first cleared at the first grid point.
-/
import proofs.«422350_j40346922778987_2_alg».proof.Proof.Gen.KernelIdeal.Skeleton
import Idealize.ShloMosaic.Lib.Pipeline.FrameBody
import Idealize.ShloMosaic.Lib.ValueIdx

noncomputable section

namespace Cert.KernelIdeal.KV

open Cert.KernelIdeal Cert.KernelIdeal.Gen
open Idealize.ShloMosaic

variable {F : FTy → Type} [FloatOps F]

/-- The three accumulators: error sums and node counts per graph (1024 lanes), and the total force. -/
abbrev Scr (F : FTy → Type) [FloatOps F] : Type := Vec F S1x1024 .f32 × Vec F S1x1024 .f32 × Vec F S1x1 .f32

/-- Rows `256 k … 256 k + 255` of a staged block of three columns, -/
def ch3 (X : Vec F S6144x3 .f32) (k : Fin k0_t1_loop.trips) : Vec F S256x3 .f32 :=
  View.ld X (Rect.unit (s := S6144x3) (k0_off1 k) S256x3.size (k0_off1_inb k))
/-- of eight columns, -/
def ch8 (X : Vec F S6144x8 .f32) (k : Fin k0_t1_loop.trips) : Vec F S256x8 .f32 :=
  View.ld X (Rect.unit (s := S6144x8) (k0_off2 k) S256x8.size (k0_off2_inb k))
/-- and of the one column of graph ids. -/
def ch1 (X : Vec F S6144x1 .i32) (k : Fin k0_t1_loop.trips) : Vec F S256x1 .i32 :=
  View.ld X (Rect.unit (s := S6144x1) (k0_off3 k) S256x1.size (k0_off3_inb k))

/-- Chunk `k`'s update of the accumulators at the grid point whose coordinate word is `arg0`. -/
def tripStep (arg0 : BitVec 32) (X0 X1 : Vec F S6144x3 .f32) (X2 : Vec F S6144x8 .f32) (X3 : Vec F S6144x1 .i32)
    (k : Fin k0_t1_loop.trips) (s : Scr F) : Scr F :=
  (k0_pay4 s.1 (k0_pay10 arg0 0#32 1#32 k (ch3 X0 k) (ch3 X1 k) (ch1 X3 k)),
   k0_pay5 (k0_pay9 arg0 0#32 1#32 k (ch1 X3 k)) s.2.1,
   k0_pay6 (k0_pay8 arg0 0#32 1#32 k (ch8 X2 k)) s.2.2)

/-- The accumulators after the chunks before `n`, from `s`. -/
def loopRes (arg0 : BitVec 32) (X0 X1 : Vec F S6144x3 .f32) (X2 : Vec F S6144x8 .f32) (X3 : Vec F S6144x1 .i32)
    (s : Scr F) : ℕ → Scr F
  | 0 => s
  | n + 1 => if h : n < k0_t1_loop.trips then tripStep arg0 X0 X1 X2 X3 ⟨n, h⟩ (loopRes arg0 X0 X1 X2 X3 s n)
      else loopRes arg0 X0 X1 X2 X3 s n

theorem loopRes_succ (arg0 : BitVec 32) (X0 X1 : Vec F S6144x3 .f32) (X2 : Vec F S6144x8 .f32) (X3 : Vec F S6144x1 .i32)
    (s : Scr F) (k : Fin k0_t1_loop.trips) :
    loopRes arg0 X0 X1 X2 X3 s (k.val + 1) = tripStep arg0 X0 X1 X2 X3 k (loopRes arg0 X0 X1 X2 X3 s k.val) := by
  rw [loopRes]; exact dif_pos k.isLt

/-- The cleared accumulators. -/
def zeroScr : Scr F := (k0_pay1, k0_pay2, k0_pay3)

/-- The first grid point clears the accumulators: the body's first branch condition, from the grid coordinate. -/
abbrev condFirst (i : grid0.Coords) : Prop :=
  (Scalar.cmpi .ne (Scalar.extui (Scalar.cmpi .eq (BitVec.ofNat 32 (i 0).val) 0#32)) 0#32) = 1#1
/-- The last grid point copies the accumulators out: the body's second branch condition. -/
abbrev condLast (i : grid0.Coords) : Prop := k0_cond2 i = 1#1

/-- The accumulators a grid point leaves, from the four staged blocks and what the point before left. -/
def pointRes (i : grid0.Coords) (X0 X1 : Vec F S6144x3 .f32) (X2 : Vec F S6144x8 .f32) (X3 : Vec F S6144x1 .i32)
    (s : Scr F) : Scr F :=
  loopRes (BitVec.ofNat 32 (i 0).val) X0 X1 X2 X3 (if condFirst i then zeroScr else s) k0_t1_loop.trips

/-! ## The accumulators over the whole grid -/

open Idealize.ShloMosaic.ValueIdx in
/-- A staged block of three columns at grid point `t` agrees with the array on the rows inside the array
    (row `r` of the block is row `6144 t + r` of the array); the rows past the array's end are unconstrained. -/
def Agree3 (A : Vec F S4000000x3 .f32) (t : Fin cfg0.N) (Y : Vec F S6144x3 .f32) : Prop :=
  ∀ (r : Fin 6144) (j : Fin 3) (h : t.val * 6144 + r.val < 4000000), Y (ix2 r j) = A (ix2 ⟨t.val * 6144 + r.val, h⟩ j)
open Idealize.ShloMosaic.ValueIdx in
def Agree8 (A : Vec F S4000000x8 .f32) (t : Fin cfg0.N) (Y : Vec F S6144x8 .f32) : Prop :=
  ∀ (r : Fin 6144) (j : Fin 8) (h : t.val * 6144 + r.val < 4000000), Y (ix2 r j) = A (ix2 ⟨t.val * 6144 + r.val, h⟩ j)
open Idealize.ShloMosaic.ValueIdx in
def Agree1 (A : Vec F S4000000x1 .i32) (t : Fin cfg0.N) (Y : Vec F S6144x1 .i32) : Prop :=
  ∀ (r : Fin 6144) (j : Fin 1) (h : t.val * 6144 + r.val < 4000000), Y (ix2 r j) = A (ix2 ⟨t.val * 6144 + r.val, h⟩ j)

/-- The accumulators after grid point `n`, from the staged blocks of every point (`s0` is what the scratch held
    before the first point, which the first point clears). -/
def accAll (Y0 Y1 : Fin cfg0.N → Vec F S6144x3 .f32) (Y2 : Fin cfg0.N → Vec F S6144x8 .f32) (Y3 : Fin cfg0.N → Vec F S6144x1 .i32)
    (s0 : Scr F) : ℕ → Scr F
  | 0 => if h : 0 < cfg0.N then pointRes (grid0.coords ⟨0, h⟩) (Y0 ⟨0, h⟩) (Y1 ⟨0, h⟩) (Y2 ⟨0, h⟩) (Y3 ⟨0, h⟩) s0 else s0
  | n + 1 => if h : n + 1 < cfg0.N then
      pointRes (grid0.coords ⟨n + 1, h⟩) (Y0 ⟨n + 1, h⟩) (Y1 ⟨n + 1, h⟩) (Y2 ⟨n + 1, h⟩) (Y3 ⟨n + 1, h⟩) (accAll Y0 Y1 Y2 Y3 s0 n)
    else accAll Y0 Y1 Y2 Y3 s0 n

theorem accAll_zero (Y0 Y1 : Fin cfg0.N → Vec F S6144x3 .f32) (Y2 : Fin cfg0.N → Vec F S6144x8 .f32) (Y3 : Fin cfg0.N → Vec F S6144x1 .i32)
    (s0 : Scr F) (t : Fin cfg0.N) (ht : t.val = 0) :
    accAll Y0 Y1 Y2 Y3 s0 t.val = pointRes (grid0.coords t) (Y0 t) (Y1 t) (Y2 t) (Y3 t) s0 := by
  obtain ⟨n, hn⟩ := t; cases n with
  | zero => exact dif_pos hn
  | succ n => exact absurd ht (Nat.succ_ne_zero n)

theorem accAll_pos (Y0 Y1 : Fin cfg0.N → Vec F S6144x3 .f32) (Y2 : Fin cfg0.N → Vec F S6144x8 .f32) (Y3 : Fin cfg0.N → Vec F S6144x1 .i32)
    (s0 : Scr F) (t : Fin cfg0.N) (ht : t.val ≠ 0) :
    accAll Y0 Y1 Y2 Y3 s0 t.val = pointRes (grid0.coords t) (Y0 t) (Y1 t) (Y2 t) (Y3 t) (accAll Y0 Y1 Y2 Y3 s0 (t.val - 1)) := by
  obtain ⟨n, hn⟩ := t; cases n with
  | zero => exact absurd rfl ht
  | succ n => exact dif_pos hn

end Cert.KernelIdeal.KV

end
-- ==== Proof.DatDefIdeal.lean ====
/-
  The proof data of the kernel's one pipeline, at any float instance.

  After the body at grid point `t` each input's staging buffer holds its block of the array (on the rows inside the
  array; the fetch at the last point is cut there), the three scratch accumulators hold `accAt t` — the recursion
  over the points before and at `t` of the per-point update on the staged blocks — and, at the last point, the three
  outputs' buffers hold the accumulators. Between points the invariant keeps the scratch at `accAt`.
-/
import proofs.«422350_j40346922778987_2_alg».proof.Proof.KStepIdeal
import proofs.«422350_j40346922778987_2_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- What the four input staging buffers hold at point `t` after the fetch, the rows past the array's end filled with a
    fixed word (nothing reads them unmasked). -/
def stg0 (c : Dev nD) (t : Fin cfg0.N) : Vec F S6144x3 .f32 :=
  win0_0.fill (grid0.coords t) (fun _ => Scalar.ofBits .f32 0#32) (iblk m c 0 t)
def stg1 (c : Dev nD) (t : Fin cfg0.N) : Vec F S6144x3 .f32 :=
  win0_1.fill (grid0.coords t) (fun _ => Scalar.ofBits .f32 0#32) (iblk m c 1 t)
def stg2 (c : Dev nD) (t : Fin cfg0.N) : Vec F S6144x8 .f32 :=
  win0_2.fill (grid0.coords t) (fun _ => Scalar.ofBits .f32 0#32) (iblk m c 2 t)
def stg3 (c : Dev nD) (t : Fin cfg0.N) : Vec F S6144x1 .i32 :=
  win0_3.fill (grid0.coords t) (fun _ => (0#32 : BitVec 32)) (iblk m c 3 t)

/-- The accumulators after grid point `n`. -/
def accAt (c : Dev nD) (n : ℕ) : Scr F := accAll (stg0 m c) (stg1 m c) (stg2 m c) (stg3 m c) zeroScr n

/-- The three scratch operands: whole scoped buffers of the kernel's own. -/
abbrev scM8 : Memref sig .tc .vmem S1x1024 .f32 := Memref.whole cc0_scratch0
abbrev scM9 : Memref sig .tc .vmem S1x1024 .f32 := Memref.whole cc0_scratch1
abbrev scM10 : Memref sig .tc .vmem S1x1 .f32 := Memref.whole cc0_scratch2

/-- The region invariant before point `n`: before the first point the scratch at anything; afterwards at what the
    point before left. -/
def PhiS (c : Dev nD) : ℕ → sProp 𝕄
  | 0 => Pipeline.ΦA spec0 c
  | n + 1 => iprop(iprop(owns (c : Thread nD τ) scM8 fullShare (accAt m c n).1 ∗ owns (c : Thread nD τ) scM9 fullShare (accAt m c n).2.1
      ∗ owns (c : Thread nD τ) scM10 fullShare (accAt m c n).2.2) ∗ (∃ r, prngReg c r))

/-- The proof data. -/
def dats (_ : Fin 1) (c : Dev nD) : Dat τ (Elt F) Unit ℕ (UR sig nD τ) ℕ cfg0 c where
  A w := V m c (Pipeline.arrRef spec0 w)
  after w t := match w with
    | ⟨0, _⟩ => stg0 m c t
    | ⟨1, _⟩ => stg1 m c t
    | ⟨2, _⟩ => stg2 m c t
    | ⟨3, _⟩ => stg3 m c t
    | ⟨4, _⟩ => (accAt m c t.val).1
    | ⟨5, _⟩ => (accAt m c t.val).2.1
    | ⟨6, _⟩ => (accAt m c t.val).2.2
    | ⟨_ + 7, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = stg0 m c t := by dsimp only [dats]
theorem after0_1 (c : Dev nD) (t : Fin cfg0.N) : (dats m 0 c).after 1 t = stg1 m c t := by dsimp only [dats]
theorem after0_2 (c : Dev nD) (t : Fin cfg0.N) : (dats m 0 c).after 2 t = stg2 m c t := by dsimp only [dats]
theorem after0_3 (c : Dev nD) (t : Fin cfg0.N) : (dats m 0 c).after 3 t = stg3 m c t := by dsimp only [dats]
theorem after0_4 (c : Dev nD) (t : Fin cfg0.N) : (dats m 0 c).after 4 t = (accAt m c t.val).1 := by dsimp only [dats]
theorem after0_5 (c : Dev nD) (t : Fin cfg0.N) : (dats m 0 c).after 5 t = (accAt m c t.val).2.1 := by dsimp only [dats]
theorem after0_6 (c : Dev nD) (t : Fin cfg0.N) : (dats m 0 c).after 6 t = (accAt m c t.val).2.2 := by dsimp only [dats]

end Cert.KernelIdeal.KV

end
-- ==== Proof.OutArrIdeal.lean ====
/-
  What the body finds in the input staging buffers, and what the three result arrays hold after the run.

  Every input window is fetched at every grid point: its buffer holds its block on the rows the transfer moves and
  what it held before elsewhere. The three results are single blocks written back once, after the last point: each
  result array ends holding the corresponding accumulator after the last point.
-/
import proofs.«422350_j40346922778987_2_alg».proof.Proof.DatDefIdeal
import proofs.«422350_j40346922778987_2_alg».proof.Proof.Gen.KernelIdeal.Points
import Idealize.ShloMosaic.Lib.Pipeline.Value

set_option maxRecDepth 16384

noncomputable section

namespace Cert.KernelIdeal.KV

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ)

theorem before0_0 (c : Dev nD) (t : Fin cfg0.N) (d) :
    (dats m 0 c).before (0 : Fin 7) t d = win0_0.fill (grid0.coords t) d (iblk m c 0 t) := by
  unfold Dat.before; rw [if_pos (fetch0_0 t)]; rfl
theorem before0_1 (c : Dev nD) (t : Fin cfg0.N) (d) :
    (dats m 0 c).before (1 : Fin 7) t d = win0_1.fill (grid0.coords t) d (iblk m c 1 t) := by
  unfold Dat.before; rw [if_pos (fetch0_1 t)]; rfl
theorem before0_2 (c : Dev nD) (t : Fin cfg0.N) (d) :
    (dats m 0 c).before (2 : Fin 7) t d = win0_2.fill (grid0.coords t) d (iblk m c 2 t) := by
  unfold Dat.before; rw [if_pos (fetch0_2 t)]; rfl
theorem before0_3 (c : Dev nD) (t : Fin cfg0.N) (d) :
    (dats m 0 c).before (3 : Fin 7) t d = win0_3.fill (grid0.coords t) d (iblk m c 3 t) := by
  unfold Dat.before; rw [if_pos (fetch0_3 t)]; rfl

/-- The block of the first result at every grid point is the block at index (0, 0): the whole array. -/
theorem idx_facts4 : ∀ t : Fin cfg0.N, win0_4.index t (0 : Fin 2) = 0 ∧ win0_4.index t (1 : Fin 2) = 0 :=
  (by decide +kernel : ∀ t : Fin grid0.N, _)

/-- The first result array after the run holds what its buffer holds after the body at the last point: that point
    alone writes back, and its block is the whole array. -/
theorem arrAt_of_last4 (c : Dev nD) (G : Vec F S1x1024 .f32)
    (hG : ∀ t : Fin cfg0.N, t.val = 651 → (dats m 0 c).after 4 t = G) :
    (dats m 0 c).arrAt (4 : Fin 7) cfg0.N = G := by
  refine (dats m 0 c).arrAt_eq_of_cover (4 : Fin 7) G (fun t hf => ?_) (fun i => ?_)
  · -- the one point that writes back is the last, and there the buffer holds `G`
    have hlt : t.val < 652 := lt_of_lt_of_eq t.isLt N_0
    have ht : t.val = 651 := by have := (flush0_4 t).mp hf; omega
    obtain ⟨e0, e1⟩ := idx_facts4 t
    show (cfg0.win 4).cut (grid0.coords t) ((dats m 0 c).after 4 t) = _
    rw [hG t ht]
    funext y
    show G _ = G (((cfg0.win 4).blk t).view.emb y)
    congr 1
    funext a; apply Fin.ext
    match a with
    | ⟨0, _⟩ => show (y 0).val = win0_4.index t (0 : Fin 2) * 1 + 1 * (y 0).val; rw [e0]; omega
    | ⟨1, _⟩ => show (y 1).val = win0_4.index t (1 : Fin 2) * 1024 + 1 * (y 1).val; rw [e1]; omega
  · -- the last point's block is the whole array
    have h651 : (651 : ℕ) < cfg0.N := lt_of_lt_of_eq (by omega : (651 : ℕ) < 652) N_0.symm
    refine ⟨⟨651, h651⟩, (flush0_4 _).mpr (show (651 : ℕ) % 652 = 651 from rfl), ?_⟩
    obtain ⟨e0, e1⟩ := idx_facts4 ⟨651, h651⟩
    show i ∈ ((View.whole main_v1_0).slice (win0_4.rect ⟨651, h651⟩)).set
    rw [View.set_slice_whole, Rect.mem_set_unit]
    intro a
    match a with
    | ⟨0, _⟩ =>
      show win0_4.index ⟨651, h651⟩ (0 : Fin 2) * 1 ≤ (i 0).val ∧ (i 0).val < win0_4.index ⟨651, h651⟩ (0 : Fin 2) * 1 + 1
      have h0 : (i 0).val < 1 := (i 0).isLt; rw [e0]; omega
    | ⟨1, _⟩ =>
      show win0_4.index ⟨651, h651⟩ (1 : Fin 2) * 1024 ≤ (i 1).val ∧ (i 1).val < win0_4.index ⟨651, h651⟩ (1 : Fin 2) * 1024 + 1024
      have h1 : (i 1).val < 1024 := (i 1).isLt; rw [e1]; omega

theorem arrAt4 (c : Dev nD) : (dats m 0 c).arrAt (4 : Fin 7) cfg0.N = (accAt m c 651).1 :=
  arrAt_of_last4 m c _ fun t ht => by rw [after0_4, ht]

/-- The block of the second result at every grid point is the block at index (0, 0): the whole array. -/
theorem idx_facts5 : ∀ t : Fin cfg0.N, win0_5.index t (0 : Fin 2) = 0 ∧ win0_5.index t (1 : Fin 2) = 0 :=
  (by decide +kernel : ∀ t : Fin grid0.N, _)

/-- The second result array after the run holds what its buffer holds after the body at the last point: that point
    alone writes back, and its block is the whole array. -/
theorem arrAt_of_last5 (c : Dev nD) (G : Vec F S1x1024 .f32)
    (hG : ∀ t : Fin cfg0.N, t.val = 651 → (dats m 0 c).after 5 t = G) :
    (dats m 0 c).arrAt (5 : Fin 7) cfg0.N = G := by
  refine (dats m 0 c).arrAt_eq_of_cover (5 : Fin 7) G (fun t hf => ?_) (fun i => ?_)
  · -- the one point that writes back is the last, and there the buffer holds `G`
    have hlt : t.val < 652 := lt_of_lt_of_eq t.isLt N_0
    have ht : t.val = 651 := by have := (flush0_5 t).mp hf; omega
    obtain ⟨e0, e1⟩ := idx_facts5 t
    show (cfg0.win 5).cut (grid0.coords t) ((dats m 0 c).after 5 t) = _
    rw [hG t ht]
    funext y
    show G _ = G (((cfg0.win 5).blk t).view.emb y)
    congr 1
    funext a; apply Fin.ext
    match a with
    | ⟨0, _⟩ => show (y 0).val = win0_5.index t (0 : Fin 2) * 1 + 1 * (y 0).val; rw [e0]; omega
    | ⟨1, _⟩ => show (y 1).val = win0_5.index t (1 : Fin 2) * 1024 + 1 * (y 1).val; rw [e1]; omega
  · -- the last point's block is the whole array
    have h651 : (651 : ℕ) < cfg0.N := lt_of_lt_of_eq (by omega : (651 : ℕ) < 652) N_0.symm
    refine ⟨⟨651, h651⟩, (flush0_5 _).mpr (show (651 : ℕ) % 652 = 651 from rfl), ?_⟩
    obtain ⟨e0, e1⟩ := idx_facts5 ⟨651, h651⟩
    show i ∈ ((View.whole main_v1_1).slice (win0_5.rect ⟨651, h651⟩)).set
    rw [View.set_slice_whole, Rect.mem_set_unit]
    intro a
    match a with
    | ⟨0, _⟩ =>
      show win0_5.index ⟨651, h651⟩ (0 : Fin 2) * 1 ≤ (i 0).val ∧ (i 0).val < win0_5.index ⟨651, h651⟩ (0 : Fin 2) * 1 + 1
      have h0 : (i 0).val < 1 := (i 0).isLt; rw [e0]; omega
    | ⟨1, _⟩ =>
      show win0_5.index ⟨651, h651⟩ (1 : Fin 2) * 1024 ≤ (i 1).val ∧ (i 1).val < win0_5.index ⟨651, h651⟩ (1 : Fin 2) * 1024 + 1024
      have h1 : (i 1).val < 1024 := (i 1).isLt; rw [e1]; omega

theorem arrAt5 (c : Dev nD) : (dats m 0 c).arrAt (5 : Fin 7) cfg0.N = (accAt m c 651).2.1 :=
  arrAt_of_last5 m c _ fun t ht => by rw [after0_5, ht]

/-- The block of the third result at every grid point is the block at index (0, 0): the whole array. -/
theorem idx_facts6 : ∀ t : Fin cfg0.N, win0_6.index t (0 : Fin 2) = 0 ∧ win0_6.index t (1 : Fin 2) = 0 :=
  (by decide +kernel : ∀ t : Fin grid0.N, _)

/-- The third result array after the run holds what its buffer holds after the body at the last point: that point
    alone writes back, and its block is the whole array. -/
theorem arrAt_of_last6 (c : Dev nD) (G : Vec F S1x1 .f32)
    (hG : ∀ t : Fin cfg0.N, t.val = 651 → (dats m 0 c).after 6 t = G) :
    (dats m 0 c).arrAt (6 : Fin 7) cfg0.N = G := by
  refine (dats m 0 c).arrAt_eq_of_cover (6 : Fin 7) G (fun t hf => ?_) (fun i => ?_)
  · -- the one point that writes back is the last, and there the buffer holds `G`
    have hlt : t.val < 652 := lt_of_lt_of_eq t.isLt N_0
    have ht : t.val = 651 := by have := (flush0_6 t).mp hf; omega
    obtain ⟨e0, e1⟩ := idx_facts6 t
    show (cfg0.win 6).cut (grid0.coords t) ((dats m 0 c).after 6 t) = _
    rw [hG t ht]
    funext y
    show G _ = G (((cfg0.win 6).blk t).view.emb y)
    congr 1
    funext a; apply Fin.ext
    match a with
    | ⟨0, _⟩ => show (y 0).val = win0_6.index t (0 : Fin 2) * 1 + 1 * (y 0).val; rw [e0]; omega
    | ⟨1, _⟩ => show (y 1).val = win0_6.index t (1 : Fin 2) * 1 + 1 * (y 1).val; rw [e1]; omega
  · -- the last point's block is the whole array
    have h651 : (651 : ℕ) < cfg0.N := lt_of_lt_of_eq (by omega : (651 : ℕ) < 652) N_0.symm
    refine ⟨⟨651, h651⟩, (flush0_6 _).mpr (show (651 : ℕ) % 652 = 651 from rfl), ?_⟩
    obtain ⟨e0, e1⟩ := idx_facts6 ⟨651, h651⟩
    show i ∈ ((View.whole main_v1_2).slice (win0_6.rect ⟨651, h651⟩)).set
    rw [View.set_slice_whole, Rect.mem_set_unit]
    intro a
    match a with
    | ⟨0, _⟩ =>
      show win0_6.index ⟨651, h651⟩ (0 : Fin 2) * 1 ≤ (i 0).val ∧ (i 0).val < win0_6.index ⟨651, h651⟩ (0 : Fin 2) * 1 + 1
      have h0 : (i 0).val < 1 := (i 0).isLt; rw [e0]; omega
    | ⟨1, _⟩ =>
      show win0_6.index ⟨651, h651⟩ (1 : Fin 2) * 1 ≤ (i 1).val ∧ (i 1).val < win0_6.index ⟨651, h651⟩ (1 : Fin 2) * 1 + 1
      have h1 : (i 1).val < 1 := (i 1).isLt; rw [e1]; omega

theorem arrAt6 (c : Dev nD) : (dats m 0 c).arrAt (6 : Fin 7) cfg0.N = (accAt m c 651).2.2 :=
  arrAt_of_last6 m c _ fun t ht => by rw [after0_6, ht]

end Cert.KernelIdeal.KV

end
-- ==== Proof.MaskIdeal.lean ====
/-
  Which rows are inside the array. At grid point `t` and chunk `k` the body compares the global row number
  `6144 t + 256 k + r` (r the row within the chunk) with 4000000. Since 4000000 = 256 · 15625, a chunk lies
  wholly inside the array or wholly outside it: the comparison is the same for all 256 rows of the chunk, true
  exactly when `24 t + k < 15625`.
-/
import proofs.«422350_j40346922778987_2_alg».proof.Proof.Gen.KernelIdeal.Skeleton
import Idealize.ShloMosaic.Lib.ValueIdx

noncomputable section

namespace Cert.KernelIdeal.KV

open Cert.KernelIdeal Cert.KernelIdeal.Gen
open Idealize.ShloMosaic

/-- The one grid coordinate of point `t` is `t`. -/
theorem coords_val : ∀ t : Fin cfg0.N, ((grid0.coords t) 0).val = t.val :=
  (by decide +kernel : ∀ t : Fin grid0.N, ((grid0.coords t) 0).val = t.val)

/-- The row mask of chunk `k` at point `t` is constant over the chunk: all ones when the chunk is inside the
    array, all zeros when it is past its end. -/
theorem mask_eq (t : Fin cfg0.N) (k : Fin k0_t1_loop.trips) :
    k0_pay7 (BitVec.ofNat 32 ((grid0.coords t) 0).val) 0#32 1#32 k
      = fun _ => if t.val * 24 + k.val < 15625 then 1#1 else 0#1 := by
  funext idx
  have hk : k.val < 24 := lt_of_lt_of_le k.isLt k0_t1_abs.2.1
  have ht : t.val < 652 := t.isLt
  have hr : (idx 0).val < 256 := (idx 0).isLt
  rw [coords_val]
  unfold k0_pay7
  -- the global row number as a 32-bit word: no wrap, since 6144 t + 256 k + r < 2^31
  have hw : IntOp.addi (Scalar.addi (Scalar.muli (BitVec.ofNat 32 t.val) 6144#32)
        (Scalar.muli (Scalar.addi (0#32) (Scalar.muli (Scf.iv 0#32 1#32 k.val) 1#32)) 256#32))
        (BitVec.ofNat 32 (idx 0).val)
      = BitVec.ofNat 32 (t.val * 6144 + k.val * 256 + (idx 0).val) := by
    apply BitVec.eq_of_toNat_eq
    simp only [Scalar.addi, Scalar.muli, IntOp.addi, IntOp.muli, Scf.iv, BitVec.toNat_add, BitVec.toNat_mul,
      BitVec.toNat_ofNat]
    omega
  have hi : iota Kind.tc S256x1 32 [0] iota_S256x1_d0_w32 idx = BitVec.ofNat 32 (idx 0).val := by
    simp [iota]
  show IntOp.cmpi .slt (IntOp.addi _ (iota Kind.tc S256x1 32 [0] iota_S256x1_d0_w32 idx)) 4000000#32 = _
  rw [hi, ValueIdx.broadcast_apply, hw]
  have hn : t.val * 6144 + k.val * 256 + (idx 0).val < 2 ^ 31 := by omega
  have hI : (BitVec.ofNat 32 (t.val * 6144 + k.val * 256 + (idx 0).val)).toInt
      = ((t.val * 6144 + k.val * 256 + (idx 0).val : ℕ) : ℤ) := by
    rw [BitVec.toInt_eq_toNat_of_lt (by rw [BitVec.toNat_ofNat]; omega), BitVec.toNat_ofNat,
      Nat.mod_eq_of_lt (by omega)]
  by_cases h : t.val * 24 + k.val < 15625
  · rw [if_pos h]
    refine IntOp.cmpi_slt.2 ?_
    have h4 : (4000000#32 : BitVec 32).toInt = 4000000 := by decide
    rw [hI, h4]
    omega
  · rw [if_neg h]
    apply ValueIdx.eq_zero_of_ne_one
    intro hc
    have := IntOp.cmpi_slt.1 hc
    rw [hI] at this
    have h4 : (4000000#32 : BitVec 32).toInt = 4000000 := by decide
    rw [h4] at this
    omega

end Cert.KernelIdeal.KV

end
-- ==== Proof.CongrIdeal.lean ====
/-
  The accumulators a grid point leaves depend on the staged blocks only through their rows inside the array.

  A block's rows past the array's end are masked by the body before they enter any sum (a whole chunk at a time,
  since the array's length is a multiple of the chunk's 256 rows): two families of staged blocks that agree with
  the arrays on the rows inside them give the same accumulators, at any float instance.
-/
import proofs.«422350_j40346922778987_2_alg».proof.Proof.KStepIdeal
import proofs.«422350_j40346922778987_2_alg».proof.Proof.MaskIdeal

noncomputable section

namespace Cert.KernelIdeal.KV

open Cert.KernelIdeal Cert.KernelIdeal.Gen
open Idealize.ShloMosaic Idealize.ShloMosaic.ValueIdx

variable {F : FTy → Type} [FloatOps F]

/-! ## A chunk past the array's end: the loaded values are masked away -/

/-- A select on the all-zeros mask is its second operand. -/
theorem select_const_zero {s : Shape} {α : Type} (a b : s.Idx → α) : select (fun _ => 0#1) a b = b := by
  funext i
  rw [select_apply]
  exact select_zero _ _

/-- Under an all-zeros row mask the force norm of the chunk does not depend on the chunk's values. -/
theorem pay8_masked (arg0 c0 c1 : BitVec 32) (k : Fin k0_t1_loop.trips)
    (hm : k0_pay7 arg0 c0 c1 k = fun _ => 0#1) (v16 v16' : Vec F S256x8 .f32) :
    k0_pay8 arg0 c0 c1 k v16 = k0_pay8 arg0 c0 c1 k v16' := by
  unfold k0_pay8
  simp only [hm, select_const_zero]

/-- Under an all-zeros row mask the one-hot selection does not depend on the chunk's graph ids. -/
theorem pay9_masked (arg0 c0 c1 : BitVec 32) (k : Fin k0_t1_loop.trips)
    (hm : k0_pay7 arg0 c0 c1 k = fun _ => 0#1) (v18 v18' : Vec F S256x1 .i32) :
    k0_pay9 arg0 c0 c1 k v18 = k0_pay9 arg0 c0 c1 k v18' := by
  unfold k0_pay9
  simp only [hm, select_const_zero]

/-- Under an all-zeros row mask the selected errors do not depend on the chunk's values. -/
theorem pay10_masked (arg0 c0 c1 : BitVec 32) (k : Fin k0_t1_loop.trips)
    (hm : k0_pay7 arg0 c0 c1 k = fun _ => 0#1) (v12 v12' v14 v14' : Vec F S256x3 .f32) (v18 v18' : Vec F S256x1 .i32) :
    k0_pay10 arg0 c0 c1 k v12 v14 v18 = k0_pay10 arg0 c0 c1 k v12' v14' v18' := by
  unfold k0_pay10
  rw [pay9_masked arg0 c0 c1 k hm v18 v18']
  simp only [hm, select_const_zero]

/-! ## A chunk inside the array: the chunk itself is the array's rows -/

/-- Chunk `kk` of a staged block at grid point `t`, when the chunk lies inside the array
    (`24 t + kk < 15625`, that is all of its 256 rows are below row 4000000), is determined by the array:
    two blocks that agree with the array on the rows inside it have the same chunk. -/
theorem ld_inside {n : ℕ} {e : EltTy} (t kk : ℕ) (A : Vec F ⟨2, ![4000000, n]⟩ e) (Y Y' : Vec F ⟨2, ![6144, n]⟩ e)
    (h : ∀ (r : Fin 6144) (j : Fin n) (hlt : t * 6144 + r.val < 4000000), Y (ix2 r j) = A (ix2 ⟨t * 6144 + r.val, hlt⟩ j))
    (h' : ∀ (r : Fin 6144) (j : Fin n) (hlt : t * 6144 + r.val < 4000000), Y' (ix2 r j) = A (ix2 ⟨t * 6144 + r.val, hlt⟩ j))
    (hin : t * 24 + kk < 15625) (hk : kk < 24) (off : Fin 2 → ℕ) (hoff : off = ![256 * kk, 0])
    (inb : ∀ a, off a + (![256, n] : Fin 2 → ℕ) a ≤ (⟨2, ![6144, n]⟩ : Shape).size a) :
    View.ld Y (Rect.unit (s := ⟨2, ![6144, n]⟩) off ![256, n] inb)
      = View.ld Y' (Rect.unit (s := ⟨2, ![6144, n]⟩) off ![256, n] inb) := by
  subst hoff
  funext x
  obtain ⟨r, j, rfl⟩ : ∃ (r : Fin 256) (j : Fin n), x = ix2 r j := ⟨_, _, eq_ix2 x⟩
  have hr : 256 * kk + r.val < 6144 := by have := r.isLt; omega
  have hidx : (Rect.unit (s := ⟨2, ![6144, n]⟩) ![256 * kk, 0] ![256, n] inb).toLoadRect.idx (ix2 r j)
      = ix2 ⟨256 * kk + r.val, hr⟩ j := by
    funext a
    apply Fin.ext
    rw [LoadRect.idx_apply]
    match a with
    | ⟨0, _⟩ => show 256 * kk + 1 * r.val = 256 * kk + r.val; omega
    | ⟨1, _⟩ => show 0 + 1 * j.val = j.val; omega
  show Y _ = Y' _
  rw [hidx]
  have hlt : t * 6144 + (256 * kk + r.val) < 4000000 := by have := r.isLt; omega
  rw [h ⟨_, hr⟩ j hlt, h' ⟨_, hr⟩ j hlt]

theorem ch3_inside (A : Vec F S4000000x3 .f32) (t : Fin cfg0.N) (Y Y' : Vec F S6144x3 .f32)
    (h : Agree3 A t Y) (h' : Agree3 A t Y') (k : Fin k0_t1_loop.trips) (hin : t.val * 24 + k.val < 15625) :
    ch3 Y k = ch3 Y' k :=
  ld_inside t.val k.val A Y Y' h h' hin (lt_of_lt_of_le k.isLt k0_t1_abs.2.1) (k0_off1 k) (k0_off1_eq k) (k0_off1_inb k)

theorem ch8_inside (A : Vec F S4000000x8 .f32) (t : Fin cfg0.N) (Y Y' : Vec F S6144x8 .f32)
    (h : Agree8 A t Y) (h' : Agree8 A t Y') (k : Fin k0_t1_loop.trips) (hin : t.val * 24 + k.val < 15625) :
    ch8 Y k = ch8 Y' k :=
  ld_inside t.val k.val A Y Y' h h' hin (lt_of_lt_of_le k.isLt k0_t1_abs.2.1) (k0_off2 k) (k0_off2_eq k) (k0_off2_inb k)

theorem ch1_inside (A : Vec F S4000000x1 .i32) (t : Fin cfg0.N) (Y Y' : Vec F S6144x1 .i32)
    (h : Agree1 A t Y) (h' : Agree1 A t Y') (k : Fin k0_t1_loop.trips) (hin : t.val * 24 + k.val < 15625) :
    ch1 Y k = ch1 Y' k :=
  ld_inside t.val k.val A Y Y' h h' hin (lt_of_lt_of_le k.isLt k0_t1_abs.2.1) (k0_off3 k) (k0_off3_eq k) (k0_off3_inb k)

/-! ## One chunk's update, and the whole point -/

/-- Chunk `k`'s update is the same from two families of staged blocks that agree with the arrays on the rows
    inside them: inside the array the chunks are equal, past its end they are masked away. -/
theorem tripStep_congr (A0 A1 : Vec F S4000000x3 .f32) (A2 : Vec F S4000000x8 .f32) (A3 : Vec F S4000000x1 .i32) (t : Fin cfg0.N)
    (Y0 Y0' Y1 Y1' : Vec F S6144x3 .f32) (Y2 Y2' : Vec F S6144x8 .f32) (Y3 Y3' : Vec F S6144x1 .i32)
    (h0 : Agree3 A0 t Y0) (h0' : Agree3 A0 t Y0') (h1 : Agree3 A1 t Y1) (h1' : Agree3 A1 t Y1')
    (h2 : Agree8 A2 t Y2) (h2' : Agree8 A2 t Y2') (h3 : Agree1 A3 t Y3) (h3' : Agree1 A3 t Y3')
    (k : Fin k0_t1_loop.trips) (s : Scr F) :
    tripStep (BitVec.ofNat 32 ((grid0.coords t) 0).val) Y0 Y1 Y2 Y3 k s
      = tripStep (BitVec.ofNat 32 ((grid0.coords t) 0).val) Y0' Y1' Y2' Y3' k s := by
  unfold tripStep
  by_cases hin : t.val * 24 + k.val < 15625
  · rw [ch3_inside A0 t Y0 Y0' h0 h0' k hin, ch3_inside A1 t Y1 Y1' h1 h1' k hin,
      ch8_inside A2 t Y2 Y2' h2 h2' k hin, ch1_inside A3 t Y3 Y3' h3 h3' k hin]
  · have hm : k0_pay7 (BitVec.ofNat 32 ((grid0.coords t) 0).val) 0#32 1#32 k = fun _ => 0#1 := by
      rw [mask_eq, if_neg hin]
    rw [pay10_masked _ _ _ k hm (ch3 Y0 k) (ch3 Y0' k) (ch3 Y1 k) (ch3 Y1' k) (ch1 Y3 k) (ch1 Y3' k),
      pay9_masked _ _ _ k hm (ch1 Y3 k) (ch1 Y3' k), pay8_masked _ _ _ k hm (ch8 Y2 k) (ch8 Y2' k)]

theorem loopRes_congr (A0 A1 : Vec F S4000000x3 .f32) (A2 : Vec F S4000000x8 .f32) (A3 : Vec F S4000000x1 .i32) (t : Fin cfg0.N)
    (Y0 Y0' Y1 Y1' : Vec F S6144x3 .f32) (Y2 Y2' : Vec F S6144x8 .f32) (Y3 Y3' : Vec F S6144x1 .i32)
    (h0 : Agree3 A0 t Y0) (h0' : Agree3 A0 t Y0') (h1 : Agree3 A1 t Y1) (h1' : Agree3 A1 t Y1')
    (h2 : Agree8 A2 t Y2) (h2' : Agree8 A2 t Y2') (h3 : Agree1 A3 t Y3) (h3' : Agree1 A3 t Y3') (s : Scr F) (n : ℕ) :
    loopRes (BitVec.ofNat 32 ((grid0.coords t) 0).val) Y0 Y1 Y2 Y3 s n
      = loopRes (BitVec.ofNat 32 ((grid0.coords t) 0).val) Y0' Y1' Y2' Y3' s n := by
  induction n with
  | zero => rfl
  | succ n ih =>
    rw [loopRes, loopRes]
    by_cases hn : n < k0_t1_loop.trips
    · rw [dif_pos hn, dif_pos hn, ih]
      exact tripStep_congr A0 A1 A2 A3 t Y0 Y0' Y1 Y1' Y2 Y2' Y3 Y3' h0 h0' h1 h1' h2 h2' h3 h3' ⟨n, hn⟩ _
    · rw [dif_neg hn, dif_neg hn, ih]

theorem pointRes_congr (A0 A1 : Vec F S4000000x3 .f32) (A2 : Vec F S4000000x8 .f32) (A3 : Vec F S4000000x1 .i32) (t : Fin cfg0.N)
    (Y0 Y0' Y1 Y1' : Vec F S6144x3 .f32) (Y2 Y2' : Vec F S6144x8 .f32) (Y3 Y3' : Vec F S6144x1 .i32)
    (h0 : Agree3 A0 t Y0) (h0' : Agree3 A0 t Y0') (h1 : Agree3 A1 t Y1) (h1' : Agree3 A1 t Y1')
    (h2 : Agree8 A2 t Y2) (h2' : Agree8 A2 t Y2') (h3 : Agree1 A3 t Y3) (h3' : Agree1 A3 t Y3') (s : Scr F) :
    pointRes (grid0.coords t) Y0 Y1 Y2 Y3 s = pointRes (grid0.coords t) Y0' Y1' Y2' Y3' s := by
  unfold pointRes
  exact loopRes_congr A0 A1 A2 A3 t Y0 Y0' Y1 Y1' Y2 Y2' Y3 Y3' h0 h0' h1 h1' h2 h2' h3 h3' _ _

end Cert.KernelIdeal.KV

end
-- ==== Proof.AgreeIdeal.lean ====
/-
  What a staging buffer holds after a fetch agrees with the array on the rows inside the array.

  The fetch at grid point `t` lands rows `6144 t …` of the array in the leading rows of the buffer — all 6144 of
  them, or at the last point only those inside the array — whatever the buffer held before on the other rows.

  Each of the four input windows has one block per grid point, block `t` starting at row `6144 t`; 652 blocks of
  6144 rows overhang the 4000000 rows, so the last fetch is cut to the 256 rows inside the array. A row `r` of the
  block with `6144 t + r < 4000000` is therefore always among the rows moved, and the fetched block read at it is
  the array read at row `6144 t + r`.
-/
import proofs.«422350_j40346922778987_2_alg».proof.Proof.KStepIdeal
import proofs.«422350_j40346922778987_2_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-- The cut sizes and block indices of the first window, over the grid: the rows moved are the block's rows inside
    the array, every column is moved, and the block at point `t` starts at row `6144 t`, column 0. -/
theorem cut_facts0 : ∀ t : Fin cfg0.N,
    win0_0.xsize (grid0.coords t) (0 : Fin 2) = min 6144 (4000000 - t.val * 6144)
    ∧ win0_0.xsize (grid0.coords t) (1 : Fin 2) = 3
    ∧ win0_0.index t (0 : Fin 2) = t.val
    ∧ win0_0.index t (1 : Fin 2) = 0 :=
  (by decide +kernel : ∀ t : Fin grid0.N, _)

theorem agree_fill0 (c : Dev nD) (t : Fin cfg0.N) (d : Vec F S6144x3 .f32) :
    Agree3 (V m c main_arg0) t (win0_0.fill (grid0.coords t) d (iblk m c 0 t)) := by
  intro r j h
  obtain ⟨e0, e1, e2, e3⟩ := cut_facts0 t
  have hr : r.val < 6144 := r.isLt
  have hj : j.val < 3 := j.isLt
  -- row `r` lies inside the array, so it is among the rows moved; every column is
  have hmv : win0_0.moved (grid0.coords t) (ix2 r j) = true := by
    rw [Pipeline.Window.moved_iff]
    intro a
    match a with
    | ⟨0, _⟩ => show r.val < win0_0.xsize (grid0.coords t) (0 : Fin 2); rw [e0]; omega
    | ⟨1, _⟩ => show j.val < win0_0.xsize (grid0.coords t) (1 : Fin 2); rw [e1]; exact hj
  unfold Pipeline.Window.fill
  rw [dif_pos hmv]
  -- the block's element (r, j) is the array's element (6144 t + r, j): block index times block size plus the coordinate
  show V m c main_arg0 (((cfg0.win 0).blk t).view.emb _) = V m c main_arg0 _
  congr 1
  funext a; apply Fin.ext
  match a with
  | ⟨0, _⟩ => show win0_0.index t (0 : Fin 2) * 6144 + 1 * r.val = t.val * 6144 + r.val; rw [e2]; omega
  | ⟨1, _⟩ => show win0_0.index t (1 : Fin 2) * 3 + 1 * j.val = j.val; rw [e3]; omega

/-- The cut sizes and block indices of the second window, over the grid: the rows moved are the block's rows inside
    the array, every column is moved, and the block at point `t` starts at row `6144 t`, column 0. -/
theorem cut_facts1 : ∀ t : Fin cfg0.N,
    win0_1.xsize (grid0.coords t) (0 : Fin 2) = min 6144 (4000000 - t.val * 6144)
    ∧ win0_1.xsize (grid0.coords t) (1 : Fin 2) = 3
    ∧ win0_1.index t (0 : Fin 2) = t.val
    ∧ win0_1.index t (1 : Fin 2) = 0 :=
  (by decide +kernel : ∀ t : Fin grid0.N, _)

theorem agree_fill1 (c : Dev nD) (t : Fin cfg0.N) (d : Vec F S6144x3 .f32) :
    Agree3 (V m c main_arg1) t (win0_1.fill (grid0.coords t) d (iblk m c 1 t)) := by
  intro r j h
  obtain ⟨e0, e1, e2, e3⟩ := cut_facts1 t
  have hr : r.val < 6144 := r.isLt
  have hj : j.val < 3 := j.isLt
  -- row `r` lies inside the array, so it is among the rows moved; every column is
  have hmv : win0_1.moved (grid0.coords t) (ix2 r j) = true := by
    rw [Pipeline.Window.moved_iff]
    intro a
    match a with
    | ⟨0, _⟩ => show r.val < win0_1.xsize (grid0.coords t) (0 : Fin 2); rw [e0]; omega
    | ⟨1, _⟩ => show j.val < win0_1.xsize (grid0.coords t) (1 : Fin 2); rw [e1]; exact hj
  unfold Pipeline.Window.fill
  rw [dif_pos hmv]
  -- the block's element (r, j) is the array's element (6144 t + r, j): block index times block size plus the coordinate
  show V m c main_arg1 (((cfg0.win 1).blk t).view.emb _) = V m c main_arg1 _
  congr 1
  funext a; apply Fin.ext
  match a with
  | ⟨0, _⟩ => show win0_1.index t (0 : Fin 2) * 6144 + 1 * r.val = t.val * 6144 + r.val; rw [e2]; omega
  | ⟨1, _⟩ => show win0_1.index t (1 : Fin 2) * 3 + 1 * j.val = j.val; rw [e3]; omega

/-- The cut sizes and block indices of the third window, over the grid: the rows moved are the block's rows inside
    the array, every column is moved, and the block at point `t` starts at row `6144 t`, column 0. -/
theorem cut_facts2 : ∀ t : Fin cfg0.N,
    win0_2.xsize (grid0.coords t) (0 : Fin 2) = min 6144 (4000000 - t.val * 6144)
    ∧ win0_2.xsize (grid0.coords t) (1 : Fin 2) = 8
    ∧ win0_2.index t (0 : Fin 2) = t.val
    ∧ win0_2.index t (1 : Fin 2) = 0 :=
  (by decide +kernel : ∀ t : Fin grid0.N, _)

theorem agree_fill2 (c : Dev nD) (t : Fin cfg0.N) (d : Vec F S6144x8 .f32) :
    Agree8 (V m c main_arg3) t (win0_2.fill (grid0.coords t) d (iblk m c 2 t)) := by
  intro r j h
  obtain ⟨e0, e1, e2, e3⟩ := cut_facts2 t
  have hr : r.val < 6144 := r.isLt
  have hj : j.val < 8 := j.isLt
  -- row `r` lies inside the array, so it is among the rows moved; every column is
  have hmv : win0_2.moved (grid0.coords t) (ix2 r j) = true := by
    rw [Pipeline.Window.moved_iff]
    intro a
    match a with
    | ⟨0, _⟩ => show r.val < win0_2.xsize (grid0.coords t) (0 : Fin 2); rw [e0]; omega
    | ⟨1, _⟩ => show j.val < win0_2.xsize (grid0.coords t) (1 : Fin 2); rw [e1]; exact hj
  unfold Pipeline.Window.fill
  rw [dif_pos hmv]
  -- the block's element (r, j) is the array's element (6144 t + r, j): block index times block size plus the coordinate
  show V m c main_arg3 (((cfg0.win 2).blk t).view.emb _) = V m c main_arg3 _
  congr 1
  funext a; apply Fin.ext
  match a with
  | ⟨0, _⟩ => show win0_2.index t (0 : Fin 2) * 6144 + 1 * r.val = t.val * 6144 + r.val; rw [e2]; omega
  | ⟨1, _⟩ => show win0_2.index t (1 : Fin 2) * 8 + 1 * j.val = j.val; rw [e3]; omega

/-- The cut sizes and block indices of the fourth window, over the grid: the rows moved are the block's rows inside
    the array, every column is moved, and the block at point `t` starts at row `6144 t`, column 0. -/
theorem cut_facts3 : ∀ t : Fin cfg0.N,
    win0_3.xsize (grid0.coords t) (0 : Fin 2) = min 6144 (4000000 - t.val * 6144)
    ∧ win0_3.xsize (grid0.coords t) (1 : Fin 2) = 1
    ∧ win0_3.index t (0 : Fin 2) = t.val
    ∧ win0_3.index t (1 : Fin 2) = 0 :=
  (by decide +kernel : ∀ t : Fin grid0.N, _)

theorem agree_fill3 (c : Dev nD) (t : Fin cfg0.N) (d : Vec F S6144x1 .i32) :
    Agree1 (V m c main_v0) t (win0_3.fill (grid0.coords t) d (iblk m c 3 t)) := by
  intro r j h
  obtain ⟨e0, e1, e2, e3⟩ := cut_facts3 t
  have hr : r.val < 6144 := r.isLt
  have hj : j.val < 1 := j.isLt
  -- row `r` lies inside the array, so it is among the rows moved; every column is
  have hmv : win0_3.moved (grid0.coords t) (ix2 r j) = true := by
    rw [Pipeline.Window.moved_iff]
    intro a
    match a with
    | ⟨0, _⟩ => show r.val < win0_3.xsize (grid0.coords t) (0 : Fin 2); rw [e0]; omega
    | ⟨1, _⟩ => show j.val < win0_3.xsize (grid0.coords t) (1 : Fin 2); rw [e1]; exact hj
  unfold Pipeline.Window.fill
  rw [dif_pos hmv]
  -- the block's element (r, j) is the array's element (6144 t + r, j): block index times block size plus the coordinate
  show V m c main_v0 (((cfg0.win 3).blk t).view.emb _) = V m c main_v0 _
  congr 1
  funext a; apply Fin.ext
  match a with
  | ⟨0, _⟩ => show win0_3.index t (0 : Fin 2) * 6144 + 1 * r.val = t.val * 6144 + r.val; rw [e2]; omega
  | ⟨1, _⟩ => show win0_3.index t (1 : Fin 2) * 1 + 1 * j.val = j.val; rw [e3]; omega

end Cert.KernelIdeal.KV

end
-- ==== Proof.FrameAIdeal.lean ====
/-
  The kernel's frame, at any float instance: the body obligation of the proof data `dats`, the run, and the frame claim.

  At every grid point the body is handed the invariant (the scratch at what the point before left, at anything before
  the first point), the four input buffers just fetched (their block on the rows inside the array, anything elsewhere)
  and the three output buffers; by the body's run it hands back the inputs as they were, the scratch at the point's
  update — which depends on the staged blocks only through the rows inside the array, so it is `accAt` whatever the
  other rows held — and the outputs untouched, or at the last point holding the accumulators.
-/
import proofs.«422350_j40346922778987_2_alg».proof.Proof.OutArrIdeal
import proofs.«422350_j40346922778987_2_alg».proof.Proof.CongrIdeal
import proofs.«422350_j40346922778987_2_alg».proof.Proof.AgreeIdeal
import Idealize.ShloMosaic.Lib.Pipeline.FrameSuffix

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions and the idle table, decided over the grid -/

theorem hcondFirst : ∀ t : Fin cfg0.N, condFirst (grid0.coords t) ↔ t.val = 0 :=
  (by decide +kernel : ∀ t : Fin grid0.N, condFirst (grid0.coords t) ↔ t.val = 0)
theorem hcondLast : ∀ t : Fin cfg0.N, condLast (grid0.coords t) ↔ t.val = 651 :=
  (by decide +kernel : ∀ t : Fin grid0.N, condLast (grid0.coords t) ↔ t.val = 651)
theorem idle_out_last : ∀ t : Fin cfg0.N, t.val = 651 →
    cfg0.idle 4 (grid0.coords t) = false ∧ cfg0.idle 5 (grid0.coords t) = false ∧ cfg0.idle 6 (grid0.coords t) = false :=
  (by decide +kernel : ∀ t : Fin grid0.N, t.val = 651 →
    cfg0.idle 4 (grid0.coords t) = false ∧ cfg0.idle 5 (grid0.coords t) = false ∧ cfg0.idle 6 (grid0.coords t) = false)
theorem idle_out_not : ∀ t : Fin cfg0.N, t.val ≠ 651 →
    (cfg0.idle 4 (grid0.coords t) = true ∧ (cfg0.win 4).flush t = false) ∧ (cfg0.idle 5 (grid0.coords t) = true ∧ (cfg0.win 5).flush t = false)
      ∧ (cfg0.idle 6 (grid0.coords t) = true ∧ (cfg0.win 6).flush t = false) :=
  (by decide +kernel : ∀ t : Fin grid0.N, t.val ≠ 651 →
    (cfg0.idle 4 (grid0.coords t) = true ∧ (cfg0.win 4).flush t = false) ∧ (cfg0.idle 5 (grid0.coords t) = true ∧ (cfg0.win 5).flush t = false)
      ∧ (cfg0.idle 6 (grid0.coords t) = true ∧ (cfg0.win 6).flush t = false))

/-! ## The invariant -/

theorem PhiA0_eq (c : Dev nD) :
    (Pipeline.ΦA spec0 c : sProp 𝕄)
      = iprop(iprop((∃ d, owns (c : Thread nD τ) scM8 fullShare d) ∗ (∃ d, owns (c : Thread nD τ) scM9 fullShare d) ∗ (∃ d, owns (c : Thread nD τ) scM10 fullShare d)) ∗ (∃ r, prngReg c r)) := by
  unfold Pipeline.ΦA; rw [scopedRest0_eq]; simp only [scM8, scM9, scM10, owns_whole]; try rfl

theorem PhiS_pos (c : Dev nD) (n : ℕ) (hz : n ≠ 0) :
    PhiS m c n = iprop(iprop(owns (c : Thread nD τ) scM8 fullShare (accAt m c (n - 1)).1 ∗ owns (c : Thread nD τ) scM9 fullShare (accAt m c (n - 1)).2.1
      ∗ owns (c : Thread nD τ) scM10 fullShare (accAt m c (n - 1)).2.2) ∗ (∃ r, prngReg c r)) := by
  cases n with
  | zero => exact absurd rfl hz
  | succ n => rfl

theorem Phi_castSucc (c : Dev nD) (t : Fin cfg0.N) : (dats m 0 c).Φ t.castSucc = PhiS m c t.val := by
  dsimp only [dats]; simp only [Fin.coe_castSucc]

/-! ## The accumulators after a point, whatever the staged rows past the array's end held -/

theorem pointRes_first (i : grid0.Coords) (h : condFirst i) (X0 X1 : Vec F S6144x3 .f32) (X2 : Vec F S6144x8 .f32) (X3 : Vec F S6144x1 .i32)
    (s s' : Scr F) : pointRes i X0 X1 X2 X3 s = pointRes i X0 X1 X2 X3 s' := by
  unfold pointRes; rw [if_pos h, if_pos h]

theorem pointRes_fill (c : Dev nD) (t : Fin cfg0.N) (d0 d1 : Vec F S6144x3 .f32) (d2 : Vec F S6144x8 .f32) (d3 : Vec F S6144x1 .i32) (s : Scr F) :
    pointRes (grid0.coords t) (win0_0.fill (grid0.coords t) d0 (iblk m c 0 t)) (win0_1.fill (grid0.coords t) d1 (iblk m c 1 t))
        (win0_2.fill (grid0.coords t) d2 (iblk m c 2 t)) (win0_3.fill (grid0.coords t) d3 (iblk m c 3 t)) s
      = pointRes (grid0.coords t) (stg0 m c t) (stg1 m c t) (stg2 m c t) (stg3 m c t) s :=
  pointRes_congr (V m c main_arg0) (V m c main_arg1) (V m c main_arg3) (V m c main_v0) t _ _ _ _ _ _ _ _
    (agree_fill0 m c t d0) (agree_fill0 m c t _) (agree_fill1 m c t d1) (agree_fill1 m c t _)
    (agree_fill2 m c t d2) (agree_fill2 m c t _) (agree_fill3 m c t d3) (agree_fill3 m c t _) s

theorem acc_step_pos (c : Dev nD) (t : Fin cfg0.N) (ht : t.val ≠ 0) (d0 d1 : Vec F S6144x3 .f32) (d2 : Vec F S6144x8 .f32) (d3 : Vec F S6144x1 .i32) :
    pointRes (grid0.coords t) (win0_0.fill (grid0.coords t) d0 (iblk m c 0 t)) (win0_1.fill (grid0.coords t) d1 (iblk m c 1 t))
        (win0_2.fill (grid0.coords t) d2 (iblk m c 2 t)) (win0_3.fill (grid0.coords t) d3 (iblk m c 3 t))
        ((accAt m c (t.val - 1)).1, (accAt m c (t.val - 1)).2.1, (accAt m c (t.val - 1)).2.2)
      = accAt m c t.val := by
  rw [pointRes_fill]; unfold accAt; rw [accAll_pos _ _ _ _ _ t ht]

theorem acc_step_zero (c : Dev nD) (t : Fin cfg0.N) (ht : t.val = 0) (d0 d1 : Vec F S6144x3 .f32) (d2 : Vec F S6144x8 .f32) (d3 : Vec F S6144x1 .i32) (s : Scr F) :
    pointRes (grid0.coords t) (win0_0.fill (grid0.coords t) d0 (iblk m c 0 t)) (win0_1.fill (grid0.coords t) d1 (iblk m c 1 t))
        (win0_2.fill (grid0.coords t) d2 (iblk m c 2 t)) (win0_3.fill (grid0.coords t) d3 (iblk m c 3 t)) s
      = accAt m c t.val := by
  rw [pointRes_fill, pointRes_first _ ((hcondFirst t).mpr ht) _ _ _ _ s zeroScr]; unfold accAt; rw [accAll_zero _ _ _ _ _ t ht]

end Cert.KernelIdeal.KV

end
-- ==== Proof.LoopReadIdeal.lean ====
/-
  What the chunk loop leaves in the three accumulators, read off the loop's invariant.

  The loop's generated invariant names the accumulators' contents after `n` chunks as the whole-buffer stores of the
  chunks before `n` written over the contents at loop entry. Each chunk stores, into each accumulator, one whole
  buffer whose value is that chunk's update of what the buffer held (`tripStep`); so the contents after `n`
  chunks are the recursion `loopRes`.
-/
import proofs.«422350_j40346922778987_2_alg».proof.Proof.Gen.KernelIdeal.Loops
import proofs.«422350_j40346922778987_2_alg».proof.Proof.KStepIdeal
import Idealize.ShloMosaic.Lib.Pipeline.Value

set_option maxRecDepth 16384

noncomputable section

namespace Cert.KernelIdeal.KV

open Cert.KernelIdeal Cert.KernelIdeal.Gen
open Idealize.ShloMosaic Idealize.ShloMosaic.TcCoe
open Idealize.SL Idealize.SL.Sem

variable {F : FTy → Type} [FloatOps F]

theorem hz2 : (![0, 0] : Fin 2 → Nat) = fun _ => 0 := funext fun a => by fin_cases a <;> rfl

variable (𝒱 : Variants) (c : Dev nD) (bd : Option 𝒱.V) (i : grid0.Coords) (arg1 : Memref sig .tc .vmem S6144x3 .f32) (harg1 : arg1.IsWhole) (arg2 : Memref sig .tc .vmem S6144x3 .f32) (harg2 : arg2.IsWhole) (arg3 : Memref sig .tc .vmem S6144x8 .f32) (harg3 : arg3.IsWhole) (arg4 : Memref sig .tc .vmem S6144x1 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1 .f32) (harg10 : arg10.IsWhole) (arg0 : BitVec 32)

set_option maxHeartbeats 2000000 in
/-- One chunk's stores, written over any contents, read as that chunk's update of those contents: accumulator by accumulator. -/
theorem tripL_read8 (x0 x1 : Vec F S6144x3 .f32) (x2 : Vec F S6144x8 .f32) (x3 : Vec F S6144x1 .i32) (k : Fin k0_t1_loop.trips)
    (f8 : BufTy.Contents (Elt F) arg8.view.ty) (f9 : BufTy.Contents (Elt F) arg9.view.ty) (f10 : BufTy.Contents (Elt F) arg10.view.ty) :
    arg8.view.read (Elt F) (arg8.view.writes (Elt F) f8 (tripL_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) k f8 f9 f10).1)
      = (tripStep arg0 x0 x1 x2 x3 k (arg8.view.read (Elt F) f8, arg9.view.read (Elt F) f9, arg10.view.read (Elt F) f10)).1 := by
  dsimp only [tripL_k0_t1]
  unfold trip_k0_t1
  dsimp only
  unfold trip_k0_t1.sl.r_2 trip_k0_t1.sl.r_3
  rw [View.read_writes_eq_canon _ _ _ (fun y => ⟨_, List.mem_singleton_self _, View.mem_set_unit_zero hz2 inb_S1x1024_S1x1024_0_0 y⟩), View.canon_unit_zero hz2]
  simp only [View.readAt_eq_ld, harg1.read_unread, harg2.read_unread, harg4.read_unread, View.ld_unit_zero (S := S1x1024) hz2]
  rfl

set_option maxHeartbeats 2000000 in
theorem tripL_read9 (x0 x1 : Vec F S6144x3 .f32) (x2 : Vec F S6144x8 .f32) (x3 : Vec F S6144x1 .i32) (k : Fin k0_t1_loop.trips)
    (f8 : BufTy.Contents (Elt F) arg8.view.ty) (f9 : BufTy.Contents (Elt F) arg9.view.ty) (f10 : BufTy.Contents (Elt F) arg10.view.ty) :
    arg9.view.read (Elt F) (arg9.view.writes (Elt F) f9 (tripL_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) k f8 f9 f10).2.1)
      = (tripStep arg0 x0 x1 x2 x3 k (arg8.view.read (Elt F) f8, arg9.view.read (Elt F) f9, arg10.view.read (Elt F) f10)).2.1 := by
  dsimp only [tripL_k0_t1]
  unfold trip_k0_t1
  dsimp only
  unfold trip_k0_t1.sl.r_1
  rw [View.read_writes_eq_canon _ _ _ (fun y => ⟨_, List.mem_singleton_self _, View.mem_set_unit_zero hz2 inb_S1x1024_S1x1024_0_0 y⟩), View.canon_unit_zero hz2]
  simp only [View.readAt_eq_ld, harg4.read_unread, View.ld_unit_zero (S := S1x1024) hz2]
  rfl

set_option maxHeartbeats 2000000 in
theorem tripL_read10 (x0 x1 : Vec F S6144x3 .f32) (x2 : Vec F S6144x8 .f32) (x3 : Vec F S6144x1 .i32) (k : Fin k0_t1_loop.trips)
    (f8 : BufTy.Contents (Elt F) arg8.view.ty) (f9 : BufTy.Contents (Elt F) arg9.view.ty) (f10 : BufTy.Contents (Elt F) arg10.view.ty) :
    arg10.view.read (Elt F) (arg10.view.writes (Elt F) f10 (tripL_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) k f8 f9 f10).2.2)
      = (tripStep arg0 x0 x1 x2 x3 k (arg8.view.read (Elt F) f8, arg9.view.read (Elt F) f9, arg10.view.read (Elt F) f10)).2.2 := by
  dsimp only [tripL_k0_t1]
  unfold trip_k0_t1
  dsimp only
  unfold trip_k0_t1.sl.r
  rw [View.read_writes_eq_canon _ _ _ (fun y => ⟨_, List.mem_singleton_self _, View.mem_set_unit_zero hz2 inb_S1x1_S1x1_0_0 y⟩), View.canon_unit_zero hz2]
  simp only [View.readAt_eq_ld, harg3.read_unread, View.ld_unit_zero (S := S1x1) hz2]
  rfl

/-- The accumulators after the chunks before `n`: the loop invariant's contents read as the recursion. -/
theorem pb_read (x0 x1 : Vec F S6144x3 .f32) (x2 : Vec F S6144x8 .f32) (x3 : Vec F S6144x1 .i32)
    (G8 : BufTy.Contents (Elt F) arg8.view.ty) (G9 : BufTy.Contents (Elt F) arg9.view.ty) (G10 : BufTy.Contents (Elt F) arg10.view.ty) :
    ∀ n : ℕ, n ≤ k0_t1_loop.trips →
      arg8.view.read (Elt F) (arg8.view.writes (Elt F) G8 (pb_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 n).1)
        = (loopRes arg0 x0 x1 x2 x3 (arg8.view.read (Elt F) G8, arg9.view.read (Elt F) G9, arg10.view.read (Elt F) G10) n).1
      ∧ arg9.view.read (Elt F) (arg9.view.writes (Elt F) G9 (pb_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 n).2.1)
        = (loopRes arg0 x0 x1 x2 x3 (arg8.view.read (Elt F) G8, arg9.view.read (Elt F) G9, arg10.view.read (Elt F) G10) n).2.1
      ∧ arg10.view.read (Elt F) (arg10.view.writes (Elt F) G10 (pb_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 n).2.2)
        = (loopRes arg0 x0 x1 x2 x3 (arg8.view.read (Elt F) G8, arg9.view.read (Elt F) G9, arg10.view.read (Elt F) G10) n).2.2
  | 0, _ => ⟨rfl, rfl, rfl⟩
  | n + 1, h => by
    have ih := pb_read x0 x1 x2 x3 G8 G9 G10 n (Nat.le_of_succ_le h)
    have hs := pb_k0_t1_succ (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 ⟨n, h⟩
    have hl := loopRes_succ arg0 x0 x1 x2 x3 (arg8.view.read (Elt F) G8, arg9.view.read (Elt F) G9, arg10.view.read (Elt F) G10) ⟨n, h⟩
    dsimp only at hs hl
    rw [hs, hl]
    dsimp only
    rw [View.writes_append, View.writes_append, View.writes_append]
    have ht8 := tripL_read8 𝒱 c bd i arg1 harg1 arg2 harg2 arg3 harg3 arg4 harg4 arg5 harg5 arg6 harg6 arg7 harg7 arg8 harg8 arg9 harg9 arg10 harg10 arg0 x0 x1 x2 x3 ⟨n, h⟩
      (arg8.view.writes (Elt F) G8 (pb_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 n).1)
      (arg9.view.writes (Elt F) G9 (pb_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 n).2.1)
      (arg10.view.writes (Elt F) G10 (pb_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 n).2.2)
    have ht9 := tripL_read9 𝒱 c bd i arg1 harg1 arg2 harg2 arg3 harg3 arg4 harg4 arg5 harg5 arg6 harg6 arg7 harg7 arg8 harg8 arg9 harg9 arg10 harg10 arg0 x0 x1 x2 x3 ⟨n, h⟩
      (arg8.view.writes (Elt F) G8 (pb_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 n).1)
      (arg9.view.writes (Elt F) G9 (pb_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 n).2.1)
      (arg10.view.writes (Elt F) G10 (pb_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 n).2.2)
    have ht10 := tripL_read10 𝒱 c bd i arg1 harg1 arg2 harg2 arg3 harg3 arg4 harg4 arg5 harg5 arg6 harg6 arg7 harg7 arg8 harg8 arg9 harg9 arg10 harg10 arg0 x0 x1 x2 x3 ⟨n, h⟩
      (arg8.view.writes (Elt F) G8 (pb_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 n).1)
      (arg9.view.writes (Elt F) G9 (pb_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 n).2.1)
      (arg10.view.writes (Elt F) G10 (pb_k0_t1 (F := F) 𝒱 c bd i arg1 harg1 arg2 harg2 arg3 harg3 arg4 harg4 arg5 harg5 arg6 harg6 arg7 harg7 arg8 harg8 arg9 harg9 arg10 harg10 arg0 (harg1.unread x0) (harg2.unread x1) (harg3.unread x2) (harg4.unread x3) G8 G9 G10 n).2.2)
    rw [ih.1, ih.2.1, ih.2.2] at ht8 ht9 ht10
    exact ⟨ht8, ht9, ht10⟩

end Cert.KernelIdeal.KV

end
-- ==== Proof.BodyRunIdeal.lean ====
/-
  The kernel body at one grid point, on any staging buffers and scratch, at any float instance.

  From the four input buffers at contents `x0 … x3`, the three scratch accumulators at `s8, s9, s10` (at anything at
  the first grid point, which clears them) and the three output buffers at `o5, o6, o7`, the body runs to the end
  leaving the inputs as they were, the accumulators at the point's update `pointRes` of them, and the outputs as
  they were — except at the last grid point, where it copies the accumulators into them. Three cases of the two
  branch conditions on the grid coordinate (first point, a point between, last point); in each the symbolic run goes
  through the chunk loop by its generated invariant, whose contents `pb_read` reads as the recursion.
-/
import proofs.«422350_j40346922778987_2_alg».proof.Proof.LoopReadIdeal
import proofs.«422350_j40346922778987_2_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 8000000 in
/-- A grid point that is neither the first nor the last: the accumulators are updated, the outputs untouched. -/
theorem run_mid (c : Dev nD) (i : grid0.Coords) (arg1 : Memref sig .tc .vmem S6144x3 .f32) (harg1 : arg1.IsWhole) (arg2 : Memref sig .tc .vmem S6144x3 .f32) (harg2 : arg2.IsWhole) (arg3 : Memref sig .tc .vmem S6144x8 .f32) (harg3 : arg3.IsWhole) (arg4 : Memref sig .tc .vmem S6144x1 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1 .f32) (harg10 : arg10.IsWhole) (hc0 : ¬condFirst i) (hc1 : ¬condLast i)
    (x0 x1 : Vec F S6144x3 .f32) (x2 : Vec F S6144x8 .f32) (x3 : Vec F S6144x1 .i32) (s8 s9 : Vec F S1x1024 .f32) (s10 : Vec F S1x1 .f32)
    (o5 o6 : Vec F S1x1024 .f32) (o7 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare o5 ∗ owns (c : Thread nD τ) arg6 fullShare o6 ∗ owns (c : Thread nD τ) arg7 fullShare o7
        ∗ owns (c : Thread nD τ) arg8 fullShare s8 ∗ owns (c : Thread nD τ) arg9 fullShare s9 ∗ owns (c : Thread nD τ) arg10 fullShare s10
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare o5 ∗ owns (c : Thread nD τ) arg6 fullShare o6 ∗ owns (c : Thread nD τ) arg7 fullShare o7
            ∗ owns (c : Thread nD τ) arg8 fullShare (pointRes i x0 x1 x2 x3 (s8, s9, s10)).1
            ∗ owns (c : Thread nD τ) arg9 fullShare (pointRes i x0 x1 x2 x3 (s8, s9, s10)).2.1
            ∗ owns (c : Thread nD τ) arg10 fullShare (pointRes i x0 x1 x2 x3 (s8, s9, s10)).2.2) -∗ K ⟨⟩))
      ⊢ wp frame (wpE (defs₀ (F := F)) Variants.none c none) E (cc0__node_kernel i arg1 harg1 arg2 harg2 arg3 harg3 arg4 harg4 arg5 harg5 arg6 harg6 arg7 harg7 arg8 harg8 arg9 harg9 arg10 harg10) K := by
  have hp := pb_read (F := F) Variants.none c none i arg1 harg1 arg2 harg2 arg3 harg3 arg4 harg4 arg5 harg5 arg6 harg6 arg7 harg7 arg8 harg8 arg9 harg9 arg10 harg10 (BitVec.ofNat 32 (i 0).val) x0 x1 x2 x3 (harg8.unread s8) (harg9.unread s9) (harg10.unread s10) k0_t1_loop.trips le_rfl
  rw [harg8.read_unread, harg9.read_unread, harg10.read_unread] at hp
  have hq : pointRes i x0 x1 x2 x3 (s8, s9, s10) = loopRes (BitVec.ofNat 32 (i 0).val) x0 x1 x2 x3 (s8, s9, s10) k0_t1_loop.trips := by
    unfold pointRes; rw [if_neg hc0]
  rw [hq]
  simp only [cc0__node_kernel_eq_skeleton]; unfold cc0__node_kernel_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hp.1
    iexact H8
  isplitl [H9]
  · iexists _; isplitr; · ipureintro; exact hp.2.1
    iexact H9
  · iexists _; isplitr; · ipureintro; exact hp.2.2
    iexact H10

set_option maxHeartbeats 8000000 in
/-- The last grid point: the accumulators are updated and copied into the three output buffers. -/
theorem run_last (c : Dev nD) (i : grid0.Coords) (arg1 : Memref sig .tc .vmem S6144x3 .f32) (harg1 : arg1.IsWhole) (arg2 : Memref sig .tc .vmem S6144x3 .f32) (harg2 : arg2.IsWhole) (arg3 : Memref sig .tc .vmem S6144x8 .f32) (harg3 : arg3.IsWhole) (arg4 : Memref sig .tc .vmem S6144x1 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1 .f32) (harg10 : arg10.IsWhole) (hc0 : ¬condFirst i) (hc1 : condLast i)
    (x0 x1 : Vec F S6144x3 .f32) (x2 : Vec F S6144x8 .f32) (x3 : Vec F S6144x1 .i32) (s8 s9 : Vec F S1x1024 .f32) (s10 : Vec F S1x1 .f32)
    (o5 o6 : Vec F S1x1024 .f32) (o7 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare o5 ∗ owns (c : Thread nD τ) arg6 fullShare o6 ∗ owns (c : Thread nD τ) arg7 fullShare o7
        ∗ owns (c : Thread nD τ) arg8 fullShare s8 ∗ owns (c : Thread nD τ) arg9 fullShare s9 ∗ owns (c : Thread nD τ) arg10 fullShare s10
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (pointRes i x0 x1 x2 x3 (s8, s9, s10)).1 ∗ owns (c : Thread nD τ) arg6 fullShare (pointRes i x0 x1 x2 x3 (s8, s9, s10)).2.1 ∗ owns (c : Thread nD τ) arg7 fullShare (pointRes i x0 x1 x2 x3 (s8, s9, s10)).2.2
            ∗ owns (c : Thread nD τ) arg8 fullShare (pointRes i x0 x1 x2 x3 (s8, s9, s10)).1
            ∗ owns (c : Thread nD τ) arg9 fullShare (pointRes i x0 x1 x2 x3 (s8, s9, s10)).2.1
            ∗ owns (c : Thread nD τ) arg10 fullShare (pointRes i x0 x1 x2 x3 (s8, s9, s10)).2.2) -∗ K ⟨⟩))
      ⊢ wp frame (wpE (defs₀ (F := F)) Variants.none c none) E (cc0__node_kernel i arg1 harg1 arg2 harg2 arg3 harg3 arg4 harg4 arg5 harg5 arg6 harg6 arg7 harg7 arg8 harg8 arg9 harg9 arg10 harg10) K := by
  have hp := pb_read (F := F) Variants.none c none i arg1 harg1 arg2 harg2 arg3 harg3 arg4 harg4 arg5 harg5 arg6 harg6 arg7 harg7 arg8 harg8 arg9 harg9 arg10 harg10 (BitVec.ofNat 32 (i 0).val) x0 x1 x2 x3 (harg8.unread s8) (harg9.unread s9) (harg10.unread s10) k0_t1_loop.trips le_rfl
  rw [harg8.read_unread, harg9.read_unread, harg10.read_unread] at hp
  have hq : pointRes i x0 x1 x2 x3 (s8, s9, s10) = loopRes (BitVec.ofNat 32 (i 0).val) x0 x1 x2 x3 (s8, s9, s10) k0_t1_loop.trips := by
    unfold pointRes; rw [if_neg hc0]
  rw [hq]
  simp only [cc0__node_kernel_eq_skeleton]; unfold cc0__node_kernel_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H5]
  · iexists _; isplitr
    swap; · iexact H5
    ipureintro
    rw [View.read_writes_eq_canon _ _ _ (fun y => ⟨_, List.mem_singleton_self _, View.mem_set_unit_zero hz2 inb_S1x1024_S1x1024_0_0 y⟩), View.canon_unit_zero hz2]
    sl_unfold_words
    simp only [View.readAt_eq_ld, View.ld_unit_zero (S := S1x1024) hz2]
    exact hp.1
  isplitl [H6]
  · iexists _; isplitr
    swap; · iexact H6
    ipureintro
    rw [View.read_writes_eq_canon _ _ _ (fun y => ⟨_, List.mem_singleton_self _, View.mem_set_unit_zero hz2 inb_S1x1024_S1x1024_0_0 y⟩), View.canon_unit_zero hz2]
    sl_unfold_words
    simp only [View.readAt_eq_ld, View.ld_unit_zero (S := S1x1024) hz2]
    exact hp.2.1
  isplitl [H7]
  · iexists _; isplitr
    swap; · iexact H7
    ipureintro
    rw [View.read_writes_eq_canon _ _ _ (fun y => ⟨_, List.mem_singleton_self _, View.mem_set_unit_zero hz2 inb_S1x1_S1x1_0_0 y⟩), View.canon_unit_zero hz2]
    sl_unfold_words
    simp only [View.readAt_eq_ld, View.ld_unit_zero (S := S1x1) hz2]
    exact hp.2.2
  isplitl [H8]
  · iexists _; isplitr; · ipureintro; exact hp.1
    iexact H8
  isplitl [H9]
  · iexists _; isplitr; · ipureintro; exact hp.2.1
    iexact H9
  · iexists _; isplitr; · ipureintro; exact hp.2.2
    iexact H10

end Cert.KernelIdeal.KV

end
-- ==== Proof.BodyRunFirstIdeal.lean ====
/-
  The kernel body at the first grid point: the accumulators, whatever they held, are cleared and then updated.
-/
import proofs.«422350_j40346922778987_2_alg».proof.Proof.LoopReadIdeal
import proofs.«422350_j40346922778987_2_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- One whole-buffer store, over anything, leaves its payload. -/
theorem read_whole_store {κ : Kind} {sp : Space} {S : Shape} {e : EltTy} (v : View sig κ sp S e) (f : v.ty.Contents (Elt F)) {off : Fin S.rank → Nat}
    (hz : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero hz inb y⟩), View.canon_unit_zero hz]

set_option maxHeartbeats 8000000 in
/-- The first grid point: the accumulators are cleared, whatever they held, then updated; the outputs untouched. -/
theorem run_first (c : Dev nD) (i : grid0.Coords) (arg1 : Memref sig .tc .vmem S6144x3 .f32) (harg1 : arg1.IsWhole) (arg2 : Memref sig .tc .vmem S6144x3 .f32) (harg2 : arg2.IsWhole) (arg3 : Memref sig .tc .vmem S6144x8 .f32) (harg3 : arg3.IsWhole) (arg4 : Memref sig .tc .vmem S6144x1 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1 .f32) (harg10 : arg10.IsWhole) (hc0 : condFirst i) (hc1 : ¬condLast i)
    (x0 x1 : Vec F S6144x3 .f32) (x2 : Vec F S6144x8 .f32) (x3 : Vec F S6144x1 .i32) (s8 s9 : Vec F S1x1024 .f32) (s10 : Vec F S1x1 .f32)
    (o5 o6 : Vec F S1x1024 .f32) (o7 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare o5 ∗ owns (c : Thread nD τ) arg6 fullShare o6 ∗ owns (c : Thread nD τ) arg7 fullShare o7
        ∗ owns (c : Thread nD τ) arg8 fullShare s8 ∗ owns (c : Thread nD τ) arg9 fullShare s9 ∗ owns (c : Thread nD τ) arg10 fullShare s10
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare o5 ∗ owns (c : Thread nD τ) arg6 fullShare o6 ∗ owns (c : Thread nD τ) arg7 fullShare o7
            ∗ owns (c : Thread nD τ) arg8 fullShare (pointRes i x0 x1 x2 x3 (s8, s9, s10)).1
            ∗ owns (c : Thread nD τ) arg9 fullShare (pointRes i x0 x1 x2 x3 (s8, s9, s10)).2.1
            ∗ owns (c : Thread nD τ) arg10 fullShare (pointRes i x0 x1 x2 x3 (s8, s9, s10)).2.2) -∗ K ⟨⟩))
      ⊢ wp frame (wpE (defs₀ (F := F)) Variants.none c none) E (cc0__node_kernel i arg1 harg1 arg2 harg2 arg3 harg3 arg4 harg4 arg5 harg5 arg6 harg6 arg7 harg7 arg8 harg8 arg9 harg9 arg10 harg10) K := by
  have hq : pointRes i x0 x1 x2 x3 (s8, s9, s10) = loopRes (BitVec.ofNat 32 (i 0).val) x0 x1 x2 x3 zeroScr k0_t1_loop.trips := by
    unfold pointRes; rw [if_pos hc0]
  rw [hq]
  simp only [cc0__node_kernel_eq_skeleton]; unfold cc0__node_kernel_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    rw [View.writes_append]
    refine ((pb_read (F := F) Variants.none c none i arg1 harg1 arg2 harg2 arg3 harg3 arg4 harg4 arg5 harg5 arg6 harg6 arg7 harg7 arg8 harg8 arg9 harg9 arg10 harg10 (BitVec.ofNat 32 (i 0).val) x0 x1 x2 x3 _ _ _ k0_t1_loop.trips le_rfl).1).trans ?_
    sl_unfold_words
    rw [read_whole_store arg8.view _ hz2 inb_S1x1024_S1x1024_0_0 (k0_pay1 (F := F)), read_whole_store arg9.view _ hz2 inb_S1x1024_S1x1024_0_0 (k0_pay2 (F := F)),
      read_whole_store arg10.view _ hz2 inb_S1x1_S1x1_0_0 (k0_pay3 (F := F))]
    rfl
  isplitl [H9]
  · iexists _; isplitr
    swap; · iexact H9
    ipureintro
    rw [View.writes_append]
    refine ((pb_read (F := F) Variants.none c none i arg1 harg1 arg2 harg2 arg3 harg3 arg4 harg4 arg5 harg5 arg6 harg6 arg7 harg7 arg8 harg8 arg9 harg9 arg10 harg10 (BitVec.ofNat 32 (i 0).val) x0 x1 x2 x3 _ _ _ k0_t1_loop.trips le_rfl).2.1).trans ?_
    sl_unfold_words
    rw [read_whole_store arg8.view _ hz2 inb_S1x1024_S1x1024_0_0 (k0_pay1 (F := F)), read_whole_store arg9.view _ hz2 inb_S1x1024_S1x1024_0_0 (k0_pay2 (F := F)),
      read_whole_store arg10.view _ hz2 inb_S1x1_S1x1_0_0 (k0_pay3 (F := F))]
    rfl
  · iexists _; isplitr
    swap; · iexact H10
    ipureintro
    rw [View.writes_append]
    refine ((pb_read (F := F) Variants.none c none i arg1 harg1 arg2 harg2 arg3 harg3 arg4 harg4 arg5 harg5 arg6 harg6 arg7 harg7 arg8 harg8 arg9 harg9 arg10 harg10 (BitVec.ofNat 32 (i 0).val) x0 x1 x2 x3 _ _ _ k0_t1_loop.trips le_rfl).2.2).trans ?_
    sl_unfold_words
    rw [read_whole_store arg8.view _ hz2 inb_S1x1024_S1x1024_0_0 (k0_pay1 (F := F)), read_whole_store arg9.view _ hz2 inb_S1x1024_S1x1024_0_0 (k0_pay2 (F := F)),
      read_whole_store arg10.view _ hz2 inb_S1x1_S1x1_0_0 (k0_pay3 (F := F))]
    rfl

end Cert.KernelIdeal.KV

end
-- ==== Proof.FrameBIdeal.lean ====
/-
  The body obligation at every grid point, the run and the frame claim, at any float instance.
-/
import proofs.«422350_j40346922778987_2_alg».proof.Proof.FrameAIdeal
import proofs.«422350_j40346922778987_2_alg».proof.Proof.BodyRunIdeal
import proofs.«422350_j40346922778987_2_alg».proof.Proof.BodyRunFirstIdeal

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body hands back, window by window -/

theorem leaves_in0 (c : Dev nD) (t : Fin cfg0.N) :
    (dats m 0 c).leaves 0 t = iprop(∃ d, owns (c : Thread nD τ) (st0_0 t) fullShare (win0_0.fill (grid0.coords t) d (iblk m c 0 t))) := by
  show iprop(∃ d, owns (c : Thread nD τ) (st0_0 t) fullShare (win0_0.fill (grid0.coords t) d (win0_0.cut (grid0.coords t) ((dats m 0 c).after 0 t)))) = _
  rw [after0_0]; unfold stg0; simp only [Window.cut_fill]
theorem leaves_in1 (c : Dev nD) (t : Fin cfg0.N) :
    (dats m 0 c).leaves 1 t = iprop(∃ d, owns (c : Thread nD τ) (st0_1 t) fullShare (win0_1.fill (grid0.coords t) d (iblk m c 1 t))) := by
  show iprop(∃ d, owns (c : Thread nD τ) (st0_1 t) fullShare (win0_1.fill (grid0.coords t) d (win0_1.cut (grid0.coords t) ((dats m 0 c).after 1 t)))) = _
  rw [after0_1]; unfold stg1; simp only [Window.cut_fill]
theorem leaves_in2 (c : Dev nD) (t : Fin cfg0.N) :
    (dats m 0 c).leaves 2 t = iprop(∃ d, owns (c : Thread nD τ) (st0_2 t) fullShare (win0_2.fill (grid0.coords t) d (iblk m c 2 t))) := by
  show iprop(∃ d, owns (c : Thread nD τ) (st0_2 t) fullShare (win0_2.fill (grid0.coords t) d (win0_2.cut (grid0.coords t) ((dats m 0 c).after 2 t)))) = _
  rw [after0_2]; unfold stg2; simp only [Window.cut_fill]
theorem leaves_in3 (c : Dev nD) (t : Fin cfg0.N) :
    (dats m 0 c).leaves 3 t = iprop(∃ d, owns (c : Thread nD τ) (st0_3 t) fullShare (win0_3.fill (grid0.coords t) d (iblk m c 3 t))) := by
  show iprop(∃ d, owns (c : Thread nD τ) (st0_3 t) fullShare (win0_3.fill (grid0.coords t) d (win0_3.cut (grid0.coords t) ((dats m 0 c).after 3 t)))) = _
  rw [after0_3]; unfold stg3; simp only [Window.cut_fill]
theorem leaves_out_not4 (c : Dev nD) (t : Fin cfg0.N) (h : t.val ≠ 651) :
    (dats m 0 c).leaves 4 t = iprop(∃ d, owns (c : Thread nD τ) (st0_4 t) fullShare ((dats m 0 c).before 4 t d)) :=
  (dats m 0 c).leaves_idle 4 t (idle_out_not t h).1.1 (idle_out_not t h).1.2
theorem leaves_out_last4 (c : Dev nD) (t : Fin cfg0.N) (h : t.val = 651) :
    (dats m 0 c).leaves 4 t = owns (c : Thread nD τ) (st0_4 t) fullShare (accAt m c t.val).1 := by
  unfold Dat.leaves; rw [(idle_out_last t h).1, ← after0_4]
theorem leaves_out_not5 (c : Dev nD) (t : Fin cfg0.N) (h : t.val ≠ 651) :
    (dats m 0 c).leaves 5 t = iprop(∃ d, owns (c : Thread nD τ) (st0_5 t) fullShare ((dats m 0 c).before 5 t d)) :=
  (dats m 0 c).leaves_idle 5 t (idle_out_not t h).2.1.1 (idle_out_not t h).2.1.2
theorem leaves_out_last5 (c : Dev nD) (t : Fin cfg0.N) (h : t.val = 651) :
    (dats m 0 c).leaves 5 t = owns (c : Thread nD τ) (st0_5 t) fullShare (accAt m c t.val).2.1 := by
  unfold Dat.leaves; rw [(idle_out_last t h).2.1, ← after0_5]
theorem leaves_out_not6 (c : Dev nD) (t : Fin cfg0.N) (h : t.val ≠ 651) :
    (dats m 0 c).leaves 6 t = iprop(∃ d, owns (c : Thread nD τ) (st0_6 t) fullShare ((dats m 0 c).before 6 t d)) :=
  (dats m 0 c).leaves_idle 6 t (idle_out_not t h).2.2.1 (idle_out_not t h).2.2.2
theorem leaves_out_last6 (c : Dev nD) (t : Fin cfg0.N) (h : t.val = 651) :
    (dats m 0 c).leaves 6 t = owns (c : Thread nD τ) (st0_6 t) fullShare (accAt m c t.val).2.2 := by
  unfold Dat.leaves; rw [(idle_out_last t h).2.2, ← after0_6]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t
    ∗ (dats m 0 c).leaves 4 t ∗ (dats m 0 c).leaves 5 t ∗ (dats m 0 c).leaves 6 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, leaves_in0, leaves_in1, leaves_in2, leaves_in3]
  rw [show (dats m 0 c).owesAt () t.succ = (dats m 0 c).owesAt () t.castSucc from rfl,
    show (dats m 0 c).Φ t.succ = PhiS m c (t.val + 1) from rfl, Phi_castSucc]
  rw [show PhiS m c (t.val + 1) = iprop(iprop(owns (c : Thread nD τ) scM8 fullShare (accAt m c t.val).1 ∗ owns (c : Thread nD τ) scM9 fullShare (accAt m c t.val).2.1
      ∗ owns (c : Thread nD τ) scM10 fullShare (accAt m c t.val).2.2) ∗ (∃ r, prngReg c r)) from rfl]
  by_cases hz : t.val = 0
  · -- the first point: the scratch arrives at anything
    have hl : t.val ≠ 651 := by omega
    rw [leaves_out_not4 m c t hl, leaves_out_not5 m c t hl, leaves_out_not6 m c t hl]
    rw [show PhiS m c t.val = Pipeline.ΦA spec0 c from by rw [hz]; rfl, PhiA0_eq]
    iintro ⟨⟨⟨⟨%s8, HS8⟩, ⟨%s9, HS9⟩, ⟨%s10, HS10⟩⟩, Hg⟩, Ho, ⟨%d0, H0⟩, ⟨%d1, H1⟩, ⟨%d2, H2⟩, ⟨%d3, H3⟩, ⟨%d4, H4⟩, ⟨%d5, H5⟩, ⟨%d6, H6⟩⟩
    have hrun := fun K => run_first (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) scM8 (Memref.isWhole_whole _) scM9 (Memref.isWhole_whole _) scM10 (Memref.isWhole_whole _) ((hcondFirst t).mpr hz) (fun h => hl ((hcondLast t).mp h))
      (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) s8 s9 s10 ((dats m 0 c).before 4 t d4) ((dats m 0 c).before 5 t d5) ((dats m 0 c).before 6 t d6) Set.univ K
    simp only [acc_step_zero m c t hz d0 d1 d2 d3 (s8, s9, s10)] at hrun
    iapply (hrun _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS8]; · iexact HS8
    isplitl [HS9]; · iexact HS9
    isplitl [HS10]; · iexact HS10
    iintro ⟨H0, H1, H2, H3, H4, H5, H6, HS8, HS9, HS10⟩
    isplitl [HS8 HS9 HS10 Hg]
    · isplitl [HS8 HS9 HS10]
      · isplitl [HS8]; · iexact HS8
        isplitl [HS9]; · iexact HS9
        iexact HS10
      iexact Hg
    isplitl [Ho]; · iexact Ho
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    iexists _; iexact H6
  · by_cases hl : t.val = 651
    · -- the last point: the outputs receive the accumulators
      rw [leaves_out_last4 m c t hl, leaves_out_last5 m c t hl, leaves_out_last6 m c t hl]
      rw [PhiS_pos m c t.val hz]
      iintro ⟨⟨⟨HS8, HS9, HS10⟩, Hg⟩, Ho, ⟨%d0, H0⟩, ⟨%d1, H1⟩, ⟨%d2, H2⟩, ⟨%d3, H3⟩, ⟨%d4, H4⟩, ⟨%d5, H5⟩, ⟨%d6, H6⟩⟩
      have hrun := fun K => run_last (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) scM8 (Memref.isWhole_whole _) scM9 (Memref.isWhole_whole _) scM10 (Memref.isWhole_whole _) (fun h => hz ((hcondFirst t).mp h)) ((hcondLast t).mpr hl)
        (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (accAt m c (t.val - 1)).1 (accAt m c (t.val - 1)).2.1 (accAt m c (t.val - 1)).2.2
        ((dats m 0 c).before 4 t d4) ((dats m 0 c).before 5 t d5) ((dats m 0 c).before 6 t d6) Set.univ K
      simp only [acc_step_pos m c t hz d0 d1 d2 d3] at hrun
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS8]; · iexact HS8
      isplitl [HS9]; · iexact HS9
      isplitl [HS10]; · iexact HS10
      iintro ⟨H0, H1, H2, H3, H4, H5, H6, HS8, HS9, HS10⟩
      isplitl [HS8 HS9 HS10 Hg]
      · isplitl [HS8 HS9 HS10]
        · isplitl [HS8]; · iexact HS8
          isplitl [HS9]; · iexact HS9
          iexact HS10
        iexact Hg
      isplitl [Ho]; · iexact Ho
      isplitl [H0]; · iexists _; iexact H0
      isplitl [H1]; · iexists _; iexact H1
      isplitl [H2]; · iexists _; iexact H2
      isplitl [H3]; · iexists _; iexact H3
      isplitl [H4]; · iexact H4
      isplitl [H5]; · iexact H5
      iexact H6
    · -- a point between
      rw [leaves_out_not4 m c t hl, leaves_out_not5 m c t hl, leaves_out_not6 m c t hl]
      rw [PhiS_pos m c t.val hz]
      iintro ⟨⟨⟨HS8, HS9, HS10⟩, Hg⟩, Ho, ⟨%d0, H0⟩, ⟨%d1, H1⟩, ⟨%d2, H2⟩, ⟨%d3, H3⟩, ⟨%d4, H4⟩, ⟨%d5, H5⟩, ⟨%d6, H6⟩⟩
      have hrun := fun K => run_mid (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) scM8 (Memref.isWhole_whole _) scM9 (Memref.isWhole_whole _) scM10 (Memref.isWhole_whole _) (fun h => hz ((hcondFirst t).mp h)) (fun h => hl ((hcondLast t).mp h))
        (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (accAt m c (t.val - 1)).1 (accAt m c (t.val - 1)).2.1 (accAt m c (t.val - 1)).2.2
        ((dats m 0 c).before 4 t d4) ((dats m 0 c).before 5 t d5) ((dats m 0 c).before 6 t d6) Set.univ K
      simp only [acc_step_pos m c t hz d0 d1 d2 d3] at hrun
      iapply (hrun _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS8]; · iexact HS8
      isplitl [HS9]; · iexact HS9
      isplitl [HS10]; · iexact HS10
      iintro ⟨H0, H1, H2, H3, H4, H5, H6, HS8, HS9, HS10⟩
      isplitl [HS8 HS9 HS10 Hg]
      · isplitl [HS8 HS9 HS10]
        · isplitl [HS8]; · iexact HS8
          isplitl [HS9]; · iexact HS9
          iexact HS10
        iexact Hg
      isplitl [Ho]; · iexact Ho
      isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      iexists _; iexact H6

/-- The library's body obligation, at every point. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the scratch back at some contents. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 652 := N_0; omega), PhiA0_eq]
  iintro ⟨⟨HS8, HS9, HS10⟩, Hg⟩
  isplitl [HS8 HS9 HS10]
  · isplitl [HS8]; · iexists _; iexact HS8
    isplitl [HS9]; · iexists _; iexact HS9
    iexists _; iexact HS10
  iexact Hg

/-! ## The run and the frame -/

set_option backward.isDefEq.respectTransparency.types false in
/-- Every weakly fair execution of @main terminates; every array of the pipeline ends at what the library computes from
    the proof data, every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's post: the run terminates and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.KV

end
-- ==== Proof.Spec.lean ====
/-
  The value both programs compute, as plain functions over the extended reals.

  For node arrays p, q : [4000000, 3] and x : [4000000, 8] and integer graph ids b : [4000000]:
    rowAbs n   = Σ_j |p n j - q n j|                (the per-node absolute error, summed over the 3 features)
    rowForce n = sqrt (x n 3 ^ 2 + x n 4 ^ 2)       (the planar force norm of node n)
    segSum g   = Σ_{n : b n = g} rowAbs n           (graph g's summed error; an id outside 0 ≤ g < 1024 selects no graph)
    segCnt g   = #{n : b n = g}
    force      = Σ_n rowForce n
  and the closing arithmetic shared by both programs, `tailOps`:
    mean_g ( segSum g / (max (segCnt g) 1 · 3) · max force 0.1 ) · 100.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev SP : Shape := ⟨2, ![4000000, 3]⟩
abbrev SX : Shape := ⟨2, ![4000000, 8]⟩
abbrev SB : Shape := ⟨1, ![4000000]⟩
abbrev SG : Shape := ⟨1, ![1024]⟩
abbrev SU : Shape := ⟨0, ![]⟩

/-- Node `n`'s absolute error summed over its three features. -/
def rowAbs (p q : SP.Idx → EReal) (n : Fin 4000000) : EReal :=
  ∑ j : Fin 3, max (p (ix2 n j) - q (ix2 n j)) (-(p (ix2 n j) - q (ix2 n j)))

/-- Node `n`'s planar force norm: the square root of the squares of features 3 and 4. -/
def rowForce (x : SX.Idx → EReal) (n : Fin 4000000) : EReal :=
  Ideal.sqrt (∑ j : Fin 2, x (ix2 n (⟨3 + j.val, by omega⟩ : Fin 8)) * x (ix2 n (⟨3 + j.val, by omega⟩ : Fin 8)))

/-- Node `n` belongs to graph `g`: its id, read as a signed word, is `g`. -/
def inGraph (b : SB.Idx → BitVec 32) (g : ℕ) (n : Fin 4000000) : Prop := (b (ix1 n)).toInt = (g : ℤ)

instance (b : SB.Idx → BitVec 32) (g : ℕ) (n : Fin 4000000) : Decidable (inGraph b g n) :=
  inferInstanceAs (Decidable ((b (ix1 n)).toInt = (g : ℤ)))

/-- Graph `g`'s summed error. -/
def segSum (p q : SP.Idx → EReal) (b : SB.Idx → BitVec 32) : SG.Idx → EReal :=
  fun g => ∑ n : Fin 4000000, if inGraph b (g 0).val n then rowAbs p q n else 0

/-- Graph `g`'s node count. -/
def segCnt (b : SB.Idx → BitVec 32) : SG.Idx → EReal :=
  fun g => ∑ n : Fin 4000000, if inGraph b (g 0).val n then (1 : EReal) else 0

/-- The total force. -/
def force (x : SX.Idx → EReal) : SU.Idx → EReal := fun _ => ∑ n : Fin 4000000, rowForce x n

/-- The closing arithmetic of both programs, on the three reduced quantities: per graph the error divided by
    three times the count (the count raised to at least one), scaled by the force (raised to at least the
    word `0x3DCCCCCD`), averaged over the 1024 graphs and multiplied by one hundred. The float literals are kept
    as their words: both programs print the same ones. -/
def tailOps (seg cnt : SG.Idx → EReal) (frc : SU.Idx → EReal) : SU.Idx → EReal := fun _ =>
  Ideal.div
    (Ideal.ofBits .f32 0x00000000#32 + ∑ g : Fin 1024,
      Ideal.div (seg (ix1 g)) (max (cnt (ix1 g)) (Ideal.ofBits .f32 0x3F800000#32) * Ideal.ofBits .f32 0x40400000#32)
        * max (frc ix0) (Ideal.ofBits .f32 0x3DCCCCCD#32))
    (Ideal.ofBits .f32 0x44800000#32)
  * Ideal.ofBits .f32 0x42C80000#32

end Cert.Spec

end
-- ==== Proof.KernelTailIdeal.lean ====
/-
  The kernel's result from the three accumulators: the host operations after the region.
-/
import proofs.«422350_j40346922778987_2_alg».proof.Proof.OutArrIdeal
import proofs.«422350_j40346922778987_2_alg».proof.Proof.Spec
import Idealize.ShloMosaic.Lib.StableHlo.Run
import Idealize.ShloMosaic.Lib.Pipeline.Value
import Idealize.ShloMosaic.PureOps.Ideal.Laws

set_option maxRecDepth 16384

noncomputable section

namespace Cert.KernelIdeal.KV

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

open scoped BigOperators

/-! ## The layout operations of the tail read at an index -/

/-- A sum over a rank-1 index set is the sum over its coordinate. -/
theorem sum_rank1 {M : Type*} [AddCommMonoid M] {n : ℕ} (f : (⟨1, ![n]⟩ : Shape).Idx → M) :
    ∑ i, f i = ∑ a : Fin n, f (ix1 a) := by
  let e : (⟨1, ![n]⟩ : Shape).Idx ≃ Fin n := ⟨fun i => i 0, ix1, fun i => (eq_ix1 i).symm, fun _ => rfl⟩
  rw [← Equiv.sum_comp e.symm f]
  rfl

/-- A `[1, 1024]` vector reshaped to `[1024]`: entry `j` is entry `(0, j)`. -/
theorem reshape_row_apply (x : Vec Ideal S1x1024 .f32) (j : S1024.Idx) :
    shapeCast S1024 x shapeCasts_S1x1024_S1024 j = x (ix2 (0 : Fin 1) (j 0)) := by
  refine shapeCast_apply x _ j _ ?_
  rw [Shape.rowMajor_val_two, Shape.rowMajor_val_one]
  show 0 * _ + (j 0).val = (j 0).val
  rw [Nat.zero_mul, Nat.zero_add]

/-- A `[1, 1]` vector reshaped to a scalar: its one entry. -/
theorem reshape_scalar_apply (x : Vec Ideal S1x1 .f32) (i : S_.Idx) :
    shapeCast S_ x shapeCasts_S1x1_S_ i = x (ix2 (0 : Fin 1) (0 : Fin 1)) := by
  refine shapeCast_apply x _ i _ ?_
  rw [Shape.rowMajor_val_two]
  show 0 * _ + 0 = (Shape.rowMajorPi _ _).val
  rw [Shape.rowMajorPi_zero, Nat.zero_mul]

/-- A scalar broadcast to `[1024]`: every entry is the scalar. -/
theorem bcast_scalar_apply (y : FVec Ideal S_ .f32) (j : S1024.Idx) :
    broadcastInDim S1024 ![] bcast_S_S1024 y j = y ix0 :=
  broadcastInDim_apply _ bcast_S_S1024 y j ix0 (fun a => a.elim0)

/-! ## The tail's operations at an index -/

/-- The host's quotient of two vectors, at an index, is the quotient of the entries. -/
theorem hostDivf_apply {s : Shape} (a b : FVec Ideal s .f32) (i : s.Idx) : Host.divf a b i = Ideal.div (a i) (b i) := rfl

/-- The per-graph term: the error sum over three times the count raised to at least one, times the force raised to
    at least the word `0x3DCCCCCD`. -/
theorem term_read (x1 x2 : Vec Ideal S1x1024 .f32) (x3 : Vec Ideal S1x1 .f32) (j : S1024.Idx) :
    (mulf (Host.divf (shapeCast S1024 x1 shapeCasts_S1x1024_S1024)
        (mulf (maximumf (shapeCast S1024 x2 shapeCasts_S1x1024_S1024)
            (broadcastInDim S1024 ![] bcast_S_S1024 (constant (F := Ideal) S_ .f32 0x3F800000#32)))
          (broadcastInDim S1024 ![] bcast_S_S1024 (constant (F := Ideal) S_ .f32 0x40400000#32))))
      (broadcastInDim S1024 ![] bcast_S_S1024
        (maximumf (shapeCast S_ x3 shapeCasts_S1x1_S_) (constant (F := Ideal) S_ .f32 0x3DCCCCCD#32))) : FVec Ideal S1024 .f32) j
    = Ideal.div (x1 (ix2 (0 : Fin 1) (j 0)))
        (max (x2 (ix2 (0 : Fin 1) (j 0))) (Ideal.ofBits .f32 0x3F800000#32) * Ideal.ofBits .f32 0x40400000#32)
      * max (x3 (ix2 (0 : Fin 1) (0 : Fin 1))) (Ideal.ofBits .f32 0x3DCCCCCD#32) := by
  simp only [mulf_apply, hostDivf_apply, maximumf_apply]
  rw [reshape_row_apply, reshape_row_apply, bcast_scalar_apply, bcast_scalar_apply, bcast_scalar_apply, maximumf_apply,
    reshape_scalar_apply, constant_apply, constant_apply, constant_apply]

/-- The mean over the 1024 graphs times one hundred. -/
theorem mean_read (Y : FVec Ideal S1024 .f32) (i : S_.Idx) :
    (mulf (Host.divf (Host.reduceAdd Y (constant (F := Ideal) S_ .f32 0x00000000#32) reducesTo_S1024_S_d0 h_S_)
        (constant (F := Ideal) S_ .f32 0x44800000#32)) (constant (F := Ideal) S_ .f32 0x42C80000#32) : FVec Ideal S_ .f32) i
    = Ideal.div (Ideal.ofBits .f32 0x00000000#32 + ∑ g : Fin 1024, Y (ix1 g)) (Ideal.ofBits .f32 0x44800000#32)
        * Ideal.ofBits .f32 0x42C80000#32 := by
  rw [mulf_apply, hostDivf_apply, constant_apply, constant_apply]
  have hR : Host.reduceAdd Y (constant (F := Ideal) S_ .f32 0x00000000#32) reducesTo_S1024_S_d0 h_S_ i
      = Ideal.ofBits .f32 0x00000000#32 + ∑ j : S1024.Idx, Y j := by
    simp only [Host.reduceAdd, Ideal.hostReduceAdd_def]
    exact Ideal.hostReduceAdd_total reducesTo_S1024_S_d0 (fun b => b.elim0) Y _ i
  rw [hR, sum_rank1]

/-- The tail's twenty operations on three accumulators are the closing arithmetic of the specification. -/
theorem tail_read (x1 x2 : Vec Ideal S1x1024 .f32) (x3 : Vec Ideal S1x1 .f32) :
    (mulf (Host.divf (Host.reduceAdd
        (mulf (Host.divf (shapeCast S1024 x1 shapeCasts_S1x1024_S1024)
            (mulf (maximumf (shapeCast S1024 x2 shapeCasts_S1x1024_S1024)
                (broadcastInDim S1024 ![] bcast_S_S1024 (constant (F := Ideal) S_ .f32 0x3F800000#32)))
              (broadcastInDim S1024 ![] bcast_S_S1024 (constant (F := Ideal) S_ .f32 0x40400000#32))))
          (broadcastInDim S1024 ![] bcast_S_S1024
            (maximumf (shapeCast S_ x3 shapeCasts_S1x1_S_) (constant (F := Ideal) S_ .f32 0x3DCCCCCD#32))))
        (constant (F := Ideal) S_ .f32 0x00000000#32) reducesTo_S1024_S_d0 h_S_)
        (constant (F := Ideal) S_ .f32 0x44800000#32)) (constant (F := Ideal) S_ .f32 0x42C80000#32) : FVec Ideal S_ .f32)
    = Cert.Spec.tailOps (fun g => x1 (ix2 (0 : Fin 1) (g 0))) (fun g => x2 (ix2 (0 : Fin 1) (g 0)))
        (fun _ => x3 (ix2 (0 : Fin 1) (0 : Fin 1))) := by
  funext i
  rw [mean_read]
  unfold Cert.Spec.tailOps
  refine congrArg (fun z => Ideal.div (_ + z) _ * _) (Finset.sum_congr rfl fun g _ => ?_)
  rw [term_read]

theorem tail_value (c : Dev nD) :
    Pipeline.afterTail₀ cfgs (dats m) 0 (V0 m) [hostOps1] c main_v15
      = Cert.Spec.tailOps (fun g => (accAt m c 651).1 (ix2 (0 : Fin 1) (g 0))) (fun g => (accAt m c 651).2.1 (ix2 (0 : Fin 1) (g 0)))
          (fun _ => (accAt m c 651).2.2 (ix2 (0 : Fin 1) (0 : Fin 1))) := by
  unfold Pipeline.afterTail₀
  show StableHlo.after hostOps1 _ (Proc.devRef .tc main_v15) = _
  after_results
  have e4 : Pipeline.withArrays (cfgs 0).spec c (V0 m c) (fun w => (dats m 0 c).arrAt w (cfgs 0).N) (Proc.devRef .tc main_v1_0)
      = (accAt m c 651).1 := (Pipeline.withArrays_arr spec0 launch0.win.arr_inj c _ _ 4).trans (arrAt4 m c)
  have e5 : Pipeline.withArrays (cfgs 0).spec c (V0 m c) (fun w => (dats m 0 c).arrAt w (cfgs 0).N) (Proc.devRef .tc main_v1_1)
      = (accAt m c 651).2.1 := (Pipeline.withArrays_arr spec0 launch0.win.arr_inj c _ _ 5).trans (arrAt5 m c)
  have e6 : Pipeline.withArrays (cfgs 0).spec c (V0 m c) (fun w => (dats m 0 c).arrAt w (cfgs 0).N) (Proc.devRef .tc main_v1_2)
      = (accAt m c 651).2.2 := (Pipeline.withArrays_arr spec0 launch0.win.arr_inj c _ _ 6).trans (arrAt6 m c)
  rw [e4, e5, e6]
  exact tail_read (accAt m c 651).1 (accAt m c 651).2.1 (accAt m c 651).2.2

end Cert.KernelIdeal.KV

end
-- ==== Proof.ChunkIdeal.lean ====
/-
  One chunk's contribution to the three accumulators, at the ideal instance, in closed form.

  Chunk `k` of grid point `t` holds the global rows `6144 t + 256 k + r`, r < 256. To lane `g` of the error sums it
  adds the absolute error of each of its rows that is inside the array and belongs to graph `g`; to lane `g` of the
  counts, one for each such row; to the total force, the force norm of each of its rows inside the array.
-/
import proofs.«422350_j40346922778987_2_alg».proof.Proof.KStepIdeal
import proofs.«422350_j40346922778987_2_alg».proof.Proof.MaskIdeal
import proofs.«422350_j40346922778987_2_alg».proof.Proof.Spec
import Idealize.ShloMosaic.PureOps.Ideal.Laws
import Idealize.ShloMosaic.Lib.Pipeline.Value
import Idealize.ShloMosaic.Lib.ValueLayout

noncomputable section

open scoped BigOperators

namespace Cert.KernelIdeal.KV

open Cert.KernelIdeal Cert.KernelIdeal.Gen
open Idealize.ShloMosaic Idealize.ShloMosaic.ValueIdx

/-- The global row of row `r` of chunk `k` at grid point `t`. -/
def grow (t : Fin cfg0.N) (k : Fin k0_t1_loop.trips) (r : Fin 256) : ℕ := t.val * 6144 + k.val * 256 + r.val

/-- The graph ids as a flat vector (the kernel receives them as one column). -/
def flatB (B : Vec Ideal S4000000x1 .i32) : Cert.Spec.SB.Idx → BitVec 32 := fun i => B (ix2 (i 0) (0 : Fin 1))

/-! The payloads read at one index, over arbitrary vectors; then a chunk's rows traced back to the arrays. -/
namespace Chunk

/-- The sum over the 256 rows: the reduced index with the row put back is the pair (row, lane). -/
theorem lift_row (h : S256x1024.Reduces [0] S1024) (g : Fin 1024) (r : Fin 256) :
    h.lift (ix1 g) r = ix2 r g := by
  funext a
  match a with
  | ⟨0, _⟩ => rfl
  | ⟨1, _⟩ => rfl

theorem pay5_apply (v46 : FVec Ideal S256x1024 .f32) (v56 : Vec Ideal S1x1024 .f32) (g : Fin 1024) :
    k0_pay5 (F := Ideal) v46 v56 (ix2 (0 : Fin 1) g) = v56 (ix2 (0 : Fin 1) g) + ∑ r : Fin 256, v46 (ix2 r g) := by
  unfold k0_pay5
  rw [shapeCast_self, ValueIdx.addf_apply, shapeCast_a_1a_apply]
  refine congrArg (v56 (ix2 (0 : Fin 1) g) + ·) ?_
  refine (Ideal.multiReduction_add_single v46 _ reduces_S256x1024_S1024 _ _ (ix1 g)).trans ?_
  exact Finset.sum_congr rfl fun r _ => congrArg v46 (lift_row reduces_S256x1024_S1024 g r)

/-- A column broadcast along the lanes reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay9_apply (arg0 c0 c1 : BitVec 32) (k : Fin k0_t1_loop.trips) (v18 : Vec Ideal S256x1 .i32) (r : Fin 256) (g : Fin 1024) :
    k0_pay9 (F := Ideal) arg0 c0 c1 k v18 (ix2 r g)
      = if Scalar.select (k0_pay7 arg0 c0 c1 k (ix2 r (0 : Fin 1))) (v18 (ix2 r (0 : Fin 1))) 4294967295#32
            = BitVec.ofNat 32 g.val then (1 : EReal) else 0 := by
  unfold k0_pay9
  rw [ValueIdx.sitofp_apply, ValueIdx.extui_apply]
  show FloatOps.sitofp FTy.f32 (BitVec.setWidth 32 (IntOp.cmpi .eq
      (broadcastTo S256x1024 _ broadcasts_S256x1_S256x1024 (ix2 r g))
      (iota Kind.tc S256x1024 32 [1] iota_S256x1024_d1_w32 (ix2 r g)))) = _
  rw [iota_single_apply, broadcastTo_a1_ab_apply, ValueIdx.select_apply, shapeCast_self, ValueIdx.broadcast_apply]
  show FloatOps.sitofp FTy.f32 (BitVec.setWidth 32 (IntOp.cmpi .eq _ (BitVec.ofNat 32 g.val))) = _
  by_cases h : Scalar.select (k0_pay7 arg0 c0 c1 k (ix2 r (0 : Fin 1))) (v18 (ix2 r (0 : Fin 1))) 4294967295#32
      = BitVec.ofNat 32 g.val
  · rw [if_pos h, IntOp.cmpi_eq.2 h]
    show (((BitVec.setWidth 32 1#1).toInt : ℝ) : EReal) = 1
    rw [show (BitVec.setWidth 32 1#1).toInt = 1 by decide, Int.cast_one, EReal.coe_one]
  · rw [if_neg h, ValueIdx.eq_zero_of_ne_one (mt IntOp.cmpi_eq.1 h)]
    show (((BitVec.setWidth 32 0#1).toInt : ℝ) : EReal) = 0
    rw [show (BitVec.setWidth 32 0#1).toInt = 0 by decide, Int.cast_zero, EReal.coe_zero]

theorem trips_le (k : Fin k0_t1_loop.trips) : k.val < 24 := lt_of_lt_of_le k.isLt k0_t1_abs.2.1

/-- Row r of chunk k of a staged one-column block is row 256 k + r of the block. -/
theorem ch1_apply (Y : Vec Ideal S6144x1 .i32) (k : Fin k0_t1_loop.trips) (r : Fin 256) (j : Fin 1) :
    ch1 Y k (ix2 r j) = Y (ix2 (⟨k.val * 256 + r.val, by have := trips_le k; omega⟩ : Fin 6144) j) := by
  unfold ch1
  show Y ((Rect.unit (s := S6144x1) (k0_off3 k) S256x1.size (k0_off3_inb k)).idx (ix2 r j)) = _
  refine congrArg Y (Shape.idx_ext₂ ?_ ?_)
  · show (k0_off3 k) 0 + 1 * r.val = k.val * 256 + r.val
    rw [k0_off3_eq]; show 256 * k.val + 1 * r.val = _; omega
  · show (k0_off3 k) 1 + 1 * j.val = j.val
    rw [k0_off3_eq]; show 0 + 1 * j.val = _; omega

theorem ch3_apply (Y : Vec Ideal S6144x3 .f32) (k : Fin k0_t1_loop.trips) (r : Fin 256) (j : Fin 3) :
    ch3 Y k (ix2 r j) = Y (ix2 (⟨k.val * 256 + r.val, by have := trips_le k; omega⟩ : Fin 6144) j) := by
  unfold ch3
  show Y ((Rect.unit (s := S6144x3) (k0_off1 k) S256x3.size (k0_off1_inb k)).idx (ix2 r j)) = _
  refine congrArg Y (Shape.idx_ext₂ ?_ ?_)
  · show (k0_off1 k) 0 + 1 * r.val = k.val * 256 + r.val
    rw [k0_off1_eq]; show 256 * k.val + 1 * r.val = _; omega
  · show (k0_off1 k) 1 + 1 * j.val = j.val
    rw [k0_off1_eq]; show 0 + 1 * j.val = _; omega

/-- A word is the lane number g < 1024 exactly when its signed value is g. -/
theorem word_eq_iff (x : BitVec 32) (g : Fin 1024) : x = BitVec.ofNat 32 g.val ↔ x.toInt = (g.val : ℤ) := by
  have hg := g.isLt
  have hI : (BitVec.ofNat 32 g.val).toInt = (g.val : ℤ) := by
    rw [BitVec.toInt_eq_toNat_of_lt (by rw [BitVec.toNat_ofNat]; omega), BitVec.toNat_ofNat, Nat.mod_eq_of_lt (by omega)]
  constructor
  · rintro rfl; exact hI
  · intro h; exact BitVec.eq_of_toInt_eq (h.trans hI.symm)

/-- A chunk lies inside the array exactly when each of its rows does. -/
theorem grow_lt_iff (t : Fin cfg0.N) (k : Fin k0_t1_loop.trips) (r : Fin 256) :
    grow t k r < 4000000 ↔ t.val * 24 + k.val < 15625 := by
  have := r.isLt; unfold grow; omega

/-- The one-hot selection of row r against graph g, masked: one when the row is inside the array and in graph g. -/
theorem oneHot_eq (B : Vec Ideal S4000000x1 .i32) (t : Fin cfg0.N) (k : Fin k0_t1_loop.trips)
    (Y3 : Vec Ideal S6144x1 .i32) (h3 : Agree1 B t Y3) (r : Fin 256) (g : Fin 1024) :
    k0_pay9 (F := Ideal) (BitVec.ofNat 32 ((grid0.coords t) 0).val) 0#32 1#32 k (ch1 Y3 k) (ix2 r g)
      = if h : grow t k r < 4000000 then
          (if Cert.Spec.inGraph (flatB B) g.val ⟨grow t k r, h⟩ then (1 : EReal) else 0) else 0 := by
  rw [pay9_apply, mask_eq, ch1_apply]
  by_cases hg : grow t k r < 4000000
  · have hin := (grow_lt_iff t k r).1 hg
    have hrow : t.val * 6144 + (k.val * 256 + r.val) < 4000000 := by unfold grow at hg; omega
    rw [if_pos hin, ValueIdx.select_one, dif_pos hg, h3 ⟨k.val * 256 + r.val, by have := trips_le k; omega⟩ 0 hrow]
    have e : (⟨t.val * 6144 + (k.val * 256 + r.val), hrow⟩ : Fin 4000000) = ⟨grow t k r, hg⟩ :=
      Fin.ext (Nat.add_assoc _ _ _).symm
    have e2 : B (ix2 (⟨t.val * 6144 + (k.val * 256 + r.val), hrow⟩ : Fin 4000000) (0 : Fin 1))
        = B (ix2 (⟨grow t k r, hg⟩ : Fin 4000000) (0 : Fin 1)) := congrArg (fun n => B (ix2 n (0 : Fin 1))) e
    by_cases hB : Cert.Spec.inGraph (flatB B) g.val ⟨grow t k r, hg⟩
    · rw [if_pos hB, if_pos]
      exact e2.trans ((word_eq_iff _ g).2 hB)
    · rw [if_neg hB, if_neg]
      intro hc
      exact hB ((word_eq_iff _ g).1 (e2.symm.trans hc))
  · have hin : ¬ t.val * 24 + k.val < 15625 := fun h => hg ((grow_lt_iff t k r).2 h)
    rw [if_neg hin, ValueIdx.select_zero, dif_neg hg, if_neg]
    intro hc
    have := (word_eq_iff _ g).1 hc
    rw [show (4294967295#32 : BitVec 32).toInt = -1 by decide] at this
    omega

theorem pay4_apply (v47 : Vec Ideal S1x1024 .f32) (v49 : FVec Ideal S256x1024 .f32) (g : Fin 1024) :
    k0_pay4 (F := Ideal) v47 v49 (ix2 (0 : Fin 1) g) = v47 (ix2 (0 : Fin 1) g) + ∑ r : Fin 256, v49 (ix2 r g) := by
  unfold k0_pay4
  rw [shapeCast_self, ValueIdx.addf_apply, shapeCast_a_1a_apply]
  refine congrArg (v47 (ix2 (0 : Fin 1) g) + ·) ?_
  refine (Ideal.multiReduction_add_single v49 _ reduces_S256x1024_S1024 _ _ (ix1 g)).trans ?_
  exact Finset.sum_congr rfl fun r _ => congrArg v49 (lift_row reduces_S256x1024_S1024 g r)

/-- A vector cast to one column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the 3 features: the reduced index with the feature put back is the pair (row, feature). -/
theorem lift_col3 (h : S256x3.Reduces [1] S256) (r : Fin 256) (j : Fin 3) :
    h.lift (ix1 r) j = ix2 r j := by
  funext a
  match a with
  | ⟨0, _⟩ => rfl
  | ⟨1, _⟩ => rfl

theorem pay10_apply (arg0 c0 c1 : BitVec 32) (k : Fin k0_t1_loop.trips) (v12 v14 : Vec Ideal S256x3 .f32)
    (v18 : Vec Ideal S256x1 .i32) (r : Fin 256) (g : Fin 1024) :
    k0_pay10 (F := Ideal) arg0 c0 c1 k v12 v14 v18 (ix2 r g)
      = k0_pay9 (F := Ideal) arg0 c0 c1 k v18 (ix2 r g)
        * Scalar.select (k0_pay7 arg0 c0 c1 k (ix2 r (0 : Fin 1)))
            (∑ j : Fin 3, max (v12 (ix2 r j) - v14 (ix2 r j)) (-(v12 (ix2 r j) - v14 (ix2 r j)))) (0 : EReal) := by
  unfold k0_pay10
  rw [ValueIdx.mulf_apply, broadcastTo_a1_ab_apply, ValueIdx.select_apply, ValueIdx.broadcast_apply,
    shapeCast_a_a1_apply]
  have hsum : multiReduction (F := Ideal) FKind.add [1] S256 (absf (subf v12 v14)) 0x00000000#32 reduces_S256x3_S256 (.inl rfl) rfl (ix1 r)
      = ∑ j : Fin 3, max (v12 (ix2 r j) - v14 (ix2 r j)) (-(v12 (ix2 r j) - v14 (ix2 r j))) := by
    refine (Ideal.multiReduction_add_single (absf (subf v12 v14) : FVec Ideal S256x3 .f32) _ reduces_S256x3_S256 _ _ (ix1 r)).trans ?_
    exact Finset.sum_congr rfl fun j _ =>
      (congrArg (absf (subf v12 v14) : FVec Ideal S256x3 .f32) (lift_col3 reduces_S256x3_S256 r j)).trans rfl
  have hz : (FloatOps.ofBits FTy.f32 0x00000000#32 : Ideal .f32) = 0 := Ideal.ofBits_zero_f32
  exact congrArg₂ (fun x z => k0_pay9 (F := Ideal) arg0 c0 c1 k v18 (ix2 r g)
      * Scalar.select (k0_pay7 arg0 c0 c1 k (ix2 r (0 : Fin 1))) x z) hsum hz

/-- Row r of chunk k, inside the array, has the node's absolute error. -/
theorem rowAbs_eq (P Q : Vec Ideal S4000000x3 .f32) (t : Fin cfg0.N) (k : Fin k0_t1_loop.trips)
    (Y0 Y1 : Vec Ideal S6144x3 .f32) (h0 : Agree3 P t Y0) (h1 : Agree3 Q t Y1) (r : Fin 256) (hg : grow t k r < 4000000) :
    (∑ j : Fin 3, max (ch3 Y0 k (ix2 r j) - ch3 Y1 k (ix2 r j)) (-(ch3 Y0 k (ix2 r j) - ch3 Y1 k (ix2 r j))))
      = Cert.Spec.rowAbs P Q ⟨grow t k r, hg⟩ := by
  have hrow : t.val * 6144 + (k.val * 256 + r.val) < 4000000 := by unfold grow at hg; omega
  have e : (⟨t.val * 6144 + (k.val * 256 + r.val), hrow⟩ : Fin 4000000) = ⟨grow t k r, hg⟩ :=
    Fin.ext (Nat.add_assoc _ _ _).symm
  unfold Cert.Spec.rowAbs
  refine Finset.sum_congr rfl fun j _ => ?_
  have eP : ch3 Y0 k (ix2 r j) = P (ix2 (⟨grow t k r, hg⟩ : Fin 4000000) j) :=
    (ch3_apply Y0 k r j).trans ((h0 ⟨k.val * 256 + r.val, by have := trips_le k; omega⟩ j hrow).trans
      (congrArg (fun n => P (ix2 n j)) e))
  have eQ : ch3 Y1 k (ix2 r j) = Q (ix2 (⟨grow t k r, hg⟩ : Fin 4000000) j) :=
    (ch3_apply Y1 k r j).trans ((h1 ⟨k.val * 256 + r.val, by have := trips_le k; omega⟩ j hrow).trans
      (congrArg (fun n => Q (ix2 n j)) e))
  rw [eP, eQ]

end Chunk

theorem tripStep_seg (P Q : Vec Ideal S4000000x3 .f32) (B : Vec Ideal S4000000x1 .i32) (t : Fin cfg0.N) (k : Fin k0_t1_loop.trips)
    (Y0 Y1 : Vec Ideal S6144x3 .f32) (Y2 : Vec Ideal S6144x8 .f32) (Y3 : Vec Ideal S6144x1 .i32)
    (h0 : Agree3 P t Y0) (h1 : Agree3 Q t Y1) (h3 : Agree1 B t Y3) (s : Scr Ideal) (g : Fin 1024) :
    (tripStep (BitVec.ofNat 32 ((grid0.coords t) 0).val) Y0 Y1 Y2 Y3 k s).1 (ix2 (0 : Fin 1) g)
      = s.1 (ix2 (0 : Fin 1) g) + ∑ r : Fin 256, (if h : grow t k r < 4000000 then
          (if Cert.Spec.inGraph (flatB B) g.val ⟨grow t k r, h⟩ then Cert.Spec.rowAbs P Q ⟨grow t k r, h⟩ else 0) else 0) := by
  show k0_pay4 (F := Ideal) s.1 (k0_pay10 _ 0#32 1#32 k (ch3 Y0 k) (ch3 Y1 k) (ch1 Y3 k)) (ix2 (0 : Fin 1) g) = _
  rw [Chunk.pay4_apply]
  refine congrArg (s.1 (ix2 (0 : Fin 1) g) + ·) (Finset.sum_congr rfl fun r _ => ?_)
  rw [Chunk.pay10_apply, Chunk.oneHot_eq B t k Y3 h3 r g, mask_eq]
  by_cases hg : grow t k r < 4000000
  · have hin := (Chunk.grow_lt_iff t k r).1 hg
    rw [dif_pos hg, dif_pos hg, if_pos hin, ValueIdx.select_one, Chunk.rowAbs_eq P Q t k Y0 Y1 h0 h1 r hg]
    by_cases hB : Cert.Spec.inGraph (flatB B) g.val ⟨grow t k r, hg⟩
    · rw [if_pos hB, if_pos hB, one_mul]
    · rw [if_neg hB, if_neg hB, zero_mul]
  · rw [dif_neg hg, dif_neg hg, zero_mul]

theorem tripStep_cnt (B : Vec Ideal S4000000x1 .i32) (t : Fin cfg0.N) (k : Fin k0_t1_loop.trips)
    (Y0 Y1 : Vec Ideal S6144x3 .f32) (Y2 : Vec Ideal S6144x8 .f32) (Y3 : Vec Ideal S6144x1 .i32)
    (h3 : Agree1 B t Y3) (s : Scr Ideal) (g : Fin 1024) :
    (tripStep (BitVec.ofNat 32 ((grid0.coords t) 0).val) Y0 Y1 Y2 Y3 k s).2.1 (ix2 (0 : Fin 1) g)
      = s.2.1 (ix2 (0 : Fin 1) g) + ∑ r : Fin 256, (if h : grow t k r < 4000000 then
          (if Cert.Spec.inGraph (flatB B) g.val ⟨grow t k r, h⟩ then (1 : EReal) else 0) else 0) := by
  show k0_pay5 (F := Ideal) (k0_pay9 _ 0#32 1#32 k (ch1 Y3 k)) s.2.1 (ix2 (0 : Fin 1) g) = _
  rw [Chunk.pay5_apply]
  exact congrArg (s.2.1 (ix2 (0 : Fin 1) g) + ·) (Finset.sum_congr rfl fun r _ => Chunk.oneHot_eq B t k Y3 h3 r g)

end Cert.KernelIdeal.KV

end
-- ==== Proof.ChunkFrcIdeal.lean ====
/-
  One chunk's contribution to the total force, at the ideal instance, in closed form; and the cleared accumulators.

  Chunk `k` of grid point `t` holds the global rows `6144 t + 256 k + r`, r < 256. To lane `g` of the error sums it
  adds the absolute error of each of its rows that is inside the array and belongs to graph `g`; to lane `g` of the
  counts, one for each such row; to the total force, the force norm of each of its rows inside the array.
-/
import proofs.«422350_j40346922778987_2_alg».proof.Proof.KStepIdeal
import proofs.«422350_j40346922778987_2_alg».proof.Proof.MaskIdeal
import proofs.«422350_j40346922778987_2_alg».proof.Proof.Spec
import proofs.«422350_j40346922778987_2_alg».proof.Proof.ChunkIdeal
import Idealize.ShloMosaic.PureOps.Ideal.Laws
import Idealize.ShloMosaic.Lib.Pipeline.Value
import Idealize.ShloMosaic.Lib.ValueLayout

noncomputable section

open scoped BigOperators

namespace Cert.KernelIdeal.KV

open Cert.KernelIdeal Cert.KernelIdeal.Gen
open Idealize.ShloMosaic Idealize.ShloMosaic.ValueIdx

/-- A square root at an index is the square root of the element. -/
theorem frc_sqrt_apply {s : Shape} {φ : FTy} (a : FVec Ideal s φ) (i : s.Idx) : sqrt a i = Ideal.sqrt (a i) := rfl

/-- The total-force update at its one index: what was there plus the sum of the chunk's 256 row values. -/
theorem frc_pay6_apply (v39 : FVec Ideal S256x1 .f32) (v63 : Vec Ideal S1x1 .f32) :
    k0_pay6 v39 v63 (ix2 (0 : Fin 1) (0 : Fin 1))
      = v63 (ix2 (0 : Fin 1) (0 : Fin 1)) + ∑ r : Fin 256, v39 (ix2 r (0 : Fin 1)) := by
  unfold k0_pay6
  dsimp only
  rw [shapeCast_self, addf_apply]
  congr 1
  refine (shapeCast_a_1a_apply _ _ (0 : Fin 1) (0 : Fin 1)).trans ?_
  refine (Ideal.multiReduction_add_single v39 0x00000000#32 reduces_S256x1_S1 _ _ (ix1 (0 : Fin 1))).trans ?_
  refine Finset.sum_congr rfl fun (r : Fin 256) _ => congrArg v39 ?_
  funext a
  match a with
  | ⟨0, _⟩ => rfl
  | ⟨1, _⟩ => rfl

/-- A row's masked force norm: at row `r` of the chunk, the square root of the squares of columns 3 and 4,
    or zero where the row mask is clear. -/
theorem frc_pay8_apply (arg0 : BitVec 32) (k : Fin k0_t1_loop.trips) (v16 : Vec Ideal S256x8 .f32) (r : Fin 256) :
    k0_pay8 arg0 0#32 1#32 k v16 (ix2 r (0 : Fin 1))
      = Scalar.select (k0_pay7 arg0 0#32 1#32 k (ix2 r (0 : Fin 1)))
          (Ideal.sqrt (∑ j : Fin 2, v16 (ix2 r (⟨3 + j.val, by omega⟩ : Fin 8)) * v16 (ix2 r (⟨3 + j.val, by omega⟩ : Fin 8))))
          0 := by
  unfold k0_pay8
  dsimp only
  rw [select_apply, frc_sqrt_apply, broadcast_apply]
  refine congrArg₂ (Scalar.select _) (congrArg Ideal.sqrt ?_) Ideal.ofBits_zero_f32
  refine (shapeCast_apply _ _ (ix2 r (0 : Fin 1)) (ix1 r) (by
    rw [Shape.rowMajor_val_one, Shape.rowMajor_val_two]
    show r.val = r.val * 1 + 0
    omega)).trans ?_
  refine (Ideal.multiReduction_add_single _ 0x00000000#32 reduces_S256x2_S256 _ _ (ix1 r)).trans ?_
  refine Finset.sum_congr rfl fun (j : Fin 2) _ => ?_
  have e : reduces_S256x2_S256.lift (ix1 r) j = ix2 r j := by
    funext a
    match a with
    | ⟨0, _⟩ => rfl
    | ⟨1, _⟩ => rfl
  rw [e, mulf_apply, slice2_axis1_apply 3 v16 _ r j (⟨3 + j.val, by omega⟩ : Fin 8) rfl]

/-- Row `r` of chunk `k` of a staged block of eight columns is row `256 k + r` of the block. -/
theorem frc_ch8_apply (Y : Vec Ideal S6144x8 .f32) (k : Fin k0_t1_loop.trips) (r : Fin 256) (j : Fin 8) :
    ch8 Y k (ix2 r j)
      = Y (ix2 (⟨256 * k.val + r.val, by have := k.isLt; have := k0_t1_abs.2.1; omega⟩ : Fin 6144) j) := by
  unfold ch8
  show Y _ = Y _
  refine congrArg Y (funext fun a => Fin.ext ?_)
  match a with
  | ⟨0, _⟩ =>
    show k0_off2 k 0 + 1 * r.val = 256 * k.val + r.val
    rw [k0_off2_eq]
    show 256 * k.val + 1 * r.val = 256 * k.val + r.val
    omega
  | ⟨1, _⟩ =>
    show k0_off2 k 1 + 1 * j.val = j.val
    rw [k0_off2_eq]
    show 0 + 1 * j.val = j.val
    omega

theorem tripStep_frc (X : Vec Ideal S4000000x8 .f32) (t : Fin cfg0.N) (k : Fin k0_t1_loop.trips)
    (Y0 Y1 : Vec Ideal S6144x3 .f32) (Y2 : Vec Ideal S6144x8 .f32) (Y3 : Vec Ideal S6144x1 .i32)
    (h2 : Agree8 X t Y2) (s : Scr Ideal) :
    (tripStep (BitVec.ofNat 32 ((grid0.coords t) 0).val) Y0 Y1 Y2 Y3 k s).2.2 (ix2 (0 : Fin 1) (0 : Fin 1))
      = s.2.2 (ix2 (0 : Fin 1) (0 : Fin 1)) + ∑ r : Fin 256, (if h : grow t k r < 4000000 then Cert.Spec.rowForce X ⟨grow t k r, h⟩ else 0) := by
  have hk : k.val < 24 := by have := k.isLt; have := k0_t1_abs.2.1; omega
  show k0_pay6 (k0_pay8 (BitVec.ofNat 32 ((grid0.coords t) 0).val) 0#32 1#32 k (ch8 Y2 k)) s.2.2 (ix2 (0 : Fin 1) (0 : Fin 1)) = _
  rw [frc_pay6_apply]
  congr 1
  refine Finset.sum_congr rfl fun r _ => ?_
  have hr := r.isLt
  rw [frc_pay8_apply, mask_eq]
  by_cases hin : t.val * 24 + k.val < 15625
  · -- the chunk lies inside the array: every row counts, and is the array's row
    have hg : grow t k r < 4000000 := by unfold grow; omega
    rw [dif_pos hg]
    show Scalar.select (if t.val * 24 + k.val < 15625 then 1#1 else 0#1) _ _ = _
    rw [if_pos hin, select_one]
    unfold Cert.Spec.rowForce
    refine congrArg Ideal.sqrt (Finset.sum_congr rfl fun j _ => ?_)
    have hj := j.isLt
    have hrow : t.val * 6144 + (256 * k.val + r.val) < 4000000 := by unfold grow at hg; omega
    have e : Y2 (ix2 (⟨256 * k.val + r.val, by omega⟩ : Fin 6144) (⟨3 + j.val, by omega⟩ : Fin 8))
        = X (ix2 (⟨grow t k r, hg⟩ : Fin 4000000) (⟨3 + j.val, by omega⟩ : Fin 8)) := by
      rw [h2 ⟨256 * k.val + r.val, by omega⟩ ⟨3 + j.val, by omega⟩ hrow]
      refine congrArg X ?_
      congr 1
      apply Fin.ext
      show t.val * 6144 + (256 * k.val + r.val) = grow t k r
      unfold grow; omega
    rw [frc_ch8_apply, e]
  · -- the chunk lies past the array's end: every row is masked to zero
    have hg : ¬ grow t k r < 4000000 := by unfold grow; omega
    rw [dif_neg hg]
    show Scalar.select (if t.val * 24 + k.val < 15625 then 1#1 else 0#1) _ _ = _
    rw [if_neg hin, select_zero]

/-- The cleared accumulators are zero. -/
theorem zeroScr_apply :
    (∀ g : Fin 1024, (zeroScr (F := Ideal)).1 (ix2 (0 : Fin 1) g) = 0) ∧ (∀ g : Fin 1024, (zeroScr (F := Ideal)).2.1 (ix2 (0 : Fin 1) g) = 0)
      ∧ (zeroScr (F := Ideal)).2.2 (ix2 (0 : Fin 1) (0 : Fin 1)) = 0 := by
  refine ⟨fun g => ?_, fun g => ?_, ?_⟩
  · show (k0_pay1 (F := Ideal)) (ix2 (0 : Fin 1) g) = 0
    unfold k0_pay1
    rw [shapeCast_self, broadcast_apply]
    exact Ideal.ofBits_zero_f32
  · show (k0_pay2 (F := Ideal)) (ix2 (0 : Fin 1) g) = 0
    unfold k0_pay2
    rw [shapeCast_self, broadcast_apply]
    exact Ideal.ofBits_zero_f32
  · show (k0_pay3 (F := Ideal)) (ix2 (0 : Fin 1) (0 : Fin 1)) = 0
    unfold k0_pay3
    rw [shapeCast_self, broadcast_apply]
    exact Ideal.ofBits_zero_f32

end Cert.KernelIdeal.KV

end
-- ==== Proof.AccumIdeal.lean ====
/-
  The accumulation over chunks and grid points, at the ideal instance.

  The 652 grid points visit 24 chunks of 256 rows each, in the order of the global row number: chunk k of point t
  holds the rows 6144 t + 256 k + r, r < 256. Each chunk adds to an accumulator the contributions f n of its rows n
  inside the array (n < 4000000). So after the chunks before k of point t the accumulator holds the partial sum of
  f over the rows n < 6144 t + 256 k, the first point starting from the cleared accumulator, and after the last
  chunk of the last point, since 6144 * 652 = 4005888 ≥ 4000000, the sum of f over all rows. With f the row's
  absolute error where the row belongs to graph g (and zero elsewhere), one where it belongs to graph g, and the
  row's force norm, these are the three quantities of the specification.
-/
import proofs.«422350_j40346922778987_2_alg».proof.Proof.KStepIdeal
import proofs.«422350_j40346922778987_2_alg».proof.Proof.MaskIdeal
import proofs.«422350_j40346922778987_2_alg».proof.Proof.Spec
import proofs.«422350_j40346922778987_2_alg».proof.Proof.ChunkIdeal
import proofs.«422350_j40346922778987_2_alg».proof.Proof.ChunkFrcIdeal

noncomputable section

open scoped BigOperators

namespace Cert.KernelIdeal.KV

open Cert.KernelIdeal Cert.KernelIdeal.Gen
open Idealize.ShloMosaic Idealize.ShloMosaic.ValueIdx

/-! ## Partial sums over an initial segment of the rows -/

/-- The sum of `f` over the rows below `b`. -/
def upTo {N : ℕ} (f : Fin N → EReal) (b : ℕ) : EReal := ∑ n : Fin N, if n.val < b then f n else 0

/-- One more row: the partial sum below `b + 1` adds row `b`'s term, if there is such a row. -/
theorem upTo_succ {N : ℕ} (f : Fin N → EReal) (b : ℕ) :
    upTo f (b + 1) = upTo f b + (if h : b < N then f ⟨b, h⟩ else 0) := by
  have h1 : ∀ n : Fin N, (if n.val < b + 1 then f n else 0)
      = (if n.val < b then f n else 0) + (if n.val = b then f n else 0) := by
    intro n
    rcases Nat.lt_trichotomy n.val b with h | h | h
    · rw [if_pos (Nat.lt_succ_of_lt h), if_pos h, if_neg (Nat.ne_of_lt h), add_zero]
    · rw [if_pos (by omega), if_neg (by omega), if_pos h, zero_add]
    · rw [if_neg (by omega), if_neg (by omega), if_neg (by omega), add_zero]
  unfold upTo
  rw [Finset.sum_congr rfl (fun n _ => h1 n), Finset.sum_add_distrib]
  congr 1
  by_cases h : b < N
  · rw [dif_pos h, Finset.sum_eq_single (⟨b, h⟩ : Fin N)]
    · rw [if_pos rfl]
    · intro n _ hn
      rw [if_neg]
      intro hh
      exact hn (Fin.ext hh)
    · intro hh
      exact absurd (Finset.mem_univ _) hh
  · rw [dif_neg h]
    apply Finset.sum_eq_zero
    intro n _
    rw [if_neg]
    have := n.isLt
    omega

/-- The partial sum below `b` is the sum over `i < b` of row `i`'s term, zero where there is no such row. -/
theorem upTo_eq_range {N : ℕ} (f : Fin N → EReal) (b : ℕ) :
    upTo f b = ∑ i ∈ Finset.range b, (if h : i < N then f ⟨i, h⟩ else 0) := by
  induction b with
  | zero =>
    unfold upTo
    rw [Finset.range_zero, Finset.sum_empty]
    apply Finset.sum_eq_zero
    intro n _
    rw [if_neg (Nat.not_lt_zero _)]
  | succ b ih => rw [upTo_succ, Finset.sum_range_succ, ih]

/-- A block of `m` further rows: the partial sum below `b + m` adds the terms of the rows `b + r`, `r < m`. -/
theorem upTo_add {N : ℕ} (f : Fin N → EReal) (b m : ℕ) :
    upTo f (b + m) = upTo f b + ∑ r : Fin m, (if h : b + r.val < N then f ⟨b + r.val, h⟩ else 0) := by
  rw [upTo_eq_range, upTo_eq_range, Finset.sum_range_add,
    Fin.sum_univ_eq_sum_range (fun i => if h : b + i < N then f ⟨b + i, h⟩ else 0) m]

/-- Past the last row the partial sum is the whole sum. -/
theorem upTo_all {N : ℕ} (f : Fin N → EReal) (b : ℕ) (hb : N ≤ b) : upTo f b = ∑ n : Fin N, f n := by
  unfold upTo
  apply Finset.sum_congr rfl
  intro n _
  rw [if_pos (Nat.lt_of_lt_of_le n.isLt hb)]

/-! ## The two facts about the schedule -/

/-- The accumulators are cleared at the first grid point and at no other. -/
theorem condFirst_iff : ∀ t : Fin cfg0.N, condFirst (grid0.coords t) ↔ t.val = 0 :=
  (by decide +kernel : ∀ t : Fin grid0.N, condFirst (grid0.coords t) ↔ t.val = 0)

/-- Every grid point visits 24 chunks. -/
theorem trips_eq : k0_t1_loop.trips = 24 := by decide +kernel

/-! ## One accumulator, read at one lane -/

section Generic

variable (Y0 Y1 : Fin cfg0.N → Vec Ideal S6144x3 .f32) (Y2 : Fin cfg0.N → Vec Ideal S6144x8 .f32)
  (Y3 : Fin cfg0.N → Vec Ideal S6144x1 .i32) (π : Scr Ideal → EReal) (f : Fin 4000000 → EReal)

/-- The reading `π` of the accumulators grows, over any chunk, by the terms `f n` of the chunk's rows inside the array. -/
def ChunkAdds : Prop := ∀ (t : Fin cfg0.N) (k : Fin k0_t1_loop.trips) (s : Scr Ideal),
  π (tripStep (BitVec.ofNat 32 ((grid0.coords t) 0).val) (Y0 t) (Y1 t) (Y2 t) (Y3 t) k s)
    = π s + ∑ r : Fin 256, (if h : grow t k r < 4000000 then f ⟨grow t k r, h⟩ else 0)

/-- Within grid point `t`, from the partial sum below the point's first row: after the chunks before `n` the reading
    is the partial sum below chunk `n`'s first row. -/
theorem loop_inv (hstep : ChunkAdds Y0 Y1 Y2 Y3 π f) (t : Fin cfg0.N) (s : Scr Ideal) (hs : π s = upTo f (t.val * 6144)) :
    ∀ n, n ≤ k0_t1_loop.trips →
      π (loopRes (BitVec.ofNat 32 ((grid0.coords t) 0).val) (Y0 t) (Y1 t) (Y2 t) (Y3 t) s n) = upTo f (t.val * 6144 + n * 256)
  | 0, _ => by
    rw [Nat.zero_mul, Nat.add_zero]
    exact hs
  | n + 1, hn => by
    have ih := loop_inv hstep t s hs n (Nat.le_of_succ_le hn)
    have e := loopRes_succ (BitVec.ofNat 32 ((grid0.coords t) 0).val) (Y0 t) (Y1 t) (Y2 t) (Y3 t) s ⟨n, hn⟩
    rw [e, hstep, ih, show t.val * 6144 + (n + 1) * 256 = (t.val * 6144 + n * 256) + 256 by ring,
      upTo_add f (t.val * 6144 + n * 256) 256]
    simp only [grow]
    rfl

/-- The whole point: from the partial sum below the point's first row to the one below the next point's. -/
theorem loop_all (hstep : ChunkAdds Y0 Y1 Y2 Y3 π f) (t : Fin cfg0.N) (s : Scr Ideal) (hs : π s = upTo f (t.val * 6144)) :
    π (loopRes (BitVec.ofNat 32 ((grid0.coords t) 0).val) (Y0 t) (Y1 t) (Y2 t) (Y3 t) s k0_t1_loop.trips)
      = upTo f ((t.val + 1) * 6144) := by
  rw [loop_inv Y0 Y1 Y2 Y3 π f hstep t s hs k0_t1_loop.trips le_rfl, trips_eq]
  congr 1
  ring

/-- After grid point `n` the reading is the partial sum below the next point's first row. -/
theorem point_inv (hz : π zeroScr = 0) (hstep : ChunkAdds Y0 Y1 Y2 Y3 π f) (s0 : Scr Ideal) :
    ∀ n (h : n < cfg0.N), π (accAll Y0 Y1 Y2 Y3 s0 n) = upTo f ((n + 1) * 6144)
  | 0, h => by
    have e := accAll_zero Y0 Y1 Y2 Y3 s0 ⟨0, h⟩ rfl
    have hc : condFirst (grid0.coords ⟨0, h⟩) := (condFirst_iff ⟨0, h⟩).2 rfl
    have hs : π zeroScr = upTo f ((⟨0, h⟩ : Fin cfg0.N).val * 6144) := by
      rw [hz, upTo_eq_range]
      rfl
    have := loop_all Y0 Y1 Y2 Y3 π f hstep ⟨0, h⟩ zeroScr hs
    change π (accAll Y0 Y1 Y2 Y3 s0 (⟨0, h⟩ : Fin cfg0.N).val) = _
    rw [e, pointRes, if_pos hc]
    exact this
  | n + 1, h => by
    have ih := point_inv hz hstep s0 n (Nat.lt_of_succ_lt h)
    have e := accAll_pos Y0 Y1 Y2 Y3 s0 ⟨n + 1, h⟩ (Nat.succ_ne_zero n)
    have hc : ¬ condFirst (grid0.coords ⟨n + 1, h⟩) := fun hh => Nat.succ_ne_zero n ((condFirst_iff ⟨n + 1, h⟩).1 hh)
    have := loop_all Y0 Y1 Y2 Y3 π f hstep ⟨n + 1, h⟩ (accAll Y0 Y1 Y2 Y3 s0 n) ih
    change π (accAll Y0 Y1 Y2 Y3 s0 (⟨n + 1, h⟩ : Fin cfg0.N).val) = _
    rw [e, pointRes, if_neg hc]
    exact this

/-- After the last grid point the reading is the sum over all rows. -/
theorem acc_all (hz : π zeroScr = 0) (hstep : ChunkAdds Y0 Y1 Y2 Y3 π f) (s0 : Scr Ideal) :
    π (accAll Y0 Y1 Y2 Y3 s0 651) = ∑ n : Fin 4000000, f n := by
  rw [point_inv Y0 Y1 Y2 Y3 π f hz hstep s0 651 (by decide)]
  exact upTo_all f _ (by norm_num)

end Generic

/-! ## The three accumulators after the last grid point -/

open Idealize.ShloMosaic.ValueIdx in
/-- From staged blocks that agree with the arrays on the rows inside them, the accumulators after the last grid
    point hold the specification's three quantities: per graph the summed error and the node count, and the total force. -/
theorem acc_final (P Q : Vec Ideal S4000000x3 .f32) (X : Vec Ideal S4000000x8 .f32) (B : Vec Ideal S4000000x1 .i32)
    (Y0 Y1 : Fin cfg0.N → Vec Ideal S6144x3 .f32) (Y2 : Fin cfg0.N → Vec Ideal S6144x8 .f32) (Y3 : Fin cfg0.N → Vec Ideal S6144x1 .i32)
    (h0 : ∀ t, Agree3 P t (Y0 t)) (h1 : ∀ t, Agree3 Q t (Y1 t)) (h2 : ∀ t, Agree8 X t (Y2 t)) (h3 : ∀ t, Agree1 B t (Y3 t)) (s0 : Scr Ideal) :
    (accAll Y0 Y1 Y2 Y3 s0 651).1 = (fun j => Cert.Spec.segSum P Q (flatB B) (ix1 (j 1)))
    ∧ (accAll Y0 Y1 Y2 Y3 s0 651).2.1 = (fun j => Cert.Spec.segCnt (flatB B) (ix1 (j 1)))
    ∧ (accAll Y0 Y1 Y2 Y3 s0 651).2.2 = (fun _ => Cert.Spec.force X ix0) := by
  refine ⟨?_, ?_, ?_⟩
  · funext j
    obtain ⟨a, g, rfl⟩ : ∃ (a : Fin 1) (g : Fin 1024), j = ix2 a g := ⟨j 0, j 1, eq_ix2 j⟩
    obtain rfl : a = 0 := Subsingleton.elim _ _
    exact acc_all Y0 Y1 Y2 Y3 (fun s => s.1 (ix2 (0 : Fin 1) g))
      (fun n => if Cert.Spec.inGraph (flatB B) g.val n then Cert.Spec.rowAbs P Q n else 0) (zeroScr_apply.1 g)
      (fun t k s => tripStep_seg P Q B t k (Y0 t) (Y1 t) (Y2 t) (Y3 t) (h0 t) (h1 t) (h3 t) s g) s0
  · funext j
    obtain ⟨a, g, rfl⟩ : ∃ (a : Fin 1) (g : Fin 1024), j = ix2 a g := ⟨j 0, j 1, eq_ix2 j⟩
    obtain rfl : a = 0 := Subsingleton.elim _ _
    exact acc_all Y0 Y1 Y2 Y3 (fun s => s.2.1 (ix2 (0 : Fin 1) g))
      (fun n => if Cert.Spec.inGraph (flatB B) g.val n then (1 : EReal) else 0) (zeroScr_apply.2.1 g)
      (fun t k s => tripStep_cnt B t k (Y0 t) (Y1 t) (Y2 t) (Y3 t) (h3 t) s g) s0
  · funext j
    obtain ⟨a, b, rfl⟩ : ∃ (a : Fin 1) (b : Fin 1), j = ix2 a b := ⟨j 0, j 1, eq_ix2 j⟩
    obtain rfl : a = 0 := Subsingleton.elim _ _
    obtain rfl : b = 0 := Subsingleton.elim _ _
    exact acc_all Y0 Y1 Y2 Y3 (fun s => s.2.2 (ix2 (0 : Fin 1) (0 : Fin 1)))
      (fun n => Cert.Spec.rowForce X n) zeroScr_apply.2.2
      (fun t k s => tripStep_frc X t k (Y0 t) (Y1 t) (Y2 t) (Y3 t) (h2 t) s) s0

end Cert.KernelIdeal.KV

end
-- ==== Proof.ResultIdeal.lean ====
/-
  The kernel's result as a function of its four arguments, at the ideal instance.

  The host operations after the region compute the closing arithmetic of the three result arrays, which hold the
  accumulators after the last grid point; those are the per-graph error sums, the per-graph node counts and the total
  force of the argument arrays (the graph ids reach the kernel as one column, a reshape of the flat vector).
-/
import proofs.«422350_j40346922778987_2_alg».proof.Proof.KernelTailIdeal
import proofs.«422350_j40346922778987_2_alg».proof.Proof.AccumIdeal
import proofs.«422350_j40346922778987_2_alg».proof.Proof.AgreeIdeal

set_option maxRecDepth 16384

noncomputable section

namespace Cert.KernelIdeal.KV

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-! ## The arrays the region finds, from the arguments -/

/-- The graph ids' column as the region finds it: the one host operation before the region reshapes the flat vector. -/
theorem V_main_v0 (c : Dev nD) :
    (V m c main_v0 : Vec Ideal S4000000x1 .i32)
      = shapeCast S4000000x1 (m ((c.tc : Thread nD τ).loc main_arg2)) shapeCasts_S4000000_S4000000x1 := by
  show StableHlo.after hostOps0 (fun b => m (c, b)) (Proc.devRef .tc main_v0) = _
  after_results
  rfl

/-- A flat vector reshaped to one column: entry `(n, 0)` is entry `n`. -/
theorem reshape_col_apply (x : Vec Ideal S4000000 .i32) (i : S4000000.Idx) :
    shapeCast S4000000x1 x shapeCasts_S4000000_S4000000x1 (ix2 (i 0) (0 : Fin 1)) = x i := by
  refine shapeCast_apply x _ _ i ?_
  rw [Shape.rowMajor_val_two, Shape.rowMajor_val_one]
  show (i 0).val = (i 0).val * _ + 0
  rw [Nat.add_zero]
  exact (Nat.mul_one _).symm

/-- Read back as a flat vector, the column the region finds is the argument. -/
theorem flatB_V (c : Dev nD) : flatB (V m c main_v0) = m ((c.tc : Thread nD τ).loc main_arg2) := by
  funext i
  unfold flatB
  rw [V_main_v0, reshape_col_apply]

/-! ## The accumulators after the last grid point, from the arguments -/

/-- After the last grid point the three accumulators hold, per graph, the summed error and the node count of the
    argument arrays, and their total force: the staged blocks agree with the arrays on the rows inside them. -/
theorem accAt_final (c : Dev nD) :
    (accAt m c 651).1 = (fun j => Cert.Spec.segSum (m ((c.tc : Thread nD τ).loc main_arg0)) (m ((c.tc : Thread nD τ).loc main_arg1))
        (m ((c.tc : Thread nD τ).loc main_arg2)) (ix1 (j 1)))
    ∧ (accAt m c 651).2.1 = (fun j => Cert.Spec.segCnt (m ((c.tc : Thread nD τ).loc main_arg2)) (ix1 (j 1)))
    ∧ (accAt m c 651).2.2 = (fun _ => Cert.Spec.force (m ((c.tc : Thread nD τ).loc main_arg3)) ix0) := by
  rw [← flatB_V m c, ← V_main_arg0 m c, ← V_main_arg1 m c, ← V_main_arg3 m c]
  unfold accAt
  exact acc_final (V m c main_arg0) (V m c main_arg1) (V m c main_arg3) (V m c main_v0)
    (stg0 m c) (stg1 m c) (stg2 m c) (stg3 m c)
    (fun t => agree_fill0 m c t _) (fun t => agree_fill1 m c t _) (fun t => agree_fill2 m c t _)
    (fun t => agree_fill3 m c t _) zeroScr

theorem result_value (c : Dev nD) :
    Pipeline.afterTail₀ cfgs (dats m) 0 (V0 m) [hostOps1] c main_v15
      = Cert.Spec.tailOps
          (Cert.Spec.segSum (m ((c.tc : Thread nD τ).loc main_arg0)) (m ((c.tc : Thread nD τ).loc main_arg1)) (m ((c.tc : Thread nD τ).loc main_arg2)))
          (Cert.Spec.segCnt (m ((c.tc : Thread nD τ).loc main_arg2)))
          (Cert.Spec.force (m ((c.tc : Thread nD τ).loc main_arg3))) := by
  rw [tail_value m c]
  obtain ⟨h1, h2, h3⟩ := accAt_final m c
  rw [h1, h2, h3]
  -- the three arguments agree entry by entry: a graph's index is its one coordinate, the scalar has one index
  congr 1

end Cert.KernelIdeal.KV

end
-- ==== Proof.KernelRunIdeal.lean ====
/-
  The idealized kernel's run with its result named: every weakly fair execution terminates, the result buffer holds the
  closing arithmetic of the per-graph error sums, the per-graph node counts and the total force of the arguments, and
  the four argument arrays end as launched.
-/
import proofs.«422350_j40346922778987_2_alg».proof.Proof.FrameBIdeal
import proofs.«422350_j40346922778987_2_alg».proof.Proof.ResultIdeal

set_option maxRecDepth 16384

noncomputable section

namespace Cert.KernelIdeal.KV

open Cert.KernelIdeal Cert.KernelIdeal.Gen
open Idealize.ShloMosaic Idealize.ShloMosaic.TcCoe
open Idealize.SL Idealize.SL.Sem

theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15)
        = Cert.Spec.tailOps
            (Cert.Spec.segSum (m ((c.tc : Thread nD τ).loc main_arg0)) (m ((c.tc : Thread nD τ).loc main_arg1)) (m ((c.tc : Thread nD τ).loc main_arg2)))
            (Cert.Spec.segCnt (m ((c.tc : Thread nD τ).loc main_arg2)))
            (Cert.Spec.force (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v15 (Pipeline.mem_restRefs_of main_v15 (by decide) (by decide))).trans (result_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c)))⟩)
    (run_main m ρ)

end Cert.KernelIdeal.KV

end
-- ==== Proof.RefValue.lean ====
/-
  The reference's value. The reference program computes, from node arrays p, q : [4000000, 3], graph ids
  b : [4000000] and x : [4000000, 8], one scalar; here its run's result term is shown equal to the neutral
  specification's: the per-node absolute error summed over the features (`rowAbs`), accumulated per graph by
  an adding scatter onto zeros (`segSum`), the per-graph node count accumulated the same way from ones
  (`segCnt`), the planar force norms summed over all nodes (`force`), and the closing arithmetic (`tailOps`).

  The one step that is not a reading of an elementwise operation at an index is the scatter: with one index
  component per node, no window axis and the single operand axis inserted, update `n` lands on operand
  element `g` exactly when node `n`'s id, read as a signed word, is `g` (an id outside the operand lands
  nowhere), so the scatter at `g` is the operand at `g` plus the sum of the updates of the nodes of graph `g`.
-/
import proofs.«422350_j40346922778987_2_alg».proof.Defs
import proofs.«422350_j40346922778987_2_alg».proof.Proof.Gen.ReferenceIdeal.Run
import proofs.«422350_j40346922778987_2_alg».proof.Proof.Gen.ReferenceIdeal.Read
import proofs.«422350_j40346922778987_2_alg».proof.Proof.Spec

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Cert.ReferenceIdeal.Read

/-- The word `0x3F800000` denotes the real one. -/
theorem ofBits_one : Ideal.ofBits .f32 0x3F800000#32 = 1 := by
  simp [Ideal.ofBits, Ideal.ieee, -EReal.coe_mul]; norm_num

/-- Column `k` of row `n`, as the row sum's index function spells it. -/
theorem idx_v2 (n : Fin 4000000) (k : Fin 3) : idx_main_v2 (ix1 n) k = ix2 n k := by
  funext a; match a with | ⟨0, _⟩ => rfl | ⟨1, _⟩ => rfl

/-- The row sum of absolute differences at row `n`. -/
theorem absSum_apply (x0 x1 : S4000000x3.Idx → EReal) (n : Fin 4000000) :
    val_main_v2 (F := Ideal) x0 x1 (ix1 n) = Cert.Spec.rowAbs x0 x1 n := by
  rw [val_main_v2_apply, val_main_cst_apply]
  simp only [val_main_v1_apply, val_main_v0_apply, idx_v2, Ideal.ofBits_def, Ideal.ofBits_zero_f32, zero_add,
    Ideal.hostAbsf_def, Ideal.absf_def, Ideal.subf_def]
  rfl

/-- Column `3 + k` of row `n`: the slice's column `k`, as the two index functions compose. -/
theorem idx_v15 (n : Fin 4000000) (k : Fin 2) :
    idx_main_v15 (idx_main_call0_v1 (ix1 n) k) = ix2 n (⟨3 + k.val, by omega⟩ : Fin 8) := by
  funext a; match a with | ⟨0, _⟩ => rfl | ⟨1, _⟩ => rfl

/-- The norm of node `n`: the square root of the sum of the squares of columns 3 and 4. -/
theorem force_apply (x3 : S4000000x8.Idx → EReal) (n : Fin 4000000) :
    val_main_v16 (F := Ideal) x3 (ix1 n) = Cert.Spec.rowForce x3 n := by
  rw [val_main_v16_apply, val_main_call0_v1_apply, val_main_call0_cst_apply]
  simp only [val_main_call0_v0_apply, val_main_v15_apply, idx_v15, Ideal.ofBits_def, Ideal.ofBits_zero_f32, zero_add,
    Ideal.hostUnary_sqrt_def, Ideal.mulf_def]
  rfl

/-- The scatter's dimension numbers: one index component per node, no window axis, the operand's axis inserted. -/
abbrev dS := scatter_S1024_S4000000x1_S4000000_n_0_0_1

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Update `j`'s window starts at node `j`'s id read as a signed word, not clamped. -/
theorem start_eq (b : S4000000.Idx → BitVec 32) (j : S4000000.Idx) (a : Fin S1024.rank) :
    dS.start j (val_main_v5 (F := Ideal) b) a = (b j).toInt := by
  obtain rfl : a = 0 := Subsingleton.elim _ _
  unfold ScatterDims.start
  rw [dif_pos (show (0 : Fin 1) ∈ dS.scatterDimsToOperandDims from List.mem_singleton.mpr rfl), val_main_v5_apply]
  refine congrArg (fun t => (b t).toInt) ?_
  funext c
  match c with
  | ⟨0, _⟩ => rfl

/-- There is no window axis: every window coordinate is zero. -/
theorem window_eq (j : S4000000.Idx) (a : Fin S1024.rank) : dS.window j a = 0 := by
  obtain rfl : a = 0 := Subsingleton.elim _ _
  unfold ScatterDims.window
  rw [dif_neg (by decide)]

/-- Update `j` lands on operand element `i` exactly when node `j`'s signed id is `i`'s coordinate; an id outside
    `0 ≤ id < 1024` lands nowhere. -/
theorem lands_iff (b : S4000000.Idx → BitVec 32) (j : S4000000.Idx) (i : S1024.Idx) :
    dS.resultIdx? j (val_main_v5 (F := Ideal) b) = some i ↔ (b j).toInt = ((i 0).val : ℤ) := by
  have hsz : S1024.size 0 = 1024 := rfl
  have hi : (i 0).val < 1024 := (i 0).isLt
  unfold ScatterDims.resultIdx?
  by_cases h : ∀ a, 0 ≤ dS.start j (val_main_v5 (F := Ideal) b) a + dS.window j a ∧
      dS.start j (val_main_v5 (F := Ideal) b) a + dS.window j a < S1024.size a
  · rw [dif_pos h]
    have h0 := h 0
    rw [start_eq, window_eq, hsz] at h0
    constructor
    · intro he
      have h1 := congrArg Fin.val (congrFun (Option.some.inj he) 0)
      simp only [start_eq, window_eq] at h1
      omega
    · intro he
      refine congrArg some (funext fun a => ?_)
      obtain rfl : a = 0 := Subsingleton.elim _ _
      refine Fin.ext ?_
      show (dS.start j (val_main_v5 (F := Ideal) b) 0 + dS.window j 0).toNat = (i 0).val
      rw [start_eq, window_eq]
      omega
  · rw [dif_neg h]
    refine ⟨fun he => absurd he (by simp), fun he => absurd ?_ h⟩
    intro a
    obtain rfl : a = 0 := Subsingleton.elim _ _
    rw [start_eq, window_eq, hsz]
    omega

/-- The accumulating scatter read at graph `g`: the operand there plus the updates of the nodes whose id is `g`. -/
theorem scatter_apply (op : S1024.Idx → EReal) (b : S4000000.Idx → BitVec 32) (upd : S4000000.Idx → EReal) (g : S1024.Idx) :
    Host.scatterAdd (F := Ideal) (φ := .f32) dS op (val_main_v5 (F := Ideal) b) upd g
      = op g + ∑ n : Fin 4000000, if Cert.Spec.inGraph b (g 0).val n then upd (ix1 n) else 0 := by
  show Ideal.hostScatterAdd dS op (val_main_v5 (F := Ideal) b) upd g = _
  unfold Ideal.hostScatterAdd
  rw [Finset.sum_filter, sum_idx1]
  refine congrArg (op g + ·) (Finset.sum_congr rfl fun n _ => ?_)
  exact if_congr (lands_iff b (ix1 n) g) rfl rfl

/-- Graph `g`'s summed error, as the program accumulates it onto zeros. -/
theorem seg_apply (x0 x1 : S4000000x3.Idx → EReal) (x2 : S4000000.Idx → BitVec 32) (g : Fin 1024) :
    val_main_v6 (F := Ideal) x0 x1 x2 (ix1 g) = Cert.Spec.segSum x0 x1 x2 (ix1 g) := by
  refine (scatter_apply (val_main_v4 (F := Ideal)) x2 (val_main_v2 (F := Ideal) x0 x1) (ix1 g)).trans ?_
  rw [val_main_v4_apply, val_main_cst_1_apply]
  simp only [Ideal.ofBits_def, Ideal.ofBits_zero_f32, zero_add, absSum_apply]
  unfold Cert.Spec.segSum
  with_reducible rfl

/-- Graph `g`'s node count: ones accumulated onto zeros. -/
theorem cnt_apply (x2 : S4000000.Idx → BitVec 32) (g : Fin 1024) :
    val_main_v9 (F := Ideal) x2 (ix1 g) = Cert.Spec.segCnt x2 (ix1 g) := by
  refine (scatter_apply (val_main_v7 (F := Ideal)) x2 (val_main_v3 (F := Ideal)) (ix1 g)).trans ?_
  rw [val_main_v7_apply, val_main_cst_2_apply]
  simp only [val_main_v3_apply, val_main_cst_0_apply, Ideal.ofBits_def, Ideal.ofBits_zero_f32, zero_add, ofBits_one]
  unfold Cert.Spec.segCnt
  with_reducible rfl

/-- The total force: the norms summed over every node, from zero. -/
theorem frc_apply (x3 : S4000000x8.Idx → EReal) (i : S_.Idx) :
    val_main_v17 (F := Ideal) x3 i = Cert.Spec.force x3 ix0 := by
  rw [val_main_v17_apply, val_main_cst_5_apply, sum_idx1]
  simp only [Ideal.ofBits_def, Ideal.ofBits_zero_f32, zero_add, force_apply]
  unfold Cert.Spec.force
  with_reducible rfl

/-- One graph's term on abstract values: the operations read at the ideal instance. -/
theorem term_arith (s c f : EReal) :
    FloatOps.mulf (F := Ideal) (φ := .f32)
        (FloatOps.hostDivf s (FloatOps.mulf (FloatOps.maximumf c (FloatOps.ofBits .f32 0x3F800000#32))
          (FloatOps.ofBits .f32 0x40400000#32)))
        (FloatOps.maximumf f (FloatOps.ofBits .f32 0x3DCCCCCD#32))
      = Ideal.div s (max c (Ideal.ofBits .f32 0x3F800000#32) * Ideal.ofBits .f32 0x40400000#32)
          * max f (Ideal.ofBits .f32 0x3DCCCCCD#32) := rfl

/-- Graph `g`'s term of the final mean: its error over three times its count raised to at least one, scaled
    by the force raised to at least the word `0x3DCCCCCD`. -/
theorem term_apply (x0 x1 : S4000000x3.Idx → EReal) (x2 : S4000000.Idx → BitVec 32) (x3 : S4000000x8.Idx → EReal)
    (g : Fin 1024) :
    val_main_v20 (F := Ideal) x0 x1 x2 x3 (ix1 g)
      = Ideal.div (Cert.Spec.segSum x0 x1 x2 (ix1 g))
          (max (Cert.Spec.segCnt x2 (ix1 g)) (Ideal.ofBits .f32 0x3F800000#32) * Ideal.ofBits .f32 0x40400000#32)
          * max (Cert.Spec.force x3 ix0) (Ideal.ofBits .f32 0x3DCCCCCD#32) := by
  rw [val_main_v20_apply, val_main_v14_apply, val_main_v13_apply, val_main_v11_apply, val_main_v19_apply,
    val_main_v18_apply, val_main_v10_apply, val_main_v12_apply, val_main_cst_3_apply, val_main_cst_4_apply,
    val_main_cst_6_apply, seg_apply, cnt_apply, frc_apply]
  exact term_arith _ _ _

/-- The closing mean on abstract per-graph terms: the operations read at the ideal instance. -/
theorem tail_arith (t : Fin 1024 → EReal) :
    FloatOps.mulf (F := Ideal) (φ := .f32)
        (FloatOps.hostDivf (FloatOps.ofBits .f32 0x00000000#32 + ∑ g : Fin 1024, t g) (FloatOps.ofBits .f32 0x44800000#32))
        (FloatOps.ofBits .f32 0x42C80000#32)
      = Ideal.div (Ideal.ofBits .f32 0x00000000#32 + ∑ g : Fin 1024, t g) (Ideal.ofBits .f32 0x44800000#32)
          * Ideal.ofBits .f32 0x42C80000#32 := rfl

/-- The program's result is the closing arithmetic on the three reduced quantities. -/
theorem tail_eq (x0 x1 : S4000000x3.Idx → EReal) (x2 : S4000000.Idx → BitVec 32) (x3 : S4000000x8.Idx → EReal) :
    val_main_v23 (F := Ideal) x0 x1 x2 x3
      = Cert.Spec.tailOps (Cert.Spec.segSum x0 x1 x2) (Cert.Spec.segCnt x2) (Cert.Spec.force x3) := by
  funext i
  rw [val_main_v23_apply, val_main_v22_apply, val_main_v21_apply, sum_idx1, val_main_cst_7_apply,
    val_main_cst_8_apply, val_main_cst_9_apply, Finset.sum_congr rfl fun g _ => term_apply x0 x1 x2 x3 g]
  unfold Cert.Spec.tailOps
  exact tail_arith _

/-- Every weakly fair execution of the reference ends with its result at the closing arithmetic of the three
    reduced quantities of the launch arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23)
        = Cert.Spec.tailOps (Cert.Spec.segSum (m ((c.tc : Thread nD τ).loc main_arg0)) (m ((c.tc : Thread nD τ).loc main_arg1)) (m ((c.tc : Thread nD τ).loc main_arg2))) (Cert.Spec.segCnt (m ((c.tc : Thread nD τ).loc main_arg2))) (Cert.Spec.force (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans ((val_main_v23_eq _ _ _ _).trans (tail_eq _ _ _ _)), (h c).2⟩)
    (Cert.ReferenceIdeal.Value.run (F := Ideal) m ρ)

end Cert.ReferenceIdeal.RefValue

end
-- ==== Proof.lean ====
/-
  The certificate of the graph-wise error kernel against its reference.

  Both programs take node predictions and targets p, q : [4000000, 3], sorted-or-not integer graph ids b : [4000000]
  and node features x : [4000000, 8], and return one scalar: the mean over the 1024 graphs of
  (Σ_{n : b n = g} Σ_j |p n j − q n j|) / (3 · max(#{n : b n = g}, 1)) · max(Σ_n sqrt(x n 3 ² + x n 4 ²), 0.1), times 100.
  The reference computes the two per-graph quantities by scatter-adds over the nodes (an id outside 0 ≤ g < 1024 lands
  nowhere). The kernel walks the nodes in 652 blocks of 6144 rows, 24 chunks of 256 rows each, and in each chunk
  selects every row's graph by comparing its id with the 1024 lane numbers, so that a lane's sum of the selected row
  errors is the chunk's contribution to that graph; rows past the end of the arrays (the last block overhangs them)
  are masked before they enter any sum, a whole chunk at a time since 4000000 is a multiple of 256. Over the extended
  reals sums commute and associate and 0 · x = 0, 1 · x = x for every x, so the kernel's blocked, masked sums are the
  reference's sums, with no finiteness needed; the closing arithmetic is the same text in both programs.

  The three frames: the kernel's body is run symbolically once per case of its two branches (first block, last block,
  a block between), its chunk loop by its invariant, at any float instance, which gives the word-level and the
  idealized kernel's frames from one text; the reference's frame is its run with the result dropped.
-/
import proofs.«422350_j40346922778987_2_alg».proof.Defs
import proofs.«422350_j40346922778987_2_alg».proof.Proof.Gen.Kernel
import proofs.«422350_j40346922778987_2_alg».proof.Proof.Gen.KernelIdeal
import proofs.«422350_j40346922778987_2_alg».proof.Proof.Gen.ReferenceIdeal
import proofs.«422350_j40346922778987_2_alg».proof.Proof.Gen.Pre_finite_inputs
import proofs.«422350_j40346922778987_2_alg».proof.Proof.FrameBBits
import proofs.«422350_j40346922778987_2_alg».proof.Proof.KernelRunIdeal
import proofs.«422350_j40346922778987_2_alg».proof.Proof.RefValue

noncomputable section

namespace Cert.Proof

open Idealize.ShloMosaic Idealize.SL.Sem

/-- The word-level kernel runs to the end and leaves its arguments unchanged. -/
theorem frame_k : @Cert.frame_Kernel Cert.Kernel.Gen.facts Cert.Pre_finite_inputs.Gen.facts :=
  fun m ρ _ => Cert.Kernel.KV.frame m ρ

/-- So does the idealized kernel. -/
theorem frame_ki : @Cert.frame_KernelIdeal Cert.KernelIdeal.Gen.facts Cert.Pre_finite_inputs.Gen.facts :=
  fun m ρ _ => (θ_run Cert.KernelIdeal.defs _ _).mono (fun _ h c => (h c).2) (Cert.KernelIdeal.KV.kernel_run m ρ)

/-- And the reference: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefValue.run m ρ)

/-- From memories that agree on the arguments both idealized programs end with the same scalar: the closing arithmetic
    of the same three reduced quantities of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.KV.kernel_run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
